-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v4)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x4 : Shape := ⟨3, ![16, 128, 4]⟩
abbrev S16x8400x4 : Shape := ⟨3, ![16, 8400, 4]⟩
abbrev S8400x4 : Shape := ⟨2, ![8400, 4]⟩
abbrev S_ : Shape := ⟨0, ![]⟩

class Facts : Prop where
  bcast_S_S16x128x4 : S_.BroadcastsInDim S16x128x4 (![] : Fin 0 → Fin S16x128x4.rank)
  reducesTo_S16x128x4_S_d0_1_2 : S16x128x4.ReducesTo [0, 1, 2] S_
  h_S_ : 0 < S_.numel
  bcast_S_S16x8400x4 : S_.BroadcastsInDim S16x8400x4 (![] : Fin 0 → Fin S16x8400x4.rank)
  reducesTo_S16x8400x4_S_d0_1_2 : S16x8400x4.ReducesTo [0, 1, 2] S_
  bcast_S_S8400x4 : S_.BroadcastsInDim S8400x4 (![] : Fin 0 → Fin S8400x4.rank)
  reducesTo_S8400x4_S_d0_1 : S8400x4.ReducesTo [0, 1] S_

variable [Facts]

def fn {F : FTy → Type} [FloatOps F] (main_arg0 : FVec F S16x128x4 .f32) (main_arg1 : FVec F S16x8400x4 .f32) (main_arg2 : FVec F S8400x4 .f32) : IVec S_ 1 :=
  let main_v0 : FVec F S16x128x4 .f32 := Host.absf main_arg0
  let main_cst : FVec F S_ .f32 := constant S_ .f32 0x7F800000#32
  let main_v1 : FVec F S16x128x4 .f32 := broadcastInDim S16x128x4 ![] bcast_S_S16x128x4 main_cst
  let main_v2 : IVec S16x128x4 1 := cmpf .olt main_v0 main_v1
  let main_c : IVec S_ 1 := constantI S_ 1 1#1
  let main_v3 : IVec S_ 1 := (fun x v => Host.reduce IntOp.andi x v reducesTo_S16x128x4_S_d0_1_2 h_S_) main_v2 main_c
  let main_v4 : FVec F S16x8400x4 .f32 := Host.absf main_arg1
  let main_cst_0 : FVec F S_ .f32 := constant S_ .f32 0x7F800000#32
  let main_v5 : FVec F S16x8400x4 .f32 := broadcastInDim S16x8400x4 ![] bcast_S_S16x8400x4 main_cst_0
  let main_v6 : IVec S16x8400x4 1 := cmpf .olt main_v4 main_v5
  let main_c_1 : IVec S_ 1 := constantI S_ 1 1#1
  let main_v7 : IVec S_ 1 := (fun x v => Host.reduce IntOp.andi x v reducesTo_S16x8400x4_S_d0_1_2 h_S_) main_v6 main_c_1
  let main_v8 : IVec S_ 1 := andi main_v3 main_v7
  let main_v9 : FVec F S8400x4 .f32 := Host.absf main_arg2
  let main_cst_2 : FVec F S_ .f32 := constant S_ .f32 0x7F800000#32
  let main_v10 : FVec F S8400x4 .f32 := broadcastInDim S8400x4 ![] bcast_S_S8400x4 main_cst_2
  let main_v11 : IVec S8400x4 1 := cmpf .olt main_v9 main_v10
  let main_c_3 : IVec S_ 1 := constantI S_ 1 1#1
  let main_v12 : IVec S_ 1 := (fun x v => Host.reduce IntOp.andi x v reducesTo_S8400x4_S_d0_1 h_S_) main_v11 main_c_3
  let main_v13 : IVec S_ 1 := andi main_v8 main_v12
  main_v13
-- ==== Kernel.lean ====
abbrev S16x128x4 : Shape := ⟨3, ![16, 128, 4]⟩
abbrev S16x8400x4 : Shape := ⟨3, ![16, 8400, 4]⟩
abbrev S8400x4 : Shape := ⟨2, ![8400, 4]⟩
abbrev S2048x4 : Shape := ⟨2, ![2048, 4]⟩
abbrev S4x8400 : Shape := ⟨2, ![4, 8400]⟩
abbrev S2048x8400 : Shape := ⟨2, ![2048, 8400]⟩
abbrev S16x4 : Shape := ⟨2, ![16, 4]⟩
abbrev S16x8400 : Shape := ⟨2, ![16, 8400]⟩
abbrev S16x1 : Shape := ⟨2, ![16, 1]⟩
abbrev S1x8400 : Shape := ⟨2, ![1, 8400]⟩
abbrev S16x4x8400 : Shape := ⟨3, ![16, 4, 8400]⟩
abbrev S16x128x8400 : Shape := ⟨3, ![16, 128, 8400]⟩
abbrev S1x64x4 : Shape := ⟨3, ![1, 64, 4]⟩
abbrev S1x4x8400 : Shape := ⟨3, ![1, 4, 8400]⟩
abbrev S1x64x8400 : Shape := ⟨3, ![1, 64, 8400]⟩
abbrev S64x4 : Shape := ⟨2, ![64, 4]⟩
abbrev S64x1 : Shape := ⟨2, ![64, 1]⟩
abbrev S64x8400 : Shape := ⟨2, ![64, 8400]⟩

abbrev nBuf : Space → Nat
  | .hbm => 9
  | .vmem => 13
  | .smem => 0
  | _ => 0

abbrev bufTy : (tb : Table) → Fin (tcTables nBuf tb) → BufTy
  | .hbm, ⟨0, _⟩ => ⟨S16x128x4, .f32⟩
  | .hbm, ⟨1, _⟩ => ⟨S16x8400x4, .f32⟩
  | .hbm, ⟨2, _⟩ => ⟨S8400x4, .f32⟩
  | .hbm, ⟨3, _⟩ => ⟨S2048x4, .f32⟩
  | .hbm, ⟨4, _⟩ => ⟨S4x8400, .f32⟩
  | .hbm, ⟨5, _⟩ => ⟨S2048x8400, .f32⟩
  | .hbm, ⟨6, _⟩ => ⟨S2048x8400, .f32⟩
  | .hbm, ⟨7, _⟩ => ⟨S16x4x8400, .f32⟩
  | .hbm, ⟨8, _⟩ => ⟨S16x128x8400, .f32⟩
  | .local _ .vmem, ⟨0, _⟩ => ⟨S16x4, .f32⟩
  | .local _ .vmem, ⟨1, _⟩ => ⟨S16x4, .f32⟩
  | .local _ .vmem, ⟨2, _⟩ => ⟨S4x8400, .f32⟩
  | .local _ .vmem, ⟨3, _⟩ => ⟨S16x8400, .f32⟩
  | .local _ .vmem, ⟨4, _⟩ => ⟨S16x8400, .f32⟩
  | .local _ .vmem, ⟨5, _⟩ => ⟨S16x8400, .f32⟩
  | .local _ .vmem, ⟨6, _⟩ => ⟨S16x8400, .f32⟩
  | .local _ .vmem, ⟨7, _⟩ => ⟨S1x64x4, .f32⟩
  | .local _ .vmem, ⟨8, _⟩ => ⟨S1x64x4, .f32⟩
  | .local _ .vmem, ⟨9, _⟩ => ⟨S1x4x8400, .f32⟩
  | .local _ .vmem, ⟨10, _⟩ => ⟨S1x4x8400, .f32⟩
  | .local _ .vmem, ⟨11, _⟩ => ⟨S1x64x8400, .f32⟩
  | .local _ .vmem, ⟨12, _⟩ => ⟨S1x64x8400, .f32⟩
  | _, _ => ⟨S16x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x8400 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x8400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x8400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x64x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x4x8400 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x64x8400 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  shapeCasts_S16x128x4_S2048x4 : S16x128x4.ShapeCasts S2048x4
  transposes_S8400x4_S4x8400_1_0 : S8400x4.Transposes [1, 0] S4x8400
  inb_S16x4_S16x4_0_0 : ∀ a, (![0, 0] : Fin 2 → Nat) a + S16x4.size a ≤ S16x4.size a
  h_S16x4 : 0 < S16x4.numel
  shapeCasts_S16x4_S16x4 : S16x4.ShapeCasts S16x4
  inb_S4x8400_S4x8400_0_0 : ∀ a, (![0, 0] : Fin 2 → Nat) a + S4x8400.size a ≤ S4x8400.size a
  h_S4x8400 : 0 < S4x8400.numel
  shapeCasts_S4x8400_S4x8400 : S4x8400.ShapeCasts S4x8400
  slices_S16x4_o0_0_S16x1 : S16x4.Slices ![0, 0] S16x1
  slices_S16x4_o0_1_S16x1 : S16x4.Slices ![0, 1] S16x1
  slices_S16x4_o0_2_S16x1 : S16x4.Slices ![0, 2] S16x1
  slices_S16x4_o0_3_S16x1 : S16x4.Slices ![0, 3] S16x1
  slices_S4x8400_o0_0_S1x8400 : S4x8400.Slices ![0, 0] S1x8400
  slices_S4x8400_o1_0_S1x8400 : S4x8400.Slices ![1, 0] S1x8400
  slices_S4x8400_o2_0_S1x8400 : S4x8400.Slices ![2, 0] S1x8400
  slices_S4x8400_o3_0_S1x8400 : S4x8400.Slices ![3, 0] S1x8400
  broadcasts_S16x1_S16x8400 : S16x1.Broadcasts S16x8400
  broadcasts_S1x8400_S16x8400 : S1x8400.Broadcasts S16x8400
  inb_S16x8400_S16x8400_0_0 : ∀ a, (![0, 0] : Fin 2 → Nat) a + S16x8400.size a ≤ S16x8400.size a
  h_S16x8400 : 0 < S16x8400.numel
  transposes_S16x8400x4_S16x4x8400_0_2_1 : S16x8400x4.Transposes [0, 2, 1] S16x4x8400
  inb_S1x64x4_S1x64x4_0_0_0 : ∀ a, (![0, 0, 0] : Fin 3 → Nat) a + S1x64x4.size a ≤ S1x64x4.size a
  h_S1x64x4 : 0 < S1x64x4.numel
  shapeCasts_S1x64x4_S64x4 : S1x64x4.ShapeCasts S64x4
  inb_S1x4x8400_S1x4x8400_0_0_0 : ∀ a, (![0, 0, 0] : Fin 3 → Nat) a + S1x4x8400.size a ≤ S1x4x8400.size a
  h_S1x4x8400 : 0 < S1x4x8400.numel
  shapeCasts_S1x4x8400_S4x8400 : S1x4x8400.ShapeCasts S4x8400
  slices_S64x4_o0_0_S64x1 : S64x4.Slices ![0, 0] S64x1
  slices_S64x4_o0_1_S64x1 : S64x4.Slices ![0, 1] S64x1
  slices_S64x4_o0_2_S64x1 : S64x4.Slices ![0, 2] S64x1
  slices_S64x4_o0_3_S64x1 : S64x4.Slices ![0, 3] S64x1
  broadcasts_S64x1_S64x8400 : S64x1.Broadcasts S64x8400
  broadcasts_S1x8400_S64x8400 : S1x8400.Broadcasts S64x8400
  inb_S1x64x8400_S1x64x8400_0_0_0 : ∀ a, (![0, 0, 0] : Fin 3 → Nat) a + S1x64x8400.size a ≤ S1x64x8400.size a
  h_S1x64x8400 : 0 < S1x64x8400.numel
  shapeCasts_S1x64x8400_S64x8400 : S1x64x8400.ShapeCasts S64x8400
  shapeCasts_S64x8400_S1x64x8400 : S64x8400.ShapeCasts S1x64x8400
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x4.size a ≤ S2048x4.size a
  hwx0_0 : ∀ i : grid0.Coords, EltTy.bits .f32 = 32 ∨ (Rect.block (s := S2048x4) S16x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x8400.size a ≤ S4x8400.size a
  hwx0_1 : ∀ i : grid0.Coords, EltTy.bits .f32 = 32 ∨ (Rect.block (s := S4x8400) S4x8400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x8400.size a ≤ S2048x8400.size a
  hwx0_2 : ∀ i : grid0.Coords, EltTy.bits .f32 = 32 ∨ (Rect.block (s := S2048x8400) S16x8400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x8400.size a ≤ S2048x8400.size a
  hwx0_3 : ∀ i : grid0.Coords, EltTy.bits .f32 = 32 ∨ (Rect.block (s := S2048x8400) S16x8400.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x4.size a ≤ S16x128x4.size a
  hwx1_0 : ∀ i : grid1.Coords, EltTy.bits .f32 = 32 ∨ (Rect.block (s := S16x128x4) S1x64x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x4x8400.size a ≤ S16x4x8400.size a
  hwx1_1 : ∀ i : grid1.Coords, EltTy.bits .f32 = 32 ∨ (Rect.block (s := S16x4x8400) S1x4x8400.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x8400.size a ≤ S16x128x8400.size a
  hwx1_2 : ∀ i : grid1.Coords, EltTy.bits .f32 = 32 ∨ (Rect.block (s := S16x128x8400) S1x64x8400.size (cc1_transform_2 i) (hinb1_2 i)).WholeWords (EltTy.packing .f32)

variable [Facts₀]

abbrev win0_0 : Pipeline.Window sig grid0 :=
  Pipeline.Window.ofSpec (Memref.whole main_v0) S16x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x8400.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S16x8400.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S16x8400.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S1x64x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x4x8400.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64x8400.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S16x128x4 : Shape := ⟨3, ![16, 128, 4]⟩
abbrev S16x8400x4 : Shape := ⟨3, ![16, 8400, 4]⟩
abbrev S8400x4 : Shape := ⟨2, ![8400, 4]⟩
abbrev S2048x4 : Shape := ⟨2, ![2048, 4]⟩
abbrev S2048x2 : Shape := ⟨2, ![2048, 2]⟩
abbrev S_ : Shape := ⟨0, ![]⟩
abbrev S8400x2 : Shape := ⟨2, ![8400, 2]⟩
abbrev S2048x1x2 : Shape := ⟨3, ![2048, 1, 2]⟩
abbrev S1x8400x2 : Shape := ⟨3, ![1, 8400, 2]⟩
abbrev S2048x8400x2 : Shape := ⟨3, ![2048, 8400, 2]⟩
abbrev S2048x8400 : Shape := ⟨2, ![2048, 8400]⟩
abbrev S2048x1 : Shape := ⟨2, ![2048, 1]⟩
abbrev S2048 : Shape := ⟨1, ![2048]⟩
abbrev S8400x1 : Shape := ⟨2, ![8400, 1]⟩
abbrev S8400 : Shape := ⟨1, ![8400]⟩
abbrev S2048x8400x1 : Shape := ⟨3, ![2048, 8400, 1]⟩
abbrev S1x8400 : Shape := ⟨2, ![1, 8400]⟩
abbrev S16x128x1x4 : Shape := ⟨4, ![16, 128, 1, 4]⟩
abbrev S16x1x8400x4 : Shape := ⟨4, ![16, 1, 8400, 4]⟩
abbrev S16x128x1x2 : Shape := ⟨4, ![16, 128, 1, 2]⟩
abbrev S16x1x8400x2 : Shape := ⟨4, ![16, 1, 8400, 2]⟩
abbrev S16x128x8400x2 : Shape := ⟨4, ![16, 128, 8400, 2]⟩
abbrev S16x128x8400x1 : Shape := ⟨4, ![16, 128, 8400, 1]⟩
abbrev S16x128x8400 : Shape := ⟨3, ![16, 128, 8400]⟩
abbrev S16x128x1x1 : Shape := ⟨4, ![16, 128, 1, 1]⟩
abbrev S16x128x1 : Shape := ⟨3, ![16, 128, 1]⟩
abbrev S16x1x8400x1 : Shape := ⟨4, ![16, 1, 8400, 1]⟩
abbrev S16x1x8400 : Shape := ⟨3, ![16, 1, 8400]⟩

abbrev nBuf : Space → Nat
  | .hbm => 163
  | .vmem => 0
  | .smem => 0
  | _ => 0

abbrev hbmTy0_0 (i : Nat) : BufTy := match i % 128 with
  | 0 => ⟨S16x128x4, .f32⟩
  | 1 => ⟨S16x8400x4, .f32⟩
  | 2 => ⟨S8400x4, .f32⟩
  | 3 => ⟨S2048x4, .f32⟩
  | 4 => ⟨S2048x2, .f32⟩
  | 5 => ⟨S2048x2, .f32⟩
  | 6 => ⟨S2048x2, .f32⟩
  | 7 => ⟨S_, .f32⟩
  | 8 => ⟨S2048x2, .f32⟩
  | 9 => ⟨S2048x2, .f32⟩
  | 10 => ⟨S8400x2, .f32⟩
  | 11 => ⟨S8400x2, .f32⟩
  | 12 => ⟨S8400x2, .f32⟩
  | 13 => ⟨S_, .f32⟩
  | 14 => ⟨S8400x2, .f32⟩
  | 15 => ⟨S8400x2, .f32⟩
  | 16 => ⟨S2048x1x2, .f32⟩
  | 17 => ⟨S1x8400x2, .f32⟩
  | 18 => ⟨S2048x8400x2, .f32⟩
  | 19 => ⟨S2048x8400x2, .f32⟩
  | 20 => ⟨S2048x8400x2, .f32⟩
  | 21 => ⟨S2048x8400x2, .f32⟩
  | 22 => ⟨S_, .f32⟩
  | 23 => ⟨S2048x8400, .f32⟩
  | 24 => ⟨S2048x8400, .f32⟩
  | 25 => ⟨S2048x1, .f32⟩
  | 26 => ⟨S2048, .f32⟩
  | 27 => ⟨S2048x1, .f32⟩
  | 28 => ⟨S2048, .f32⟩
  | 29 => ⟨S2048, .f32⟩
  | 30 => ⟨S2048x1, .f32⟩
  | 31 => ⟨S2048, .f32⟩
  | 32 => ⟨S2048x1, .f32⟩
  | 33 => ⟨S2048, .f32⟩
  | 34 => ⟨S2048, .f32⟩
  | 35 => ⟨S2048, .f32⟩
  | 36 => ⟨S8400x1, .f32⟩
  | 37 => ⟨S8400, .f32⟩
  | 38 => ⟨S8400x1, .f32⟩
  | 39 => ⟨S8400, .f32⟩
  | 40 => ⟨S8400, .f32⟩
  | 41 => ⟨S8400x1, .f32⟩
  | 42 => ⟨S8400, .f32⟩
  | 43 => ⟨S8400x1, .f32⟩
  | 44 => ⟨S8400, .f32⟩
  | 45 => ⟨S8400, .f32⟩
  | 46 => ⟨S8400, .f32⟩
  | 47 => ⟨S2048x2, .f32⟩
  | 48 => ⟨S2048x1x2, .f32⟩
  | 49 => ⟨S8400x2, .f32⟩
  | 50 => ⟨S1x8400x2, .f32⟩
  | 51 => ⟨S2048x8400x2, .f32⟩
  | 52 => ⟨S2048x8400x2, .f32⟩
  | 53 => ⟨S2048x8400x2, .f32⟩
  | 54 => ⟨S2048x2, .f32⟩
  | 55 => ⟨S2048x1x2, .f32⟩
  | 56 => ⟨S8400x2, .f32⟩
  | 57 => ⟨S1x8400x2, .f32⟩
  | 58 => ⟨S2048x8400x2, .f32⟩
  | 59 => ⟨S2048x8400x2, .f32⟩
  | 60 => ⟨S2048x8400x2, .f32⟩
  | 61 => ⟨S2048x8400x2, .f32⟩
  | 62 => ⟨S_, .f32⟩
  | 63 => ⟨S_, .f32⟩
  | 64 => ⟨S2048x8400x2, .f32⟩
  | 65 => ⟨S2048x8400x2, .f32⟩
  | 66 => ⟨S2048x8400x1, .f32⟩
  | 67 => ⟨S2048x8400, .f32⟩
  | 68 => ⟨S2048x8400x1, .f32⟩
  | 69 => ⟨S2048x8400, .f32⟩
  | 70 => ⟨S2048x8400, .f32⟩
  | 71 => ⟨S2048x1, .f32⟩
  | 72 => ⟨S1x8400, .f32⟩
  | 73 => ⟨S2048x8400, .f32⟩
  | 74 => ⟨S2048x8400, .f32⟩
  | 75 => ⟨S2048x8400, .f32⟩
  | 76 => ⟨S2048x8400, .f32⟩
  | 77 => ⟨S_, .f32⟩
  | 78 => ⟨S2048x8400, .f32⟩
  | 79 => ⟨S2048x8400, .f32⟩
  | 80 => ⟨S2048x8400, .f32⟩
  | 81 => ⟨S2048x2, .f32⟩
  | 82 => ⟨S2048x1x2, .f32⟩
  | 83 => ⟨S8400x2, .f32⟩
  | 84 => ⟨S1x8400x2, .f32⟩
  | 85 => ⟨S2048x8400x2, .f32⟩
  | 86 => ⟨S2048x8400x2, .f32⟩
  | 87 => ⟨S2048x8400x2, .f32⟩
  | 88 => ⟨S2048x2, .f32⟩
  | 89 => ⟨S2048x1x2, .f32⟩
  | 90 => ⟨S8400x2, .f32⟩
  | 91 => ⟨S1x8400x2, .f32⟩
  | 92 => ⟨S2048x8400x2, .f32⟩
  | 93 => ⟨S2048x8400x2, .f32⟩
  | 94 => ⟨S2048x8400x2, .f32⟩
  | 95 => ⟨S2048x8400x2, .f32⟩
  | 96 => ⟨S_, .f32⟩
  | 97 => ⟨S_, .f32⟩
  | 98 => ⟨S2048x8400x2, .f32⟩
  | 99 => ⟨S2048x8400x2, .f32⟩
  | 100 => ⟨S2048x8400x1, .f32⟩
  | 101 => ⟨S2048x8400, .f32⟩
  | 102 => ⟨S2048x8400x1, .f32⟩
  | 103 => ⟨S2048x8400, .f32⟩
  | 104 => ⟨S2048x8400, .f32⟩
  | 105 => ⟨S_, .f32⟩
  | 106 => ⟨S2048x8400, .f32⟩
  | 107 => ⟨S2048x8400, .f32⟩
  | 108 => ⟨S2048x8400, .f32⟩
  | 109 => ⟨S2048x8400, .f32⟩
  | 110 => ⟨S2048x8400, .f32⟩
  | 111 => ⟨S16x128x1x4, .f32⟩
  | 112 => ⟨S16x1x8400x4, .f32⟩
  | 113 => ⟨S16x128x1x2, .f32⟩
  | 114 => ⟨S16x1x8400x2, .f32⟩
  | 115 => ⟨S16x128x8400x2, .f32⟩
  | 116 => ⟨S16x128x8400x2, .f32⟩
  | 117 => ⟨S16x128x8400x2, .f32⟩
  | 118 => ⟨S16x128x1x2, .f32⟩
  | 119 => ⟨S16x1x8400x2, .f32⟩
  | 120 => ⟨S16x128x8400x2, .f32⟩
  | 121 => ⟨S16x128x8400x2, .f32⟩
  | 122 => ⟨S16x128x8400x2, .f32⟩
  | 123 => ⟨S16x128x8400x2, .f32⟩
  | 124 => ⟨S_, .f32⟩
  | 125 => ⟨S_, .f32⟩
  | 126 => ⟨S16x128x8400x2, .f32⟩
  | 127 => ⟨S16x128x8400x2, .f32⟩
  | _ => ⟨S16x128x4, .f32⟩

abbrev hbmTy0_1 (i : Nat) : BufTy := match i % 128 with
  | 0 => ⟨S16x128x8400x1, .f32⟩
  | 1 => ⟨S16x128x8400, .f32⟩
  | 2 => ⟨S16x128x8400x1, .f32⟩
  | 3 => ⟨S16x128x8400, .f32⟩
  | 4 => ⟨S16x128x8400, .f32⟩
  | 5 => ⟨S16x128x1x1, .f32⟩
  | 6 => ⟨S16x128x1, .f32⟩
  | 7 => ⟨S16x128x1x1, .f32⟩
  | 8 => ⟨S16x128x1, .f32⟩
  | 9 => ⟨S16x128x1, .f32⟩
  | 10 => ⟨S16x128x1x1, .f32⟩
  | 11 => ⟨S16x128x1, .f32⟩
  | 12 => ⟨S16x128x1x1, .f32⟩
  | 13 => ⟨S16x128x1, .f32⟩
  | 14 => ⟨S16x128x1, .f32⟩
  | 15 => ⟨S16x128x1, .f32⟩
  | 16 => ⟨S16x1x8400x1, .f32⟩
  | 17 => ⟨S16x1x8400, .f32⟩
  | 18 => ⟨S16x1x8400x1, .f32⟩
  | 19 => ⟨S16x1x8400, .f32⟩
  | 20 => ⟨S16x1x8400, .f32⟩
  | 21 => ⟨S16x1x8400x1, .f32⟩
  | 22 => ⟨S16x1x8400, .f32⟩
  | 23 => ⟨S16x1x8400x1, .f32⟩
  | 24 => ⟨S16x1x8400, .f32⟩
  | 25 => ⟨S16x1x8400, .f32⟩
  | 26 => ⟨S16x1x8400, .f32⟩
  | 27 => ⟨S16x128x8400, .f32⟩
  | 28 => ⟨S16x128x8400, .f32⟩
  | 29 => ⟨S16x128x8400, .f32⟩
  | 30 => ⟨S16x128x8400, .f32⟩
  | 31 => ⟨S_, .f32⟩
  | 32 => ⟨S16x128x8400, .f32⟩
  | 33 => ⟨S16x128x8400, .f32⟩
  | 34 => ⟨S16x128x8400, .f32⟩
  | _ => ⟨S16x128x4, .f32⟩

abbrev hbmTy (i : Nat) : BufTy := match i / 128 with
  | 0 => hbmTy0_0 i
  | 1 => hbmTy0_1 i
  | _ => ⟨S16x128x4, .f32⟩

abbrev bufTy : (tb : Table) → Fin (tcTables nBuf tb) → BufTy
  | .hbm, ⟨i, _⟩ => hbmTy i
  | _, _ => ⟨S16x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst_2 : Ref sig .tc := ⟨.hbm, 62, rfl⟩
abbrev main_call0_v0 : Ref sig .tc := ⟨.hbm, 63, rfl⟩
abbrev main_call0_v1 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_cst_3 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_cst_4 : Ref sig .tc := ⟨.hbm, 96, rfl⟩
abbrev main_call1_v0 : Ref sig .tc := ⟨.hbm, 97, rfl⟩
abbrev main_call1_v1 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_cst_5 : Ref sig .tc := ⟨.hbm, 105, rfl⟩
abbrev main_v92 : Ref sig .tc := ⟨.hbm, 106, rfl⟩
abbrev main_v93 : Ref sig .tc := ⟨.hbm, 107, rfl⟩
abbrev main_v94 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_6 : Ref sig .tc := ⟨.hbm, 124, rfl⟩
abbrev main_call2_v0 : Ref sig .tc := ⟨.hbm, 125, rfl⟩
abbrev main_call2_v1 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_cst_7 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩

abbrev nD : Nat := 1
abbrev τ : Topo := Topo.v7x

variable {F : FTy → Type} [FloatOps F]

class Facts₀ : Prop where
  shapeCasts_S16x128x4_S2048x4 : S16x128x4.ShapeCasts S2048x4
  slices_S2048x4_S2048x2_0_0 : S2048x4.Slices ![0, 0] S2048x2
  slices_S2048x4_S2048x2_0_2 : S2048x4.Slices ![0, 2] S2048x2
  bcast_S_S2048x2 : S_.BroadcastsInDim S2048x2 (![] : Fin 0 → Fin S2048x2.rank)
  slices_S8400x4_S8400x2_0_0 : S8400x4.Slices ![0, 0] S8400x2
  slices_S8400x4_S8400x2_0_2 : S8400x4.Slices ![0, 2] S8400x2
  bcast_S_S8400x2 : S_.BroadcastsInDim S8400x2 (![] : Fin 0 → Fin S8400x2.rank)
  bcast_S2048x2_S2048x1x2_0_2 : S2048x2.BroadcastsInDim S2048x1x2 (![0, 2] : Fin 2 → Fin S2048x1x2.rank)
  bcast_S8400x2_S1x8400x2_1_2 : S8400x2.BroadcastsInDim S1x8400x2 (![1, 2] : Fin 2 → Fin S1x8400x2.rank)
  bcast_S2048x1x2_S2048x8400x2_0_1_2 : S2048x1x2.BroadcastsInDim S2048x8400x2 (![0, 1, 2] : Fin 3 → Fin S2048x8400x2.rank)
  bcast_S1x8400x2_S2048x8400x2_0_1_2 : S1x8400x2.BroadcastsInDim S2048x8400x2 (![0, 1, 2] : Fin 3 → Fin S2048x8400x2.rank)
  reducesTo_S2048x8400x2_S2048x8400_d2 : S2048x8400x2.ReducesTo [2] S2048x8400
  h_S_ : 0 < S_.numel
  slices_S2048x4_S2048x1_0_2 : S2048x4.Slices ![0, 2] S2048x1
  shapeCasts_S2048x1_S2048 : S2048x1.ShapeCasts S2048
  slices_S2048x4_S2048x1_0_0 : S2048x4.Slices ![0, 0] S2048x1
  slices_S2048x4_S2048x1_0_3 : S2048x4.Slices ![0, 3] S2048x1
  slices_S2048x4_S2048x1_0_1 : S2048x4.Slices ![0, 1] S2048x1
  slices_S8400x4_S8400x1_0_2 : S8400x4.Slices ![0, 2] S8400x1
  shapeCasts_S8400x1_S8400 : S8400x1.ShapeCasts S8400
  slices_S8400x4_S8400x1_0_0 : S8400x4.Slices ![0, 0] S8400x1
  slices_S8400x4_S8400x1_0_3 : S8400x4.Slices ![0, 3] S8400x1
  slices_S8400x4_S8400x1_0_1 : S8400x4.Slices ![0, 1] S8400x1
  bcast_S_S2048x8400x2 : S_.BroadcastsInDim S2048x8400x2 (![] : Fin 0 → Fin S2048x8400x2.rank)
  slices_S2048x8400x2_S2048x8400x1_0_0_0 : S2048x8400x2.Slices ![0, 0, 0] S2048x8400x1
  shapeCasts_S2048x8400x1_S2048x8400 : S2048x8400x1.ShapeCasts S2048x8400
  slices_S2048x8400x2_S2048x8400x1_0_0_1 : S2048x8400x2.Slices ![0, 0, 1] S2048x8400x1
  bcast_S2048_S2048x1_0 : S2048.BroadcastsInDim S2048x1 (![0] : Fin 1 → Fin S2048x1.rank)
  bcast_S8400_S1x8400_1 : S8400.BroadcastsInDim S1x8400 (![1] : Fin 1 → Fin S1x8400.rank)
  bcast_S2048x1_S2048x8400_0_1 : S2048x1.BroadcastsInDim S2048x8400 (![0, 1] : Fin 2 → Fin S2048x8400.rank)
  bcast_S1x8400_S2048x8400_0_1 : S1x8400.BroadcastsInDim S2048x8400 (![0, 1] : Fin 2 → Fin S2048x8400.rank)
  bcast_S_S2048x8400 : S_.BroadcastsInDim S2048x8400 (![] : Fin 0 → Fin S2048x8400.rank)
  bcast_S16x128x4_S16x128x1x4_0_1_3 : S16x128x4.BroadcastsInDim S16x128x1x4 (![0, 1, 3] : Fin 3 → Fin S16x128x1x4.rank)
  bcast_S16x8400x4_S16x1x8400x4_0_2_3 : S16x8400x4.BroadcastsInDim S16x1x8400x4 (![0, 2, 3] : Fin 3 → Fin S16x1x8400x4.rank)
  slices_S16x128x1x4_S16x128x1x2_0_0_0_0 : S16x128x1x4.Slices ![0, 0, 0, 0] S16x128x1x2
  slices_S16x1x8400x4_S16x1x8400x2_0_0_0_0 : S16x1x8400x4.Slices ![0, 0, 0, 0] S16x1x8400x2
  bcast_S16x128x1x2_S16x128x8400x2_0_1_2_3 : S16x128x1x2.BroadcastsInDim S16x128x8400x2 (![0, 1, 2, 3] : Fin 4 → Fin S16x128x8400x2.rank)
  bcast_S16x1x8400x2_S16x128x8400x2_0_1_2_3 : S16x1x8400x2.BroadcastsInDim S16x128x8400x2 (![0, 1, 2, 3] : Fin 4 → Fin S16x128x8400x2.rank)
  slices_S16x128x1x4_S16x128x1x2_0_0_0_2 : S16x128x1x4.Slices ![0, 0, 0, 2] S16x128x1x2
  slices_S16x1x8400x4_S16x1x8400x2_0_0_0_2 : S16x1x8400x4.Slices ![0, 0, 0, 2] S16x1x8400x2
  bcast_S_S16x128x8400x2 : S_.BroadcastsInDim S16x128x8400x2 (![] : Fin 0 → Fin S16x128x8400x2.rank)
  slices_S16x128x8400x2_S16x128x8400x1_0_0_0_0 : S16x128x8400x2.Slices ![0, 0, 0, 0] S16x128x8400x1
  shapeCasts_S16x128x8400x1_S16x128x8400 : S16x128x8400x1.ShapeCasts S16x128x8400
  slices_S16x128x8400x2_S16x128x8400x1_0_0_0_1 : S16x128x8400x2.Slices ![0, 0, 0, 1] S16x128x8400x1
  slices_S16x128x1x4_S16x128x1x1_0_0_0_2 : S16x128x1x4.Slices ![0, 0, 0, 2] S16x128x1x1
  shapeCasts_S16x128x1x1_S16x128x1 : S16x128x1x1.ShapeCasts S16x128x1
  slices_S16x128x1x4_S16x128x1x1_0_0_0_0 : S16x128x1x4.Slices ![0, 0, 0, 0] S16x128x1x1
  slices_S16x128x1x4_S16x128x1x1_0_0_0_3 : S16x128x1x4.Slices ![0, 0, 0, 3] S16x128x1x1
  slices_S16x128x1x4_S16x128x1x1_0_0_0_1 : S16x128x1x4.Slices ![0, 0, 0, 1] S16x128x1x1
  slices_S16x1x8400x4_S16x1x8400x1_0_0_0_2 : S16x1x8400x4.Slices ![0, 0, 0, 2] S16x1x8400x1
  shapeCasts_S16x1x8400x1_S16x1x8400 : S16x1x8400x1.ShapeCasts S16x1x8400
  slices_S16x1x8400x4_S16x1x8400x1_0_0_0_0 : S16x1x8400x4.Slices ![0, 0, 0, 0] S16x1x8400x1
  slices_S16x1x8400x4_S16x1x8400x1_0_0_0_3 : S16x1x8400x4.Slices ![0, 0, 0, 3] S16x1x8400x1
  slices_S16x1x8400x4_S16x1x8400x1_0_0_0_1 : S16x1x8400x4.Slices ![0, 0, 0, 1] S16x1x8400x1
  bcast_S16x128x1_S16x128x8400_0_1_2 : S16x128x1.BroadcastsInDim S16x128x8400 (![0, 1, 2] : Fin 3 → Fin S16x128x8400.rank)
  bcast_S16x1x8400_S16x128x8400_0_1_2 : S16x1x8400.BroadcastsInDim S16x128x8400 (![0, 1, 2] : Fin 3 → Fin S16x128x8400.rank)
  bcast_S_S16x128x8400 : S_.BroadcastsInDim S16x128x8400 (![] : Fin 0 → Fin S16x128x8400.rank)

variable [Facts₀]

class Facts : Prop extends Facts₀ where

variable [Facts]
-- ==== Proof.BoxSpec.lean ====
/-
  The three results of the box-geometry program as functions of its three arguments, element by element, on the
  extended reals: the distance between the centres of a ground-truth box and an anchor box, the generalised
  intersection-over-union of the same pair, and the intersection-over-union of a ground-truth box with a predicted box
  of the same image. A box is four numbers (x1, y1, x2, y2). Every operation is the extended reals' own (sum, difference,
  product, maximum, minimum, the square root and the quotient of the ideal instance); nothing here needs the
  arguments finite.
  Also here: the two scalar laws by which the two programs' spellings meet. Halving by a quotient by 2 is the product
  with 1/2 on every extended real; and the pattern of +0.0 denotes 0.
-/
import Idealize.ShloMosaic.PureOps.Ideal
import Idealize.ShloMosaic.Lib.ValueIdx

noncomputable section

namespace Cert.BoxSpec

open Idealize.ShloMosaic Idealize.ShloMosaic.ValueIdx

/-! ## One pair of boxes -/

/-- The distance between the centres of the boxes g and a: each centre coordinate is half the sum of the two corner
    coordinates. -/
def dist (g0 g1 g2 g3 a0 a1 a2 a3 : EReal) : EReal :=
  Ideal.sqrt
    ((((g0 + g2) * Ideal.ofBits .f32 0x3F000000#32 - (a0 + a2) * Ideal.ofBits .f32 0x3F000000#32)
        * ((g0 + g2) * Ideal.ofBits .f32 0x3F000000#32 - (a0 + a2) * Ideal.ofBits .f32 0x3F000000#32))
      + (((g1 + g3) * Ideal.ofBits .f32 0x3F000000#32 - (a1 + a3) * Ideal.ofBits .f32 0x3F000000#32)
        * ((g1 + g3) * Ideal.ofBits .f32 0x3F000000#32 - (a1 + a3) * Ideal.ofBits .f32 0x3F000000#32)))

/-- The area of the box (x1, y1, x2, y2). -/
def area (b0 b1 b2 b3 : EReal) : EReal := (b2 - b0) * (b3 - b1)

/-- The area of the intersection of two boxes: the overlap of the x ranges times the overlap of the y ranges, each
    cut off below at zero. -/
def inter (g0 g1 g2 g3 a0 a1 a2 a3 : EReal) : EReal :=
  max (min g2 a2 - max g0 a0) (Ideal.ofBits .f32 0x00000000#32)
    * max (min g3 a3 - max g1 a1) (Ideal.ofBits .f32 0x00000000#32)

/-- The area of the smallest box enclosing both. -/
def hull (g0 g1 g2 g3 a0 a1 a2 a3 : EReal) : EReal :=
  max (max g2 a2 - min g0 a0) (Ideal.ofBits .f32 0x00000000#32)
    * max (max g3 a3 - min g1 a1) (Ideal.ofBits .f32 0x00000000#32)

/-- The union's area, kept above the small constant. -/
def unionE (g0 g1 g2 g3 a0 a1 a2 a3 : EReal) : EReal :=
  max (area g0 g1 g2 g3 + area a0 a1 a2 a3 - inter g0 g1 g2 g3 a0 a1 a2 a3) (Ideal.ofBits .f32 0x358637BD#32)

/-- The enclosing area, kept above the small constant. -/
def hullE (g0 g1 g2 g3 a0 a1 a2 a3 : EReal) : EReal :=
  max (hull g0 g1 g2 g3 a0 a1 a2 a3) (Ideal.ofBits .f32 0x358637BD#32)

/-- The generalised intersection-over-union: the ratio of intersection to union, less the share of the enclosing box
    that the union leaves empty. -/
def giou (g0 g1 g2 g3 a0 a1 a2 a3 : EReal) : EReal :=
  Ideal.div (inter g0 g1 g2 g3 a0 a1 a2 a3) (unionE g0 g1 g2 g3 a0 a1 a2 a3)
    - Ideal.div (hullE g0 g1 g2 g3 a0 a1 a2 a3 - unionE g0 g1 g2 g3 a0 a1 a2 a3) (hullE g0 g1 g2 g3 a0 a1 a2 a3)

/-- The plain intersection-over-union, the union moved off zero by adding a small constant. -/
def iou (g0 g1 g2 g3 a0 a1 a2 a3 : EReal) : EReal :=
  Ideal.div (inter g0 g1 g2 g3 a0 a1 a2 a3)
    (area g0 g1 g2 g3 + area a0 a1 a2 a3 - inter g0 g1 g2 g3 a0 a1 a2 a3 + Ideal.ofBits .f32 0x3089705F#32)

/-! ## The shapes -/

abbrev SG : Shape := ⟨3, ![16, 128, 4]⟩
abbrev SP : Shape := ⟨3, ![16, 8400, 4]⟩
abbrev SA : Shape := ⟨2, ![8400, 4]⟩
abbrev SGf : Shape := ⟨2, ![2048, 4]⟩
abbrev SAt : Shape := ⟨2, ![4, 8400]⟩
abbrev SPt : Shape := ⟨3, ![16, 4, 8400]⟩
abbrev SD : Shape := ⟨2, ![2048, 8400]⟩
abbrev SO : Shape := ⟨3, ![16, 128, 8400]⟩

/-! ## Over the arrays as the two kernels read them: the ground-truth boxes as 2048 rows of four, the anchors and the
    predictions with the four coordinates on the axis before the last -/

/-- Centre distance of row `r` of the flattened ground-truth boxes and anchor `q`. -/
def distK (gf : SGf.Idx → EReal) (at_ : SAt.Idx → EReal) (r : Fin 2048) (q : Fin 8400) : EReal :=
  dist (gf (ix2 r (0 : Fin 4))) (gf (ix2 r (1 : Fin 4))) (gf (ix2 r (2 : Fin 4))) (gf (ix2 r (3 : Fin 4)))
    (at_ (ix2 (0 : Fin 4) q)) (at_ (ix2 (1 : Fin 4) q)) (at_ (ix2 (2 : Fin 4) q)) (at_ (ix2 (3 : Fin 4) q))

def giouK (gf : SGf.Idx → EReal) (at_ : SAt.Idx → EReal) (r : Fin 2048) (q : Fin 8400) : EReal :=
  giou (gf (ix2 r (0 : Fin 4))) (gf (ix2 r (1 : Fin 4))) (gf (ix2 r (2 : Fin 4))) (gf (ix2 r (3 : Fin 4)))
    (at_ (ix2 (0 : Fin 4) q)) (at_ (ix2 (1 : Fin 4) q)) (at_ (ix2 (2 : Fin 4) q)) (at_ (ix2 (3 : Fin 4) q))

def iouK (g : SG.Idx → EReal) (pt : SPt.Idx → EReal) (b : Fin 16) (p : Fin 128) (q : Fin 8400) : EReal :=
  iou (g (ix3 b p (0 : Fin 4))) (g (ix3 b p (1 : Fin 4))) (g (ix3 b p (2 : Fin 4))) (g (ix3 b p (3 : Fin 4)))
    (pt (ix3 b (0 : Fin 4) q)) (pt (ix3 b (1 : Fin 4) q)) (pt (ix3 b (2 : Fin 4) q)) (pt (ix3 b (3 : Fin 4) q))

def distKArr (gf : SGf.Idx → EReal) (at_ : SAt.Idx → EReal) : SD.Idx → EReal := fun i => distK gf at_ (i 0) (i 1)
def giouKArr (gf : SGf.Idx → EReal) (at_ : SAt.Idx → EReal) : SD.Idx → EReal := fun i => giouK gf at_ (i 0) (i 1)
def iouKArr (g : SG.Idx → EReal) (pt : SPt.Idx → EReal) : SO.Idx → EReal := fun i => iouK g pt (i 0) (i 1) (i 2)

/-! ## Over the arguments themselves -/

/-- Row `r` of the flattened ground-truth boxes is box `r % 128` of image `r / 128`. -/
def gtRow (g : SG.Idx → EReal) (r : Fin 2048) (k : Fin 4) : EReal :=
  g (ix3 (⟨r.val / 128, by have := r.isLt; omega⟩ : Fin 16) (⟨r.val % 128, Nat.mod_lt _ (by norm_num)⟩ : Fin 128) k)

def distA (g : SG.Idx → EReal) (a : SA.Idx → EReal) (r : Fin 2048) (q : Fin 8400) : EReal :=
  dist (gtRow g r 0) (gtRow g r 1) (gtRow g r 2) (gtRow g r 3)
    (a (ix2 q (0 : Fin 4))) (a (ix2 q (1 : Fin 4))) (a (ix2 q (2 : Fin 4))) (a (ix2 q (3 : Fin 4)))

def giouA (g : SG.Idx → EReal) (a : SA.Idx → EReal) (r : Fin 2048) (q : Fin 8400) : EReal :=
  giou (gtRow g r 0) (gtRow g r 1) (gtRow g r 2) (gtRow g r 3)
    (a (ix2 q (0 : Fin 4))) (a (ix2 q (1 : Fin 4))) (a (ix2 q (2 : Fin 4))) (a (ix2 q (3 : Fin 4)))

def iouA (g : SG.Idx → EReal) (pr : SP.Idx → EReal) (b : Fin 16) (p : Fin 128) (q : Fin 8400) : EReal :=
  iou (g (ix3 b p (0 : Fin 4))) (g (ix3 b p (1 : Fin 4))) (g (ix3 b p (2 : Fin 4))) (g (ix3 b p (3 : Fin 4)))
    (pr (ix3 b q (0 : Fin 4))) (pr (ix3 b q (1 : Fin 4))) (pr (ix3 b q (2 : Fin 4))) (pr (ix3 b q (3 : Fin 4)))

def distArr (g : SG.Idx → EReal) (a : SA.Idx → EReal) : SD.Idx → EReal := fun i => distA g a (i 0) (i 1)
def giouArr (g : SG.Idx → EReal) (a : SA.Idx → EReal) : SD.Idx → EReal := fun i => giouA g a (i 0) (i 1)
def iouArr (g : SG.Idx → EReal) (pr : SP.Idx → EReal) : SO.Idx → EReal := fun i => iouA g pr (i 0) (i 1) (i 2)

/-- Two arrays of pairs agree when they agree at every pair of coordinates. -/
theorem ext2 {n0 n1 : Nat} {α : Type} (f h : (⟨2, ![n0, n1]⟩ : Shape).Idx → α)
    (e : ∀ (a : Fin n0) (b : Fin n1), f (ix2 a b) = h (ix2 a b)) : f = h :=
  funext fun i => by rw [eq_ix2 i]; exact e _ _

theorem ext3 {n0 n1 n2 : Nat} {α : Type} (f h : (⟨3, ![n0, n1, n2]⟩ : Shape).Idx → α)
    (e : ∀ (a : Fin n0) (b : Fin n1) (c : Fin n2), f (ix3 a b c) = h (ix3 a b c)) : f = h :=
  funext fun i => by rw [eq_ix3 i]; exact e _ _ _

/-! ## The constants and the two scalar laws -/

theorem ofBits_zero : Ideal.ofBits .f32 0x00000000#32 = 0 := by
  simp [Ideal.ofBits, Ideal.ieee]

theorem ofBits_two : Ideal.ofBits .f32 0x40000000#32 = ((2 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

/-- The quotient by 2 is the product with 1/2, on every extended real. -/
theorem div_two (x : EReal) :
    Ideal.div x (Ideal.ofBits .f32 0x40000000#32) = x * Ideal.ofBits .f32 0x3F000000#32 := by
  rw [ofBits_two, ofBits_half, Ideal.div_coe (by norm_num)]

/-- A sum of two terms started from the pattern of +0.0 is the sum of the two terms. -/
theorem zero_add_pair (x y : EReal) : Ideal.ofBits .f32 0x00000000#32 + (x + y) = x + y := by
  rw [ofBits_zero, zero_add]

end Cert.BoxSpec

end
-- ==== Proof.KernelHost.lean ====
/-
  The host side of the kernel's program at the ideal instance: where each result array's final contents come from
  (the first region's two outputs and the second region's output are written by no later operation), what the two
  regions find in the arrays they read (the ground-truth array flattened to 2048 rows, the anchors and the predictions
  transposed), and that the kernels' functions of those re-laid arrays are the specification's functions of the
  arguments themselves.
-/
import proofs.«106192_j66511863546259_1_alg».proof.Proof.Gen.KernelIdeal.Frame
import proofs.«106192_j66511863546259_1_alg».proof.Proof.BoxSpec
import Idealize.ShloMosaic.Lib.Pipeline.Value
import Idealize.ShloMosaic.Lib.ValueIdx
import Idealize.ShloMosaic.Lib.StableHlo.Run

set_option maxRecDepth 16384

noncomputable section

namespace Cert.KernelIdeal.HostSide

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## Where the results' final contents come from -/

/-- The distances are written by the first region only: the transposition between the regions and the second region
    leave them alone. -/
theorem W4_dist (c : Dev nD) : W4 m ρ c (Proc.devRef .tc main_v2_0) = (dat0 (V1 m ρ) c).arrAt 2 cfg0.N :=
  calc W4 m ρ c (Proc.devRef .tc main_v2_0)
    _ = W3 m ρ c (Proc.devRef .tc main_v2_0) := W4_of_ne m ρ c main_v2_0 (by decide)
    _ = W2 m ρ c (Proc.devRef .tc main_v2_0) := StableHlo.after_of_forall_not_mem (b := Proc.devRef .tc main_v2_0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 2 cfg0.N := W2_arr m ρ c 2

/-- So are the generalised intersection-over-unions. -/
theorem W4_giou (c : Dev nD) : W4 m ρ c (Proc.devRef .tc main_v2_1) = (dat0 (V1 m ρ) c).arrAt 3 cfg0.N :=
  calc W4 m ρ c (Proc.devRef .tc main_v2_1)
    _ = W3 m ρ c (Proc.devRef .tc main_v2_1) := W4_of_ne m ρ c main_v2_1 (by decide)
    _ = W2 m ρ c (Proc.devRef .tc main_v2_1) := StableHlo.after_of_forall_not_mem (b := Proc.devRef .tc main_v2_1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 3 cfg0.N := W2_arr m ρ c 3

/-- The intersection-over-unions are the second region's output. -/
theorem W4_iou (c : Dev nD) : W4 m ρ c (Proc.devRef .tc main_v4) = (dat1 (V3 m ρ) c).arrAt 2 cfg1.N :=
  W4_arr m ρ c 2

/-! ## What the regions find in the arrays they read -/

/-- The first region finds the ground-truth boxes flattened to 2048 rows. -/
theorem V1_v0 (c : Dev nD) :
    V1 m ρ c main_v0 = shapeCast S2048x4 (m ((c.tc : Thread nD τ).loc main_arg0)) shapeCasts_S16x128x4_S2048x4 := by
  show StableHlo.after hostOps0 (W0 m ρ c) (Proc.devRef .tc main_v0) = _
  after_results
  rfl

/-- and the anchors transposed. -/
theorem V1_v1 (c : Dev nD) :
    V1 m ρ c main_v1 = transpose S4x8400 [1, 0] (m ((c.tc : Thread nD τ).loc main_arg2)) transposes_S8400x4_S4x8400_1_0 := by
  show StableHlo.after hostOps0 (W0 m ρ c) (Proc.devRef .tc main_v1) = _
  after_results

/-- Nothing before the second region writes an argument. -/
theorem W2_arg1 (c : Dev nD) : W2 m ρ c (Proc.devRef .tc main_arg1) = m ((c.tc : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The second region finds the ground-truth boxes as launched -/
theorem V3_arg0 (c : Dev nD) : V3 m ρ c main_arg0 = m ((c.tc : Thread nD τ).loc main_arg0) :=
  calc W3 m ρ c (Proc.devRef .tc main_arg0)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- and the predictions with their last two axes exchanged. -/
theorem V3_v3 (c : Dev nD) :
    V3 m ρ c main_v3 = transpose S16x4x8400 [0, 2, 1] (m ((c.tc : Thread nD τ).loc main_arg1)) transposes_S16x8400x4_S16x4x8400_0_2_1 := by
  show StableHlo.after hostOps1 (W2 m ρ c) (Proc.devRef .tc main_v3) = _
  after_results
  rw [W2_arg1]

/-! ## The re-laid arrays read at an index -/

/-- Row `r` of the flattened ground-truth array is box `r % 128` of image `r / 128`: both are element `4 r + k` in
    row-major order. -/
theorem flat_apply (g : S16x128x4.Idx → EReal) (r : Fin 2048) (k : Fin 4) :
    shapeCast S2048x4 g shapeCasts_S16x128x4_S2048x4 (ix2 r k) = Cert.BoxSpec.gtRow g r k := by
  unfold Cert.BoxSpec.gtRow
  refine shapeCast_apply g shapeCasts_S16x128x4_S2048x4 (ix2 r k) _ ?_
  rewrite [Shape.rowMajor_val_three, Shape.rowMajor_val_two]
  have hr : r.val < 2048 := r.isLt
  have hk : k.val < 4 := k.isLt
  show (r.val / 128 * 128 + r.val % 128) * 4 + k.val = r.val * 4 + k.val
  omega

/-- The transposed anchors at (k, q) are the anchors at (q, k). -/
theorem anchorsT_apply (a : S8400x4.Idx → EReal) (k : Fin 4) (q : Fin 8400) :
    transpose S4x8400 [1, 0] a transposes_S8400x4_S4x8400_1_0 (ix2 k q) = a (ix2 q k) :=
  transpose_apply [1, 0] a transposes_S8400x4_S4x8400_1_0 (ix2 k q) (ix2 q k) (fun b => by
    match b with
    | ⟨0, _⟩ => rfl
    | ⟨1, _⟩ => rfl)

/-- The predictions with the last two axes exchanged, at (b, k, q), are the predictions at (b, q, k). -/
theorem predsT_apply (pr : S16x8400x4.Idx → EReal) (b : Fin 16) (k : Fin 4) (q : Fin 8400) :
    transpose S16x4x8400 [0, 2, 1] pr transposes_S16x8400x4_S16x4x8400_0_2_1 (ix3 b k q) = pr (ix3 b q k) :=
  transpose_apply [0, 2, 1] pr transposes_S16x8400x4_S16x4x8400_0_2_1 (ix3 b k q) (ix3 b q k) (fun d => by
    match d with
    | ⟨0, _⟩ => rfl
    | ⟨1, _⟩ => rfl
    | ⟨2, _⟩ => rfl)

/-! ## The kernels' functions of the re-laid arrays are the specification's functions of the arguments -/

theorem dist_relaid (g : S16x128x4.Idx → EReal) (a : S8400x4.Idx → EReal) :
    Cert.BoxSpec.distKArr (shapeCast S2048x4 g shapeCasts_S16x128x4_S2048x4) (transpose S4x8400 [1, 0] a transposes_S8400x4_S4x8400_1_0)
      = Cert.BoxSpec.distArr g a := by
  refine Cert.BoxSpec.ext2 _ _ fun r q => ?_
  show Cert.BoxSpec.distK _ _ r q = Cert.BoxSpec.distA g a r q
  unfold Cert.BoxSpec.distK Cert.BoxSpec.distA
  rw [flat_apply g r 0, flat_apply g r 1, flat_apply g r 2, flat_apply g r 3,
    anchorsT_apply a 0 q, anchorsT_apply a 1 q, anchorsT_apply a 2 q, anchorsT_apply a 3 q]

theorem giou_relaid (g : S16x128x4.Idx → EReal) (a : S8400x4.Idx → EReal) :
    Cert.BoxSpec.giouKArr (shapeCast S2048x4 g shapeCasts_S16x128x4_S2048x4) (transpose S4x8400 [1, 0] a transposes_S8400x4_S4x8400_1_0)
      = Cert.BoxSpec.giouArr g a := by
  refine Cert.BoxSpec.ext2 _ _ fun r q => ?_
  show Cert.BoxSpec.giouK _ _ r q = Cert.BoxSpec.giouA g a r q
  unfold Cert.BoxSpec.giouK Cert.BoxSpec.giouA
  rw [flat_apply g r 0, flat_apply g r 1, flat_apply g r 2, flat_apply g r 3,
    anchorsT_apply a 0 q, anchorsT_apply a 1 q, anchorsT_apply a 2 q, anchorsT_apply a 3 q]

theorem iou_relaid (g : S16x128x4.Idx → EReal) (pr : S16x8400x4.Idx → EReal) :
    Cert.BoxSpec.iouKArr g (transpose S16x4x8400 [0, 2, 1] pr transposes_S16x8400x4_S16x4x8400_0_2_1)
      = Cert.BoxSpec.iouArr g pr := by
  refine Cert.BoxSpec.ext3 _ _ fun b p q => ?_
  show Cert.BoxSpec.iouK _ _ b p q = Cert.BoxSpec.iouA g pr b p q
  unfold Cert.BoxSpec.iouK Cert.BoxSpec.iouA
  rw [predsT_apply pr b 0 q, predsT_apply pr b 1 q, predsT_apply pr b 2 q, predsT_apply pr b 3 q]

end Cert.KernelIdeal.HostSide

end
-- ==== Proof.Region0.lean ====
/-
  The first kernel region, read as values at the ideal instance: whatever the TensorCore's buffers hold when the region is
  entered, its two result arrays end holding, at row r and anchor q, the centre distance and the generalised
  intersection-over-union of row r of the flattened ground-truth array with column q of the transposed anchor array.
-/
import proofs.«106192_j66511863546259_1_alg».proof.Proof.Gen.KernelIdeal.Frame
import proofs.«106192_j66511863546259_1_alg».proof.Proof.BoxSpec
import Idealize.ShloMosaic.Lib.Pipeline.Value
import Idealize.ShloMosaic.Lib.ValueIdx
import Idealize.ShloMosaic.Lib.ValueLayout

set_option maxRecDepth 16384

noncomputable section

namespace Cert.KernelIdeal.Reg0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The body's pieces read at one box and one anchor -/

/-- A square root of a vector reads the square root of the element. -/
private theorem sqrt_at {s : Shape} (v : FVec Ideal s .f32) (i : s.Idx) : sqrt v i = Ideal.sqrt (v i) := rfl

/-- A column [16,1] spread over the anchors reads its row. -/
private theorem spread_col {α : Type} (v : S16x1.Idx → α) (r : Fin 16) (q : Fin 8400) :
    broadcastTo S16x8400 v broadcasts_S16x1_S16x8400 (ix2 r q) = v (ix2 r (0 : Fin 1)) := by
  refine broadcastTo_apply v _ _ _ fun a => ?_
  match a with
  | ⟨0, _⟩ => rfl
  | ⟨1, _⟩ => rfl

/-- A row [1,8400] spread over the boxes reads its anchor. -/
private theorem spread_row {α : Type} (v : S1x8400.Idx → α) (r : Fin 16) (q : Fin 8400) :
    broadcastTo S16x8400 v broadcasts_S1x8400_S16x8400 (ix2 r q) = v (ix2 (0 : Fin 1) q) := by
  refine broadcastTo_apply v _ _ _ fun a => ?_
  match a with
  | ⟨0, _⟩ => rfl
  | ⟨1, _⟩ => rfl

/-- The four coordinates of the block's boxes, each cut out as a column: column k of the block. -/
private theorem box_c0 (x0 : Vec Ideal S16x4 .f32) (r : Fin 16) (u : Fin 1) : k0_pay4 x0 (ix2 r u) = x0 (ix2 r (0 : Fin 4)) := by
  unfold k0_pay4 k0_pay2
  dsimp only
  rw [shapeCast_self]
  refine extractStridedSlice_apply _ _ _ _ _ fun a => ?_
  match a with
  | ⟨0, _⟩ => show (r : ℕ) = 0 + (r : ℕ); omega
  | ⟨1, _⟩ => show (0 : ℕ) = 0 + (u : ℕ); omega

private theorem box_c1 (x0 : Vec Ideal S16x4 .f32) (r : Fin 16) (u : Fin 1) : k0_pay5 x0 (ix2 r u) = x0 (ix2 r (1 : Fin 4)) := by
  unfold k0_pay5 k0_pay2
  dsimp only
  rw [shapeCast_self]
  refine extractStridedSlice_apply _ _ _ _ _ fun a => ?_
  match a with
  | ⟨0, _⟩ => show (r : ℕ) = 0 + (r : ℕ); omega
  | ⟨1, _⟩ => show (1 : ℕ) = 1 + (u : ℕ); omega

private theorem box_c2 (x0 : Vec Ideal S16x4 .f32) (r : Fin 16) (u : Fin 1) : k0_pay6 x0 (ix2 r u) = x0 (ix2 r (2 : Fin 4)) := by
  unfold k0_pay6 k0_pay2
  dsimp only
  rw [shapeCast_self]
  refine extractStridedSlice_apply _ _ _ _ _ fun a => ?_
  match a with
  | ⟨0, _⟩ => show (r : ℕ) = 0 + (r : ℕ); omega
  | ⟨1, _⟩ => show (2 : ℕ) = 2 + (u : ℕ); omega

private theorem box_c3 (x0 : Vec Ideal S16x4 .f32) (r : Fin 16) (u : Fin 1) : k0_pay7 x0 (ix2 r u) = x0 (ix2 r (3 : Fin 4)) := by
  unfold k0_pay7 k0_pay2
  dsimp only
  rw [shapeCast_self]
  refine extractStridedSlice_apply _ _ _ _ _ fun a => ?_
  match a with
  | ⟨0, _⟩ => show (r : ℕ) = 0 + (r : ℕ); omega
  | ⟨1, _⟩ => show (3 : ℕ) = 3 + (u : ℕ); omega

/-- The four coordinates of the anchors, each cut out as a row: row k of the transposed anchor array. -/
private theorem anc_c0 (x1 : Vec Ideal S4x8400 .f32) (u : Fin 1) (q : Fin 8400) : k0_pay8 x1 (ix2 u q) = x1 (ix2 (0 : Fin 4) q) := by
  unfold k0_pay8 k0_pay3
  dsimp only
  rw [shapeCast_self]
  refine extractStridedSlice_apply _ _ _ _ _ fun a => ?_
  match a with
  | ⟨0, _⟩ => show (0 : ℕ) = 0 + (u : ℕ); omega
  | ⟨1, _⟩ => show (q : ℕ) = 0 + (q : ℕ); omega

private theorem anc_c1 (x1 : Vec Ideal S4x8400 .f32) (u : Fin 1) (q : Fin 8400) : k0_pay9 x1 (ix2 u q) = x1 (ix2 (1 : Fin 4) q) := by
  unfold k0_pay9 k0_pay3
  dsimp only
  rw [shapeCast_self]
  refine extractStridedSlice_apply _ _ _ _ _ fun a => ?_
  match a with
  | ⟨0, _⟩ => show (1 : ℕ) = 1 + (u : ℕ); omega
  | ⟨1, _⟩ => show (q : ℕ) = 0 + (q : ℕ); omega

private theorem anc_c2 (x1 : Vec Ideal S4x8400 .f32) (u : Fin 1) (q : Fin 8400) : k0_pay10 x1 (ix2 u q) = x1 (ix2 (2 : Fin 4) q) := by
  unfold k0_pay10 k0_pay3
  dsimp only
  rw [shapeCast_self]
  refine extractStridedSlice_apply _ _ _ _ _ fun a => ?_
  match a with
  | ⟨0, _⟩ => show (2 : ℕ) = 2 + (u : ℕ); omega
  | ⟨1, _⟩ => show (q : ℕ) = 0 + (q : ℕ); omega

private theorem anc_c3 (x1 : Vec Ideal S4x8400 .f32) (u : Fin 1) (q : Fin 8400) : k0_pay11 x1 (ix2 u q) = x1 (ix2 (3 : Fin 4) q) := by
  unfold k0_pay11 k0_pay3
  dsimp only
  rw [shapeCast_self]
  refine extractStridedSlice_apply _ _ _ _ _ fun a => ?_
  match a with
  | ⟨0, _⟩ => show (3 : ℕ) = 3 + (u : ℕ); omega
  | ⟨1, _⟩ => show (q : ℕ) = 0 + (q : ℕ); omega

/-- What the body stores into the distance block, at box r of the block and anchor q: the centre distance of the
    block's row r and column q of the anchor array. -/
theorem pay_dist (x0 : Vec Ideal S16x4 .f32) (x1 : Vec Ideal S4x8400 .f32) (r : Fin 16) (q : Fin 8400) :
    k0_pay12 x0 x1 (ix2 r q)
      = Cert.BoxSpec.dist (x0 (ix2 r (0 : Fin 4))) (x0 (ix2 r (1 : Fin 4))) (x0 (ix2 r (2 : Fin 4))) (x0 (ix2 r (3 : Fin 4)))
          (x1 (ix2 (0 : Fin 4) q)) (x1 (ix2 (1 : Fin 4) q)) (x1 (ix2 (2 : Fin 4) q)) (x1 (ix2 (3 : Fin 4) q)) := by
  unfold k0_pay12 Cert.BoxSpec.dist
  simp only [sqrt_at, addf_apply, subf_apply, mulf_apply, spread_col, spread_row, broadcast_apply,
    box_c0, box_c1, box_c2, box_c3, anc_c0, anc_c1, anc_c2, anc_c3]
  rfl

/-- What the body stores into the second block, at box r of the block and anchor q: the generalised
    intersection-over-union of the block's row r and column q of the anchor array. -/
theorem pay_giou (x0 : Vec Ideal S16x4 .f32) (x1 : Vec Ideal S4x8400 .f32) (r : Fin 16) (q : Fin 8400) :
    k0_pay1 (k0_pay4 x0) (k0_pay5 x0) (k0_pay6 x0) (k0_pay7 x0) (k0_pay8 x1) (k0_pay9 x1) (k0_pay10 x1) (k0_pay11 x1)
        (k0_pay13 x0) (k0_pay14 x1) (k0_pay15 x0 x1) (k0_pay16 x0 x1) (k0_pay17 x0) (ix2 r q)
      = Cert.BoxSpec.giou (x0 (ix2 r (0 : Fin 4))) (x0 (ix2 r (1 : Fin 4))) (x0 (ix2 r (2 : Fin 4))) (x0 (ix2 r (3 : Fin 4)))
          (x1 (ix2 (0 : Fin 4) q)) (x1 (ix2 (1 : Fin 4) q)) (x1 (ix2 (2 : Fin 4) q)) (x1 (ix2 (3 : Fin 4) q)) := by
  unfold k0_pay1 k0_pay13 k0_pay14 k0_pay15 k0_pay16 k0_pay17 Cert.BoxSpec.giou Cert.BoxSpec.unionE Cert.BoxSpec.hullE
    Cert.BoxSpec.inter Cert.BoxSpec.hull Cert.BoxSpec.area
  simp only [addf_apply, subf_apply, mulf_apply, divf_apply, maximumf_apply, minimumf_apply, spread_col, spread_row,
    broadcast_apply, box_c0, box_c1, box_c2, box_c3, anc_c0, anc_c1, anc_c2, anc_c3]
  rfl

/-! ## From the blocks to the arrays -/

private theorem hz : (![0, 0] : Fin 2 → Nat) = fun _ => 0 := funext fun a => by fin_cases a <;> rfl

/-- The printed index maps, decided over the grid of 128 points: the block of boxes and the two result blocks sit at
    block row t, every other block index is 0. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of the block of boxes at point t is row R = 16 t + r of the flattened ground-truth array. -/
theorem boxes_block (c : Dev nD) (t : Fin cfg0.N) (r : Fin 16) (k : Fin 4) (R : Fin 2048) (hR : R.val = 16 * t.val + r.val) :
    (iblk0 V c 0 t : Vec Ideal S16x4 .f32) (ix2 r k) = (V c main_v0 : S2048x4.Idx → EReal) (ix2 R k) := by
  obtain ⟨e0, e1, -⟩ := block_index t
  unfold iblk0
  rw [View.read_apply]
  show V c main_v0 _ = V c main_v0 _
  congr 1
  funext a
  apply Fin.ext
  match a with
  | ⟨0, _⟩ => show win0_0.index t (0 : Fin 2) * 16 + 1 * r.val = R.val; rw [e0, hR]; omega
  | ⟨1, _⟩ => show win0_0.index t (1 : Fin 2) * 4 + 1 * k.val = k.val; rw [e1]; omega

/-- The block of anchors at every point is the whole transposed anchor array. -/
theorem anchors_block (c : Dev nD) (t : Fin cfg0.N) (k : Fin 4) (q : Fin 8400) :
    (iblk0 V c 1 t : Vec Ideal S4x8400 .f32) (ix2 k q) = (V c main_v1 : S4x8400.Idx → EReal) (ix2 k q) := by
  obtain ⟨-, -, e0, e1, -⟩ := block_index t
  unfold iblk0
  rw [View.read_apply]
  show V c main_v1 _ = V c main_v1 _
  congr 1
  funext a
  apply Fin.ext
  match a with
  | ⟨0, _⟩ => show win0_1.index t (0 : Fin 2) * 4 + 1 * k.val = k.val; rw [e0]; omega
  | ⟨1, _⟩ => show win0_1.index t (1 : Fin 2) * 8400 + 1 * q.val = q.val; rw [e1]; omega

/-- The stored distance at box r of a block and anchor q, once the block's row r is known to be row R of an array of
    boxes and the anchors' block an array of anchors: the centre distance of that row and that anchor. -/
theorem dist_of_rows (x0 : Vec Ideal S16x4 .f32) (x1 : Vec Ideal S4x8400 .f32) (gf : S2048x4.Idx → EReal) (an : S4x8400.Idx → EReal)
    (r : Fin 16) (q : Fin 8400) (R : Fin 2048) (h0 : ∀ k : Fin 4, x0 (ix2 r k) = gf (ix2 R k))
    (h1 : ∀ k : Fin 4, x1 (ix2 k q) = an (ix2 k q)) :
    k0_pay12 x0 x1 (ix2 r q) = Cert.BoxSpec.distK gf an R q := by
  rw [pay_dist, h0, h0, h0, h0, h1, h1, h1, h1]
  rfl

/-- The same for the generalised intersection-over-union. -/
theorem giou_of_rows (x0 : Vec Ideal S16x4 .f32) (x1 : Vec Ideal S4x8400 .f32) (gf : S2048x4.Idx → EReal) (an : S4x8400.Idx → EReal)
    (r : Fin 16) (q : Fin 8400) (R : Fin 2048) (h0 : ∀ k : Fin 4, x0 (ix2 r k) = gf (ix2 R k))
    (h1 : ∀ k : Fin 4, x1 (ix2 k q) = an (ix2 k q)) :
    k0_pay1 (k0_pay4 x0) (k0_pay5 x0) (k0_pay6 x0) (k0_pay7 x0) (k0_pay8 x1) (k0_pay9 x1) (k0_pay10 x1) (k0_pay11 x1)
        (k0_pay13 x0) (k0_pay14 x1) (k0_pay15 x0 x1) (k0_pay16 x0 x1) (k0_pay17 x0) (ix2 r q)
      = Cert.BoxSpec.giouK gf an R q := by
  rw [pay_giou, h0, h0, h0, h0, h1, h1, h1, h1]
  rfl

/-- WHAT POINT t WRITES BACK into the distance array is block t of the array of centre distances. -/
theorem flushed_dist (c : Dev nD) (t : Fin cfg0.N) :
    (dat0 (F := Ideal) V c).flushed 2 t
      = ((cfg0.win 2).blk t).view.read (Elt Ideal) (Cert.BoxSpec.distKArr (V c main_v0) (V c main_v1)) := by
  show (cfg0.win 2).cut (grid0.coords t) ((dat0 V c).after 2 t) = _
  rw [after0_2]
  unfold out0_2
  rw [View.canon_unit_zero hz]
  simp only [View.ld_unit_zero (S := S16x4) hz, View.ld_unit_zero (S := S4x8400) hz]
  obtain ⟨-, -, -, -, e0, e1, -⟩ := block_index t
  have ht : t.val < 128 := t.isLt
  show (k0_pay12 (iblk0 V c 0 t) (iblk0 V c 1 t) : S16x8400.Idx → EReal)
    = fun j => Cert.BoxSpec.distKArr (V c main_v0) (V c main_v1) (((cfg0.win 2).blk t).view.emb j)
  refine Cert.BoxSpec.ext2 _ _ fun r q => ?_
  refine (dist_of_rows _ _ (V c main_v0) (V c main_v1) r q ⟨16 * t.val + r.val, by omega⟩
    (fun k => boxes_block V c t r k _ rfl) (fun k => anchors_block V c t k q)).trans ?_
  show Cert.BoxSpec.distK _ _ _ _ = Cert.BoxSpec.distK _ _ _ _
  congr 1 <;> apply Fin.ext
  · show 16 * t.val + r.val = win0_2.index t (0 : Fin 2) * 16 + 1 * r.val; rw [e0]; omega
  · show q.val = win0_2.index t (1 : Fin 2) * 8400 + 1 * q.val; rw [e1]; omega

/-- WHAT POINT t WRITES BACK into the second result array is block t of the array of generalised
    intersection-over-unions. -/
theorem flushed_giou (c : Dev nD) (t : Fin cfg0.N) :
    (dat0 (F := Ideal) V c).flushed 3 t
      = ((cfg0.win 3).blk t).view.read (Elt Ideal) (Cert.BoxSpec.giouKArr (V c main_v0) (V c main_v1)) := by
  show (cfg0.win 3).cut (grid0.coords t) ((dat0 V c).after 3 t) = _
  rw [after0_3]
  unfold out0_3
  rw [View.canon_unit_zero hz]
  simp only [View.ld_unit_zero (S := S16x4) hz, View.ld_unit_zero (S := S4x8400) hz]
  obtain ⟨-, -, -, -, -, -, e0, e1⟩ := block_index t
  have ht : t.val < 128 := t.isLt
  show (k0_pay1 (k0_pay4 (iblk0 V c 0 t)) (k0_pay5 (iblk0 V c 0 t)) (k0_pay6 (iblk0 V c 0 t)) (k0_pay7 (iblk0 V c 0 t))
      (k0_pay8 (iblk0 V c 1 t)) (k0_pay9 (iblk0 V c 1 t)) (k0_pay10 (iblk0 V c 1 t)) (k0_pay11 (iblk0 V c 1 t))
      (k0_pay13 (iblk0 V c 0 t)) (k0_pay14 (iblk0 V c 1 t)) (k0_pay15 (iblk0 V c 0 t) (iblk0 V c 1 t))
      (k0_pay16 (iblk0 V c 0 t) (iblk0 V c 1 t)) (k0_pay17 (iblk0 V c 0 t)) : S16x8400.Idx → EReal)
    = fun j => Cert.BoxSpec.giouKArr (V c main_v0) (V c main_v1) (((cfg0.win 3).blk t).view.emb j)
  refine Cert.BoxSpec.ext2 _ _ fun r q => ?_
  refine (giou_of_rows _ _ (V c main_v0) (V c main_v1) r q ⟨16 * t.val + r.val, by omega⟩
    (fun k => boxes_block V c t r k _ rfl) (fun k => anchors_block V c t k q)).trans ?_
  show Cert.BoxSpec.giouK _ _ _ _ = Cert.BoxSpec.giouK _ _ _ _
  congr 1 <;> apply Fin.ext
  · show 16 * t.val + r.val = win0_3.index t (0 : Fin 2) * 16 + 1 * r.val; rw [e0]; omega
  · show q.val = win0_3.index t (1 : Fin 2) * 8400 + 1 * q.val; rw [e1]; omega

/-- An index of the distance array is in point t's block iff each coordinate is in the block's range on its axis. -/
theorem mem_dist_block (t : Fin cfg0.N) (i : S2048x8400.Idx) :
    i ∈ ((cfg0.win 2).blk t).view.set ↔ ∀ a : Fin 2, win0_2.index t a * S16x8400.size a ≤ (i a).val
      ∧ (i a).val < win0_2.index t a * S16x8400.size a + S16x8400.size a := by
  show i ∈ ((View.whole main_v2_0).slice (win0_2.rect t)).set ↔ _
  rw [View.set_slice_whole, Rect.mem_set_unit]
  exact Iff.rfl

/-- The same for the second result array. -/
theorem mem_giou_block (t : Fin cfg0.N) (i : S2048x8400.Idx) :
    i ∈ ((cfg0.win 3).blk t).view.set ↔ ∀ a : Fin 2, win0_3.index t a * S16x8400.size a ≤ (i a).val
      ∧ (i a).val < win0_3.index t a * S16x8400.size a + S16x8400.size a := by
  show i ∈ ((View.whole main_v2_1).slice (win0_3.rect t)).set ↔ _
  rw [View.set_slice_whole, Rect.mem_set_unit]
  exact Iff.rfl

/-- The point whose blocks hold row i: the quotient of i by the 16 rows of a block. -/
private def pointOf (i0 : Fin 2048) : Fin cfg0.N := ⟨i0.val / 16, by have := i0.isLt; show _ < 128; omega⟩

/-- Every index of the distance array is in the block of the point its row belongs to. -/
theorem dist_covered (i : S2048x8400.Idx) :
    ∃ t : Fin cfg0.N, (cfg0.win 2).flush t = true ∧ i ∈ ((cfg0.win 2).blk t).view.set := by
  have hi0 : (i 0).val < 2048 := (i 0).isLt
  have hi1 : (i 1).val < 8400 := (i 1).isLt
  obtain ⟨-, -, -, -, e0, e1, -⟩ := block_index (pointOf (i 0))
  have hp : (pointOf (i 0)).val = (i 0).val / 16 := rfl
  refine ⟨pointOf (i 0), flush0_2 _, ?_⟩
  rw [mem_dist_block]
  intro a
  match a with
  | ⟨0, _⟩ =>
    show win0_2.index (pointOf (i 0)) (0 : Fin 2) * 16 ≤ (i 0).val ∧ (i 0).val < win0_2.index (pointOf (i 0)) (0 : Fin 2) * 16 + 16
    rw [e0, hp]; omega
  | ⟨1, _⟩ =>
    show win0_2.index (pointOf (i 0)) (1 : Fin 2) * 8400 ≤ (i 1).val ∧ (i 1).val < win0_2.index (pointOf (i 0)) (1 : Fin 2) * 8400 + 8400
    rw [e1]; omega

/-- The same for the second result array. -/
theorem giou_covered (i : S2048x8400.Idx) :
    ∃ t : Fin cfg0.N, (cfg0.win 3).flush t = true ∧ i ∈ ((cfg0.win 3).blk t).view.set := by
  have hi0 : (i 0).val < 2048 := (i 0).isLt
  have hi1 : (i 1).val < 8400 := (i 1).isLt
  obtain ⟨-, -, -, -, -, -, e0, e1⟩ := block_index (pointOf (i 0))
  have hp : (pointOf (i 0)).val = (i 0).val / 16 := rfl
  refine ⟨pointOf (i 0), flush0_3 _, ?_⟩
  rw [mem_giou_block]
  intro a
  match a with
  | ⟨0, _⟩ =>
    show win0_3.index (pointOf (i 0)) (0 : Fin 2) * 16 ≤ (i 0).val ∧ (i 0).val < win0_3.index (pointOf (i 0)) (0 : Fin 2) * 16 + 16
    rw [e0, hp]; omega
  | ⟨1, _⟩ =>
    show win0_3.index (pointOf (i 0)) (1 : Fin 2) * 8400 ≤ (i 1).val ∧ (i 1).val < win0_3.index (pointOf (i 0)) (1 : Fin 2) * 8400 + 8400
    rw [e1]; omega

/-! ## The two result arrays after the region -/

theorem final_dist (c : Dev nD) :
    (dat0 (F := Ideal) V c).arrAt 2 cfg0.N = Cert.BoxSpec.distKArr (V c main_v0) (V c main_v1) :=
  (dat0 (F := Ideal) V c).arrAt_eq_of_cover 2 (Cert.BoxSpec.distKArr (V c main_v0) (V c main_v1))
    (fun t _ => flushed_dist V c t) dist_covered

theorem final_giou (c : Dev nD) :
    (dat0 (F := Ideal) V c).arrAt 3 cfg0.N = Cert.BoxSpec.giouKArr (V c main_v0) (V c main_v1) :=
  (dat0 (F := Ideal) V c).arrAt_eq_of_cover 3 (Cert.BoxSpec.giouKArr (V c main_v0) (V c main_v1))
    (fun t _ => flushed_giou V c t) giou_covered

end Cert.KernelIdeal.Reg0

end
-- ==== Proof.Region1.lean ====
/-
  The second kernel region, read as values at the ideal instance: whatever the TensorCore's buffers hold when the region
  is entered, its result array ends holding, at image b, ground-truth box p and prediction q, the
  intersection-over-union of box (b, p) of the ground-truth array with column q of image b of the transposed
  prediction array.
-/
import proofs.«106192_j66511863546259_1_alg».proof.Proof.Gen.KernelIdeal.Frame
import proofs.«106192_j66511863546259_1_alg».proof.Proof.BoxSpec
import Idealize.ShloMosaic.Lib.Pipeline.Value
import Idealize.ShloMosaic.Lib.ValueIdx
import Idealize.ShloMosaic.Lib.ValueLayout

set_option maxRecDepth 16384

noncomputable section

namespace Cert.KernelIdeal.Reg1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## One element of what the body stores -/

/-- A column of 64 broadcast along 8400 lanes reads, at (p, q), the column at p. -/
private theorem bcast_col (v : S64x1.Idx → EReal) (h : S64x1.Broadcasts S64x8400) (p : Fin 64) (q : Fin 8400) :
    broadcastTo S64x8400 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A row of 8400 broadcast over 64 rows reads, at (p, q), the row at q. -/
private theorem bcast_row (v : S1x8400.Idx → EReal) (h : S1x8400.Broadcasts S64x8400) (p : Fin 64) (q : Fin 8400) :
    broadcastTo S64x8400 v h (ix2 p q) = v (ix2 (0 : Fin 1) q) :=
  broadcastTo_1b_ab_apply v h p q

/-- Coordinate o of box p of the block of ground-truth boxes, read through the flattening and the column cut. -/
private theorem gt_coord (x0 : S1x64x4.Idx → EReal) (hc : S1x64x4.ShapeCasts S64x4) (o : Nat) (ho : o < 4)
    (hs : S64x4.Slices ![0, o] S64x1) (p : Fin 64) :
    extractStridedSlice S64x1 ![0, o] (shapeCast S64x4 x0 hc) hs (ix2 p (0 : Fin 1))
      = x0 (ix3 (0 : Fin 1) p (⟨o, ho⟩ : Fin 4)) := by
  refine (slice2_axis1_apply o _ hs p (0 : Fin 1) (⟨o, ho⟩ : Fin 4) (by simp)).trans ?_
  exact shapeCast_1ab_ab_apply x0 hc p _

/-- Coordinate o of prediction q of the block of transposed predictions, read through the flattening and the row cut. -/
private theorem pr_coord (x1 : S1x4x8400.Idx → EReal) (hc : S1x4x8400.ShapeCasts S4x8400) (o : Nat) (ho : o < 4)
    (hs : S4x8400.Slices ![o, 0] S1x8400) (q : Fin 8400) :
    extractStridedSlice S1x8400 ![o, 0] (shapeCast S4x8400 x1 hc) hs (ix2 (0 : Fin 1) q)
      = x1 (ix3 (0 : Fin 1) (⟨o, ho⟩ : Fin 4) q) := by
  refine (slice2_axis0_apply o _ hs (0 : Fin 1) q (⟨o, ho⟩ : Fin 4) (by simp)).trans ?_
  exact shapeCast_1ab_ab_apply x1 hc _ q

/-- The quotient the body computes, at box p and prediction q of its two blocks, is the intersection-over-union of
    that box with that prediction. -/
private theorem pay_core (x0 : Vec Ideal S1x64x4 .f32) (x1 : Vec Ideal S1x4x8400 .f32) (p : Fin 64) (q : Fin 8400) :
    k1_pay2 x0 x1 (ix2 p q)
      = Cert.BoxSpec.iou (x0 (ix3 (0 : Fin 1) p (0 : Fin 4))) (x0 (ix3 (0 : Fin 1) p (1 : Fin 4)))
          (x0 (ix3 (0 : Fin 1) p (2 : Fin 4))) (x0 (ix3 (0 : Fin 1) p (3 : Fin 4)))
          (x1 (ix3 (0 : Fin 1) (0 : Fin 4) q)) (x1 (ix3 (0 : Fin 1) (1 : Fin 4) q))
          (x1 (ix3 (0 : Fin 1) (2 : Fin 4) q)) (x1 (ix3 (0 : Fin 1) (3 : Fin 4) q)) := by
  unfold k1_pay2
  simp only [divf_apply, mulf_apply, addf_apply, subf_apply, maximumf_apply, minimumf_apply, broadcast_apply,
    bcast_col, bcast_row]
  rw [gt_coord x0 _ 0 (by omega), gt_coord x0 _ 1 (by omega), gt_coord x0 _ 2 (by omega), gt_coord x0 _ 3 (by omega),
    pr_coord x1 _ 0 (by omega), pr_coord x1 _ 1 (by omega), pr_coord x1 _ 2 (by omega), pr_coord x1 _ 3 (by omega)]
  rfl

/-- The stored block is that quotient with a leading unit axis put in front. -/
theorem pay_iou (x0 : Vec Ideal S1x64x4 .f32) (x1 : Vec Ideal S1x4x8400 .f32) (p : Fin 64) (q : Fin 8400) :
    k1_pay1 (k1_pay2 x0 x1) (ix3 (0 : Fin 1) p q)
      = Cert.BoxSpec.iou (x0 (ix3 (0 : Fin 1) p (0 : Fin 4))) (x0 (ix3 (0 : Fin 1) p (1 : Fin 4)))
          (x0 (ix3 (0 : Fin 1) p (2 : Fin 4))) (x0 (ix3 (0 : Fin 1) p (3 : Fin 4)))
          (x1 (ix3 (0 : Fin 1) (0 : Fin 4) q)) (x1 (ix3 (0 : Fin 1) (1 : Fin 4) q))
          (x1 (ix3 (0 : Fin 1) (2 : Fin 4) q)) (x1 (ix3 (0 : Fin 1) (3 : Fin 4) q)) := by
  unfold k1_pay1
  exact (shapeCast_ab_1ab_apply _ _ (0 : Fin 1) p q).trans (pay_core x0 x1 p q)

/-- The intersection-over-union of equal boxes is equal. -/
private theorem iou_congr {g0 g1 g2 g3 a0 a1 a2 a3 g0' g1' g2' g3' a0' a1' a2' a3' : EReal}
    (h0 : g0 = g0') (h1 : g1 = g1') (h2 : g2 = g2') (h3 : g3 = g3')
    (k0 : a0 = a0') (k1 : a1 = a1') (k2 : a2 = a2') (k3 : a3 = a3') :
    Cert.BoxSpec.iou g0 g1 g2 g3 a0 a1 a2 a3 = Cert.BoxSpec.iou g0' g1' g2' g3' a0' a1' a2' a3' := by
  subst h0 h1 h2 h3 k0 k1 k2 k3; rfl

/-! ## The blocks, point by point -/

variable (V : (c : Dev nD) → (b : Ref sig .tc) → Buf (Elt Ideal) ((c : Thread nD τ).loc b))

theorem zero3 : (![0, 0, 0] : Fin 3 → Nat) = fun _ => 0 := funext fun a => by fin_cases a <;> rfl

/-- The three index maps, decided over the 32 points: the block of ground-truth boxes sits at the result block's image and
    half, the block of predictions at the result block's image, and the result's block indices stay in range. -/
theorem idx_rel : ∀ t : Fin cfg1.N,
    win1_0.index t (0 : Fin 3) = win1_2.index t (0 : Fin 3)
    ∧ win1_0.index t (1 : Fin 3) = win1_2.index t (1 : Fin 3)
    ∧ win1_0.index t (2 : Fin 3) = 0
    ∧ win1_1.index t (0 : Fin 3) = win1_2.index t (0 : Fin 3)
    ∧ win1_1.index t (1 : Fin 3) = 0
    ∧ win1_1.index t (2 : Fin 3) = 0
    ∧ win1_2.index t (0 : Fin 3) ≤ 15
    ∧ win1_2.index t (1 : Fin 3) ≤ 1
    ∧ win1_2.index t (2 : Fin 3) = 0 :=
  (by decide +kernel : ∀ t : Fin grid1.N, _)

/-- Every (image, half) is some point's result block. -/
theorem idx_onto : ∀ (b : Fin 16) (h : Fin 2), ∃ t : Fin cfg1.N, win1_2.index t = ![b.val, h.val, 0] :=
  (by decide +kernel : ∀ (b : Fin 16) (h : Fin 2), ∃ t : Fin grid1.N, win1_2.index t = ![b.val, h.val, 0])

/-- What point t writes back is its block of the intersection-over-union array of the two arrays the region reads. -/
theorem flushed_iou (c : Dev nD) (t : Fin cfg1.N) :
    (dat1 (F := Ideal) V c).flushed 2 t
      = ((cfg1.win 2).blk t).view.read (Elt Ideal) (Cert.BoxSpec.iouKArr (V c main_arg0) (V c main_v3)) := by
  show (cfg1.win 2).cut (grid1.coords t) ((dat1 V c).after 2 t) = _
  rw [after1_2]
  unfold out1_2
  rw [View.canon_unit_zero zero3]
  simp only [View.ld_unit_zero (S := S1x64x4) zero3, View.ld_unit_zero (S := S1x4x8400) zero3]
  obtain ⟨e00, e01, e02, e10, e11, e12, b0, b1, b2⟩ := idx_rel t
  funext j
  obtain ⟨u, p, q, rfl⟩ : ∃ (u : Fin 1) (p : Fin 64) (q : Fin 8400), j = ix3 u p q := ⟨j 0, j 1, j 2, eq_ix3 j⟩
  obtain rfl : u = 0 := Subsingleton.elim _ _
  show k1_pay1 (k1_pay2 (iblk1 V c 0 t) (iblk1 V c 1 t)) (ix3 (0 : Fin 1) p q)
      = Cert.BoxSpec.iouKArr (V c main_arg0) (V c main_v3) (((cfg1.win 2).blk t).view.emb (ix3 (0 : Fin 1) p q))
  refine (pay_iou (iblk1 V c 0 t) (iblk1 V c 1 t) p q).trans ?_
  -- the element of the result array under (0, p, q) of the block: image, box and prediction
  have hg : ∀ k : Fin 4, (iblk1 V c 0 t : Vec Ideal S1x64x4 .f32) (ix3 (0 : Fin 1) p k)
      = V c main_arg0 (ix3 (n0 := 16) (n1 := 128) ((((cfg1.win 2).blk t).view.emb (ix3 (0 : Fin 1) p q)) 0)
          ((((cfg1.win 2).blk t).view.emb (ix3 (0 : Fin 1) p q)) 1) k) := by
    intro k
    show V c main_arg0 (((cfg1.win 0).blk t).view.emb (ix3 (0 : Fin 1) p k)) = _
    refine congrArg (V c main_arg0) ?_
    funext a; apply Fin.ext
    match a with
    | ⟨0, _⟩ => show win1_0.index t (0 : Fin 3) * 1 + 1 * 0 = win1_2.index t (0 : Fin 3) * 1 + 1 * 0; omega
    | ⟨1, _⟩ => show win1_0.index t (1 : Fin 3) * 64 + 1 * p.val = win1_2.index t (1 : Fin 3) * 64 + 1 * p.val; omega
    | ⟨2, _⟩ => show win1_0.index t (2 : Fin 3) * 4 + 1 * k.val = k.val; omega
  have hp : ∀ k : Fin 4, (iblk1 V c 1 t : Vec Ideal S1x4x8400 .f32) (ix3 (0 : Fin 1) k q)
      = V c main_v3 (ix3 (n0 := 16) (n2 := 8400) ((((cfg1.win 2).blk t).view.emb (ix3 (0 : Fin 1) p q)) 0) k
          ((((cfg1.win 2).blk t).view.emb (ix3 (0 : Fin 1) p q)) 2)) := by
    intro k
    show V c main_v3 (((cfg1.win 1).blk t).view.emb (ix3 (0 : Fin 1) k q)) = _
    refine congrArg (V c main_v3) ?_
    funext a; apply Fin.ext
    match a with
    | ⟨0, _⟩ => show win1_1.index t (0 : Fin 3) * 1 + 1 * 0 = win1_2.index t (0 : Fin 3) * 1 + 1 * 0; omega
    | ⟨1, _⟩ => show win1_1.index t (1 : Fin 3) * 4 + 1 * k.val = k.val; omega
    | ⟨2, _⟩ => show win1_1.index t (2 : Fin 3) * 8400 + 1 * q.val = win1_2.index t (2 : Fin 3) * 8400 + 1 * q.val; omega
  exact iou_congr (hg 0) (hg 1) (hg 2) (hg 3) (hp 0) (hp 1) (hp 2) (hp 3)

/-! ## From the blocks to the array -/

/-- An index of the result array is in point t's block iff each coordinate is in the block's range on its axis. -/
theorem mem_block (t : Fin cfg1.N) (i : S16x128x8400.Idx) :
    i ∈ ((cfg1.win 2).blk t).view.set ↔ ∀ a : Fin 3, win1_2.index t a * S1x64x8400.size a ≤ (i a).val
      ∧ (i a).val < win1_2.index t a * S1x64x8400.size a + S1x64x8400.size a := by
  show i ∈ ((View.whole main_v4).slice (win1_2.rect t)).set ↔ _
  rw [View.set_slice_whole, Rect.mem_set_unit]
  exact Iff.rfl

/-- The blocks fill the array: index (b, r, q) lies in the block of the point whose result block is image b,
    half r / 64. -/
theorem covered (i : S16x128x8400.Idx) :
    ∃ t : Fin cfg1.N, (cfg1.win 2).flush t = true ∧ i ∈ ((cfg1.win 2).blk t).view.set := by
  have hi0 : (i 0).val < 16 := (i 0).isLt
  have hi1 : (i 1).val < 128 := (i 1).isLt
  have hi2 : (i 2).val < 8400 := (i 2).isLt
  obtain ⟨t, ht⟩ := idx_onto ⟨(i 0).val, hi0⟩ ⟨(i 1).val / 64, by omega⟩
  have q0 : win1_2.index t (0 : Fin 3) = (i 0).val := congrFun ht 0
  have q1 : win1_2.index t (1 : Fin 3) = (i 1).val / 64 := congrFun ht 1
  have q2 : win1_2.index t (2 : Fin 3) = 0 := congrFun ht 2
  refine ⟨t, flush1_2 t, ?_⟩
  rw [mem_block]
  intro a
  match a with
  | ⟨0, _⟩ =>
    show win1_2.index t (0 : Fin 3) * 1 ≤ (i 0).val ∧ (i 0).val < win1_2.index t (0 : Fin 3) * 1 + 1; omega
  | ⟨1, _⟩ =>
    show win1_2.index t (1 : Fin 3) * 64 ≤ (i 1).val ∧ (i 1).val < win1_2.index t (1 : Fin 3) * 64 + 64; omega
  | ⟨2, _⟩ =>
    show win1_2.index t (2 : Fin 3) * 8400 ≤ (i 2).val ∧ (i 2).val < win1_2.index t (2 : Fin 3) * 8400 + 8400; omega

theorem final_iou (c : Dev nD) :
    (dat1 (F := Ideal) V c).arrAt 2 cfg1.N = Cert.BoxSpec.iouKArr (V c main_arg0) (V c main_v3) :=
  (dat1 (F := Ideal) V c).arrAt_eq_of_cover 2 (Cert.BoxSpec.iouKArr (V c main_arg0) (V c main_v3))
    (fun t _ => flushed_iou V c t) covered

end Cert.KernelIdeal.Reg1

end
-- ==== Proof.RefOps.lean ====
import proofs.«106192_j66511863546259_1_alg».proof.Proof.Gen.ReferenceIdeal
import Idealize.ShloMosaic.Lib.StableHlo.Run

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 4000000 in
/-- Operations 1 to 60 of @main (its window 0). -/
def ops0 : List (HloOp τ sig (Elt F)) :=
  [ reshape main_arg0 main_v0 rfl shapeCasts_S16x128x4_S2048x4,
    unary main_v0 main_v1 ((extractStridedSlice S2048x2 ![0, 0] · slices_S2048x4_S2048x2_0_0) : (⟨S2048x4, .f32⟩ : BufTy).Contents (Elt F) → (⟨S2048x2, .f32⟩ : BufTy).Contents (Elt F)),
    unary main_v0 main_v2 ((extractStridedSlice S2048x2 ![0, 2] · slices_S2048x4_S2048x2_0_2) : (⟨S2048x4, .f32⟩ : BufTy).Contents (Elt F) → (⟨S2048x2, .f32⟩ : BufTy).Contents (Elt F)),
    binary main_v1 main_v2 main_v3 (addf : (⟨S2048x2, .f32⟩ : BufTy).Contents (Elt F) → (⟨S2048x2, .f32⟩ : BufTy).Contents (Elt F) → (⟨S2048x2, .f32⟩ : BufTy).Contents (Elt F)),
    nullary main_cst (constant S_ .f32 0x40000000#32),
    unary main_cst main_v4 (broadcastInDim S2048x2 ![] bcast_S_S2048x2 : (⟨S_, .f32⟩ : BufTy).Contents (Elt F) → (⟨S2048x2, .f32⟩ : BufTy).Contents (Elt F)),
    binary main_v3 main_v4 main_v5 (Host.divf : (⟨S2048x2, .f32⟩ : BufTy).Contents (Elt F) → (⟨S2048x2, .f32⟩ : BufTy).Contents (Elt F) → (⟨S2048x2, .f32⟩ : BufTy).Contents (Elt F)),
    unary main_arg2 main_v6 ((extractStridedSlice S8400x2 ![0, 0] · slices_S8400x4_S8400x2_0_0) : (⟨S8400x4, .f32⟩ : BufTy).Contents (Elt F) → (⟨S8400x2, .f32⟩ : BufTy).Contents (Elt F)),
    unary main_arg2 main_v7 ((extractStridedSlice S8400x2 ![0, 2] · slices_S8400x4_S8400x2_0_2) : (⟨S8400x4, .f32⟩ : BufTy).Contents (Elt F) → (⟨S8400x2, .f32⟩ : BufTy).Contents (Elt F)),
    binary main_v6 main_v7 main_v8 (addf : (⟨S8400x2, .f32⟩ : BufTy).Contents (Elt F) → (⟨S8400x2, .f32⟩ : BufTy).Contents (Elt F) → (⟨S8400x2, .f32⟩ : BufTy).Contents (Elt F)),
    nullary main_cst_0 (constant S_ .f32 0x40000000#32),
    unary main_cst_0 main_v9 (broadcastInDim S8400x2 ![] bcast_S_S8400x2 : (⟨S_, .f32⟩ : BufTy).Contents (Elt F) → (⟨S8400x2, .f32⟩ : BufTy).Contents (Elt F)),
    binary main_v8 main_v9 main_v10 (Host.divf : (⟨S8400x2, .f32⟩ : BufTy).Contents (Elt F) → (⟨S8400x2, .f32⟩ : BufTy).Contents (Elt F) → (⟨S8400x2, .f32⟩ : BufTy).Contents (Elt F)),
    unary main_v5 main_v11 (broadcastInDim S2048x1x2 ![0, 2] bcast_S2048x2_S2048x1x2_0_2 : (⟨S2048x2, .f32⟩ : BufTy).Contents (Elt F) → (⟨S2048x1x2, .f32⟩ : BufTy).Contents (Elt F)),
    unary main_v10 main_v12 (broadcastInDim S1x8400x2 ![1, 2] bcast_S8400x2_S1x8400x2_1_2 : (⟨S8400x2, .f32⟩ : BufTy).Contents (Elt F) → (⟨S1x8400x2, .f32⟩ : BufTy).Contents (Elt F)),
    unary main_v11 main_v13 (broadcastInDim S2048x8400x2 ![0, 1, 2] bcast_S2048x1x2_S2048x8400x2_0_1_2 : (⟨S2048x1x2, .f32⟩ : BufTy).Contents (Elt F) → (⟨S2048x8400x2, .f32⟩ : BufTy).Contents (Elt F)),
    unary main_v12 main_v14 (broadcastInDim S2048x8400x2 ![0, 1, 2] bcast_S1x8400x2_S2048x8400x2_0_1_2 : (⟨S1x8400x2, .f32⟩ : BufTy).Contents (Elt F) → (⟨S2048x8400x2, .f32⟩ : BufTy).Contents (Elt F)),
    binary main_v13 main_v14 main_v15 (subf : (⟨S2048x8400x2, .f32⟩ : BufTy).Contents (Elt F) → (⟨S2048x8400x2, .f32⟩ : BufTy).Contents (Elt F) → (⟨S2048x8400x2, .f32⟩ : BufTy).Contents (Elt F)),
    binary main_v15 main_v15 main_v16 (mulf : (⟨S2048x8400x2, .f32⟩ : BufTy).Contents (Elt F) → (⟨S2048x8400x2, .f32⟩ : BufTy).Contents (Elt F) → (⟨S2048x8400x2, .f32⟩ : BufTy).Contents (Elt F)),
    nullary main_cst_1 (constant S_ .f32 0x00000000#32),
    binary main_v16 main_cst_1 main_v17 ((fun x v => Host.reduceAdd x v reducesTo_S2048x8400x2_S2048x8400_d2 h_S_) : (⟨S2048x8400x2, .f32⟩ : BufTy).Contents (Elt F) → (⟨S_, .f32⟩ : BufTy).Contents (Elt F) → (⟨S2048x8400, .f32⟩ : BufTy).Contents (Elt F)),
    unary main_v17 main_v18 (Host.sqrt : (⟨S2048x8400, .f32⟩ : BufTy).Contents (Elt F) → (⟨S2048x8400, .f32⟩ : BufTy).Contents (Elt F)),
    unary main_v0 main_v19 ((extractStridedSlice S2048x1 ![0, 2] · slices_S2048x4_S2048x1_0_2) : (⟨S2048x4, .f32⟩ : BufTy).Contents (Elt F) → (⟨S2048x1, .f32⟩ : BufTy).Contents (Elt F)),
    reshape main_v19 main_v20 rfl shapeCasts_S2048x1_S2048,
    unary main_v0 main_v21 ((extractStridedSlice S2048x1 ![0, 0] · slices_S2048x4_S2048x1_0_0) : (⟨S2048x4, .f32⟩ : BufTy).Contents (Elt F) → (⟨S2048x1, .f32⟩ : BufTy).Contents (Elt F)),
    reshape main_v21 main_v22 rfl shapeCasts_S2048x1_S2048,
    binary main_v20 main_v22 main_v23 (subf : (⟨S2048, .f32⟩ : BufTy).Contents (Elt F) → (⟨S2048, .f32⟩ : BufTy).Contents (Elt F) → (⟨S2048, .f32⟩ : BufTy).Contents (Elt F)),
    unary main_v0 main_v24 ((extractStridedSlice S2048x1 ![0, 3] · slices_S2048x4_S2048x1_0_3) : (⟨S2048x4, .f32⟩ : BufTy).Contents (Elt F) → (⟨S2048x1, .f32⟩ : BufTy).Contents (Elt F)),
    reshape main_v24 main_v25 rfl shapeCasts_S2048x1_S2048,
    unary main_v0 main_v26 ((extractStridedSlice S2048x1 ![0, 1] · slices_S2048x4_S2048x1_0_1) : (⟨S2048x4, .f32⟩ : BufTy).Contents (Elt F) → (⟨S2048x1, .f32⟩ : BufTy).Contents (Elt F)),
    reshape main_v26 main_v27 rfl shapeCasts_S2048x1_S2048,
    binary main_v25 main_v27 main_v28 (subf : (⟨S2048, .f32⟩ : BufTy).Contents (Elt F) → (⟨S2048, .f32⟩ : BufTy).Contents (Elt F) → (⟨S2048, .f32⟩ : BufTy).Contents (Elt F)),
    binary main_v23 main_v28 main_v29 (mulf : (⟨S2048, .f32⟩ : BufTy).Contents (Elt F) → (⟨S2048, .f32⟩ : BufTy).Contents (Elt F) → (⟨S2048, .f32⟩ : BufTy).Contents (Elt F)),
    unary main_arg2 main_v30 ((extractStridedSlice S8400x1 ![0, 2] · slices_S8400x4_S8400x1_0_2) : (⟨S8400x4, .f32⟩ : BufTy).Contents (Elt F) → (⟨S8400x1, .f32⟩ : BufTy).Contents (Elt F)),
    reshape main_v30 main_v31 rfl shapeCasts_S8400x1_S8400,
    unary main_arg2 main_v32 ((extractStridedSlice S8400x1 ![0, 0] · slices_S8400x4_S8400x1_0_0) : (⟨S8400x4, .f32⟩ : BufTy).Contents (Elt F) → (⟨S8400x1, .f32⟩ : BufTy).Contents (Elt F)),
    reshape main_v32 main_v33 rfl shapeCasts_S8400x1_S8400,
    binary main_v31 main_v33 main_v34 (subf : (⟨S8400, .f32⟩ : BufTy).Contents (Elt F) → (⟨S8400, .f32⟩ : BufTy).Contents (Elt F) → (⟨S8400, .f32⟩ : BufTy).Contents (Elt F)),
    unary main_arg2 main_v35 ((extractStridedSlice S8400x1 ![0, 3] · slices_S8400x4_S8400x1_0_3) : (⟨S8400x4, .f32⟩ : BufTy).Contents (Elt F) → (⟨S8400x1, .f32⟩ : BufTy).Contents (Elt F)),
    reshape main_v35 main_v36 rfl shapeCasts_S8400x1_S8400,
    unary main_arg2 main_v37 ((extractStridedSlice S8400x1 ![0, 1] · slices_S8400x4_S8400x1_0_1) : (⟨S8400x4, .f32⟩ : BufTy).Contents (Elt F) → (⟨S8400x1, .f32⟩ : BufTy).Contents (Elt F)),
    reshape main_v37 main_v38 rfl shapeCasts_S8400x1_S8400,
    binary main_v36 main_v38 main_v39 (subf : (⟨S8400, .f32⟩ : BufTy).Contents (Elt F) → (⟨S8400, .f32⟩ : BufTy).Contents (Elt F) → (⟨S8400, .f32⟩ : BufTy).Contents (Elt F)),
    binary main_v34 main_v39 main_v40 (mulf : (⟨S8400, .f32⟩ : BufTy).Contents (Elt F) → (⟨S8400, .f32⟩ : BufTy).Contents (Elt F) → (⟨S8400, .f32⟩ : BufTy).Contents (Elt F)),
    unary main_v0 main_v41 ((extractStridedSlice S2048x2 ![0, 0] · slices_S2048x4_S2048x2_0_0) : (⟨S2048x4, .f32⟩ : BufTy).Contents (Elt F) → (⟨S2048x2, .f32⟩ : BufTy).Contents (Elt F)),
    unary main_v41 main_v42 (broadcastInDim S2048x1x2 ![0, 2] bcast_S2048x2_S2048x1x2_0_2 : (⟨S2048x2, .f32⟩ : BufTy).Contents (Elt F) → (⟨S2048x1x2, .f32⟩ : BufTy).Contents (Elt F)),
    unary main_arg2 main_v43 ((extractStridedSlice S8400x2 ![0, 0] · slices_S8400x4_S8400x2_0_0) : (⟨S8400x4, .f32⟩ : BufTy).Contents (Elt F) → (⟨S8400x2, .f32⟩ : BufTy).Contents (Elt F)),
    unary main_v43 main_v44 (broadcastInDim S1x8400x2 ![1, 2] bcast_S8400x2_S1x8400x2_1_2 : (⟨S8400x2, .f32⟩ : BufTy).Contents (Elt F) → (⟨S1x8400x2, .f32⟩ : BufTy).Contents (Elt F)),
    unary main_v42 main_v45 (broadcastInDim S2048x8400x2 ![0, 1, 2] bcast_S2048x1x2_S2048x8400x2_0_1_2 : (⟨S2048x1x2, .f32⟩ : BufTy).Contents (Elt F) → (⟨S2048x8400x2, .f32⟩ : BufTy).Contents (Elt F)),
    unary main_v44 main_v46 (broadcastInDim S2048x8400x2 ![0, 1, 2] bcast_S1x8400x2_S2048x8400x2_0_1_2 : (⟨S1x8400x2, .f32⟩ : BufTy).Contents (Elt F) → (⟨S2048x8400x2, .f32⟩ : BufTy).Contents (Elt F)),
    binary main_v45 main_v46 main_v47 (maximumf : (⟨S2048x8400x2, .f32⟩ : BufTy).Contents (Elt F) → (⟨S2048x8400x2, .f32⟩ : BufTy).Contents (Elt F) → (⟨S2048x8400x2, .f32⟩ : BufTy).Contents (Elt F)),
    unary main_v0 main_v48 ((extractStridedSlice S2048x2 ![0, 2] · slices_S2048x4_S2048x2_0_2) : (⟨S2048x4, .f32⟩ : BufTy).Contents (Elt F) → (⟨S2048x2, .f32⟩ : BufTy).Contents (Elt F)),
    unary main_v48 main_v49 (broadcastInDim S2048x1x2 ![0, 2] bcast_S2048x2_S2048x1x2_0_2 : (⟨S2048x2, .f32⟩ : BufTy).Contents (Elt F) → (⟨S2048x1x2, .f32⟩ : BufTy).Contents (Elt F)),
    unary main_arg2 main_v50 ((extractStridedSlice S8400x2 ![0, 2] · slices_S8400x4_S8400x2_0_2) : (⟨S8400x4, .f32⟩ : BufTy).Contents (Elt F) → (⟨S8400x2, .f32⟩ : BufTy).Contents (Elt F)),
    unary main_v50 main_v51 (broadcastInDim S1x8400x2 ![1, 2] bcast_S8400x2_S1x8400x2_1_2 : (⟨S8400x2, .f32⟩ : BufTy).Contents (Elt F) → (⟨S1x8400x2, .f32⟩ : BufTy).Contents (Elt F)),
    unary main_v49 main_v52 (broadcastInDim S2048x8400x2 ![0, 1, 2] bcast_S2048x1x2_S2048x8400x2_0_1_2 : (⟨S2048x1x2, .f32⟩ : BufTy).Contents (Elt F) → (⟨S2048x8400x2, .f32⟩ : BufTy).Contents (Elt F)),
    unary main_v51 main_v53 (broadcastInDim S2048x8400x2 ![0, 1, 2] bcast_S1x8400x2_S2048x8400x2_0_1_2 : (⟨S1x8400x2, .f32⟩ : BufTy).Contents (Elt F) → (⟨S2048x8400x2, .f32⟩ : BufTy).Contents (Elt F)),
    binary main_v52 main_v53 main_v54 (minimumf : (⟨S2048x8400x2, .f32⟩ : BufTy).Contents (Elt F) → (⟨S2048x8400x2, .f32⟩ : BufTy).Contents (Elt F) → (⟨S2048x8400x2, .f32⟩ : BufTy).Contents (Elt F)),
    binary main_v54 main_v47 main_v55 (subf : (⟨S2048x8400x2, .f32⟩ : BufTy).Contents (Elt F) → (⟨S2048x8400x2, .f32⟩ : BufTy).Contents (Elt F) → (⟨S2048x8400x2, .f32⟩ : BufTy).Contents (Elt F)),
    nullary main_cst_2 (constant S_ .f32 0x00000000#32) ]

set_option maxRecDepth 8192 in
set_option maxHeartbeats 4000000 in
theorem ops0_sub : (ops0 : List (HloOp τ sig (Elt F))).Forall fun op => op.bufs ⊆ tcRefs τ sig := by
  unfold ops0
  exact ⟨reshape_bufs_sub .., unary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., unary_bufs_sub .., binary_bufs_sub .., binary_bufs_sub .., nullary_bufs_sub .., binary_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub ..⟩

set_option maxHeartbeats 4000000 in
/-- Operations 61 to 126 of @main (its window 1). -/
def ops1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S2048x8400x2, .f32⟩) main_call0_v1) (broadcastInDim S2048x8400x2 ![] bcast_S_S2048x8400x2),
    TRef.binary (TRef.of (T := ⟨S2048x8400x2, .f32⟩) main_call0_v1) (TRef.of (T := ⟨S2048x8400x2, .f32⟩) main_v55) (TRef.of (T := ⟨S2048x8400x2, .f32⟩) main_v56) maximumf,
    unary main_v56 main_v57 ((extractStridedSlice S2048x8400x1 ![0, 0, 0] · slices_S2048x8400x2_S2048x8400x1_0_0_0) : (⟨S2048x8400x2, .f32⟩ : BufTy).Contents (Elt F) → (⟨S2048x8400x1, .f32⟩ : BufTy).Contents (Elt F)),
    reshape main_v57 main_v58 rfl shapeCasts_S2048x8400x1_S2048x8400,
    unary main_v56 main_v59 ((extractStridedSlice S2048x8400x1 ![0, 0, 1] · slices_S2048x8400x2_S2048x8400x1_0_0_1) : (⟨S2048x8400x2, .f32⟩ : BufTy).Contents (Elt F) → (⟨S2048x8400x1, .f32⟩ : BufTy).Contents (Elt F)),
    reshape main_v59 main_v60 rfl shapeCasts_S2048x8400x1_S2048x8400,
    binary main_v58 main_v60 main_v61 (mulf : (⟨S2048x8400, .f32⟩ : BufTy).Contents (Elt F) → (⟨S2048x8400, .f32⟩ : BufTy).Contents (Elt F) → (⟨S2048x8400, .f32⟩ : BufTy).Contents (Elt F)),
    unary main_v29 main_v62 (broadcastInDim S2048x1 ![0] bcast_S2048_S2048x1_0 : (⟨S2048, .f32⟩ : BufTy).Contents (Elt F) → (⟨S2048x1, .f32⟩ : BufTy).Contents (Elt F)),
    unary main_v40 main_v63 (broadcastInDim S1x8400 ![1] bcast_S8400_S1x8400_1 : (⟨S8400, .f32⟩ : BufTy).Contents (Elt F) → (⟨S1x8400, .f32⟩ : BufTy).Contents (Elt F)),
    unary main_v62 main_v64 (broadcastInDim S2048x8400 ![0, 1] bcast_S2048x1_S2048x8400_0_1 : (⟨S2048x1, .f32⟩ : BufTy).Contents (Elt F) → (⟨S2048x8400, .f32⟩ : BufTy).Contents (Elt F)),
    unary main_v63 main_v65 (broadcastInDim S2048x8400 ![0, 1] bcast_S1x8400_S2048x8400_0_1 : (⟨S1x8400, .f32⟩ : BufTy).Contents (Elt F) → (⟨S2048x8400, .f32⟩ : BufTy).Contents (Elt F)),
    binary main_v64 main_v65 main_v66 (addf : (⟨S2048x8400, .f32⟩ : BufTy).Contents (Elt F) → (⟨S2048x8400, .f32⟩ : BufTy).Contents (Elt F) → (⟨S2048x8400, .f32⟩ : BufTy).Contents (Elt F)),
    binary main_v66 main_v61 main_v67 (subf : (⟨S2048x8400, .f32⟩ : BufTy).Contents (Elt F) → (⟨S2048x8400, .f32⟩ : BufTy).Contents (Elt F) → (⟨S2048x8400, .f32⟩ : BufTy).Contents (Elt F)),
    nullary main_cst_3 (constant S_ .f32 0x358637BD#32),
    unary main_cst_3 main_v68 (broadcastInDim S2048x8400 ![] bcast_S_S2048x8400 : (⟨S_, .f32⟩ : BufTy).Contents (Elt F) → (⟨S2048x8400, .f32⟩ : BufTy).Contents (Elt F)),
    binary main_v67 main_v68 main_v69 (maximumf : (⟨S2048x8400, .f32⟩ : BufTy).Contents (Elt F) → (⟨S2048x8400, .f32⟩ : BufTy).Contents (Elt F) → (⟨S2048x8400, .f32⟩ : BufTy).Contents (Elt F)),
    binary main_v61 main_v69 main_v70 (Host.divf : (⟨S2048x8400, .f32⟩ : BufTy).Contents (Elt F) → (⟨S2048x8400, .f32⟩ : BufTy).Contents (Elt F) → (⟨S2048x8400, .f32⟩ : BufTy).Contents (Elt F)),
    unary main_v0 main_v71 ((extractStridedSlice S2048x2 ![0, 0] · slices_S2048x4_S2048x2_0_0) : (⟨S2048x4, .f32⟩ : BufTy).Contents (Elt F) → (⟨S2048x2, .f32⟩ : BufTy).Contents (Elt F)),
    unary main_v71 main_v72 (broadcastInDim S2048x1x2 ![0, 2] bcast_S2048x2_S2048x1x2_0_2 : (⟨S2048x2, .f32⟩ : BufTy).Contents (Elt F) → (⟨S2048x1x2, .f32⟩ : BufTy).Contents (Elt F)),
    unary main_arg2 main_v73 ((extractStridedSlice S8400x2 ![0, 0] · slices_S8400x4_S8400x2_0_0) : (⟨S8400x4, .f32⟩ : BufTy).Contents (Elt F) → (⟨S8400x2, .f32⟩ : BufTy).Contents (Elt F)),
    unary main_v73 main_v74 (broadcastInDim S1x8400x2 ![1, 2] bcast_S8400x2_S1x8400x2_1_2 : (⟨S8400x2, .f32⟩ : BufTy).Contents (Elt F) → (⟨S1x8400x2, .f32⟩ : BufTy).Contents (Elt F)),
    unary main_v72 main_v75 (broadcastInDim S2048x8400x2 ![0, 1, 2] bcast_S2048x1x2_S2048x8400x2_0_1_2 : (⟨S2048x1x2, .f32⟩ : BufTy).Contents (Elt F) → (⟨S2048x8400x2, .f32⟩ : BufTy).Contents (Elt F)),
    unary main_v74 main_v76 (broadcastInDim S2048x8400x2 ![0, 1, 2] bcast_S1x8400x2_S2048x8400x2_0_1_2 : (⟨S1x8400x2, .f32⟩ : BufTy).Contents (Elt F) → (⟨S2048x8400x2, .f32⟩ : BufTy).Contents (Elt F)),
    binary main_v75 main_v76 main_v77 (minimumf : (⟨S2048x8400x2, .f32⟩ : BufTy).Contents (Elt F) → (⟨S2048x8400x2, .f32⟩ : BufTy).Contents (Elt F) → (⟨S2048x8400x2, .f32⟩ : BufTy).Contents (Elt F)),
    unary main_v0 main_v78 ((extractStridedSlice S2048x2 ![0, 2] · slices_S2048x4_S2048x2_0_2) : (⟨S2048x4, .f32⟩ : BufTy).Contents (Elt F) → (⟨S2048x2, .f32⟩ : BufTy).Contents (Elt F)),
    unary main_v78 main_v79 (broadcastInDim S2048x1x2 ![0, 2] bcast_S2048x2_S2048x1x2_0_2 : (⟨S2048x2, .f32⟩ : BufTy).Contents (Elt F) → (⟨S2048x1x2, .f32⟩ : BufTy).Contents (Elt F)),
    unary main_arg2 main_v80 ((extractStridedSlice S8400x2 ![0, 2] · slices_S8400x4_S8400x2_0_2) : (⟨S8400x4, .f32⟩ : BufTy).Contents (Elt F) → (⟨S8400x2, .f32⟩ : BufTy).Contents (Elt F)),
    unary main_v80 main_v81 (broadcastInDim S1x8400x2 ![1, 2] bcast_S8400x2_S1x8400x2_1_2 : (⟨S8400x2, .f32⟩ : BufTy).Contents (Elt F) → (⟨S1x8400x2, .f32⟩ : BufTy).Contents (Elt F)),
    unary main_v79 main_v82 (broadcastInDim S2048x8400x2 ![0, 1, 2] bcast_S2048x1x2_S2048x8400x2_0_1_2 : (⟨S2048x1x2, .f32⟩ : BufTy).Contents (Elt F) → (⟨S2048x8400x2, .f32⟩ : BufTy).Contents (Elt F)),
    unary main_v81 main_v83 (broadcastInDim S2048x8400x2 ![0, 1, 2] bcast_S1x8400x2_S2048x8400x2_0_1_2 : (⟨S1x8400x2, .f32⟩ : BufTy).Contents (Elt F) → (⟨S2048x8400x2, .f32⟩ : BufTy).Contents (Elt F)),
    binary main_v82 main_v83 main_v84 (maximumf : (⟨S2048x8400x2, .f32⟩ : BufTy).Contents (Elt F) → (⟨S2048x8400x2, .f32⟩ : BufTy).Contents (Elt F) → (⟨S2048x8400x2, .f32⟩ : BufTy).Contents (Elt F)),
    binary main_v84 main_v77 main_v85 (subf : (⟨S2048x8400x2, .f32⟩ : BufTy).Contents (Elt F) → (⟨S2048x8400x2, .f32⟩ : BufTy).Contents (Elt F) → (⟨S2048x8400x2, .f32⟩ : BufTy).Contents (Elt F)),
    nullary main_cst_4 (constant S_ .f32 0x00000000#32),
    TRef.unary (TRef.of (T := ⟨S_, .f32⟩) main_cst_4) (TRef.of (T := ⟨S_, .f32⟩) main_call1_v0) id,
    TRef.unary (TRef.of (T := ⟨S_, .f32⟩) main_call1_v0) (TRef.of (T := ⟨S2048x8400x2, .f32⟩) main_call1_v1) (broadcastInDim S2048x8400x2 ![] bcast_S_S2048x8400x2),
    TRef.binary (TRef.of (T := ⟨S2048x8400x2, .f32⟩) main_call1_v1) (TRef.of (T := ⟨S2048x8400x2, .f32⟩) main_v85) (TRef.of (T := ⟨S2048x8400x2, .f32⟩) main_v86) maximumf,
    unary main_v86 main_v87 ((extractStridedSlice S2048x8400x1 ![0, 0, 0] · slices_S2048x8400x2_S2048x8400x1_0_0_0) : (⟨S2048x8400x2, .f32⟩ : BufTy).Contents (Elt F) → (⟨S2048x8400x1, .f32⟩ : BufTy).Contents (Elt F)),
    reshape main_v87 main_v88 rfl shapeCasts_S2048x8400x1_S2048x8400,
    unary main_v86 main_v89 ((extractStridedSlice S2048x8400x1 ![0, 0, 1] · slices_S2048x8400x2_S2048x8400x1_0_0_1) : (⟨S2048x8400x2, .f32⟩ : BufTy).Contents (Elt F) → (⟨S2048x8400x1, .f32⟩ : BufTy).Contents (Elt F)),
    reshape main_v89 main_v90 rfl shapeCasts_S2048x8400x1_S2048x8400,
    binary main_v88 main_v90 main_v91 (mulf : (⟨S2048x8400, .f32⟩ : BufTy).Contents (Elt F) → (⟨S2048x8400, .f32⟩ : BufTy).Contents (Elt F) → (⟨S2048x8400, .f32⟩ : BufTy).Contents (Elt F)),
    nullary main_cst_5 (constant S_ .f32 0x358637BD#32),
    unary main_cst_5 main_v92 (broadcastInDim S2048x8400 ![] bcast_S_S2048x8400 : (⟨S_, .f32⟩ : BufTy).Contents (Elt F) → (⟨S2048x8400, .f32⟩ : BufTy).Contents (Elt F)),
    binary main_v91 main_v92 main_v93 (maximumf : (⟨S2048x8400, .f32⟩ : BufTy).Contents (Elt F) → (⟨S2048x8400, .f32⟩ : BufTy).Contents (Elt F) → (⟨S2048x8400, .f32⟩ : BufTy).Contents (Elt F)),
    binary main_v93 main_v69 main_v94 (subf : (⟨S2048x8400, .f32⟩ : BufTy).Contents (Elt F) → (⟨S2048x8400, .f32⟩ : BufTy).Contents (Elt F) → (⟨S2048x8400, .f32⟩ : BufTy).Contents (Elt F)),
    binary main_v94 main_v93 main_v95 (Host.divf : (⟨S2048x8400, .f32⟩ : BufTy).Contents (Elt F) → (⟨S2048x8400, .f32⟩ : BufTy).Contents (Elt F) → (⟨S2048x8400, .f32⟩ : BufTy).Contents (Elt F)),
    binary main_v70 main_v95 main_v96 (subf : (⟨S2048x8400, .f32⟩ : BufTy).Contents (Elt F) → (⟨S2048x8400, .f32⟩ : BufTy).Contents (Elt F) → (⟨S2048x8400, .f32⟩ : BufTy).Contents (Elt F)),
    unary main_arg0 main_v97 (broadcastInDim S16x128x1x4 ![0, 1, 3] bcast_S16x128x4_S16x128x1x4_0_1_3 : (⟨S16x128x4, .f32⟩ : BufTy).Contents (Elt F) → (⟨S16x128x1x4, .f32⟩ : BufTy).Contents (Elt F)),
    unary main_arg1 main_v98 (broadcastInDim S16x1x8400x4 ![0, 2, 3] bcast_S16x8400x4_S16x1x8400x4_0_2_3 : (⟨S16x8400x4, .f32⟩ : BufTy).Contents (Elt F) → (⟨S16x1x8400x4, .f32⟩ : BufTy).Contents (Elt F)),
    unary main_v97 main_v99 ((extractStridedSlice S16x128x1x2 ![0, 0, 0, 0] · slices_S16x128x1x4_S16x128x1x2_0_0_0_0) : (⟨S16x128x1x4, .f32⟩ : BufTy).Contents (Elt F) → (⟨S16x128x1x2, .f32⟩ : BufTy).Contents (Elt F)),
    unary main_v98 main_v100 ((extractStridedSlice S16x1x8400x2 ![0, 0, 0, 0] · slices_S16x1x8400x4_S16x1x8400x2_0_0_0_0) : (⟨S16x1x8400x4, .f32⟩ : BufTy).Contents (Elt F) → (⟨S16x1x8400x2, .f32⟩ : BufTy).Contents (Elt F)),
    unary main_v99 main_v101 (broadcastInDim S16x128x8400x2 ![0, 1, 2, 3] bcast_S16x128x1x2_S16x128x8400x2_0_1_2_3 : (⟨S16x128x1x2, .f32⟩ : BufTy).Contents (Elt F) → (⟨S16x128x8400x2, .f32⟩ : BufTy).Contents (Elt F)),
    unary main_v100 main_v102 (broadcastInDim S16x128x8400x2 ![0, 1, 2, 3] bcast_S16x1x8400x2_S16x128x8400x2_0_1_2_3 : (⟨S16x1x8400x2, .f32⟩ : BufTy).Contents (Elt F) → (⟨S16x128x8400x2, .f32⟩ : BufTy).Contents (Elt F)),
    binary main_v101 main_v102 main_v103 (maximumf : (⟨S16x128x8400x2, .f32⟩ : BufTy).Contents (Elt F) → (⟨S16x128x8400x2, .f32⟩ : BufTy).Contents (Elt F) → (⟨S16x128x8400x2, .f32⟩ : BufTy).Contents (Elt F)),
    unary main_v97 main_v104 ((extractStridedSlice S16x128x1x2 ![0, 0, 0, 2] · slices_S16x128x1x4_S16x128x1x2_0_0_0_2) : (⟨S16x128x1x4, .f32⟩ : BufTy).Contents (Elt F) → (⟨S16x128x1x2, .f32⟩ : BufTy).Contents (Elt F)),
    unary main_v98 main_v105 ((extractStridedSlice S16x1x8400x2 ![0, 0, 0, 2] · slices_S16x1x8400x4_S16x1x8400x2_0_0_0_2) : (⟨S16x1x8400x4, .f32⟩ : BufTy).Contents (Elt F) → (⟨S16x1x8400x2, .f32⟩ : BufTy).Contents (Elt F)),
    unary main_v104 main_v106 (broadcastInDim S16x128x8400x2 ![0, 1, 2, 3] bcast_S16x128x1x2_S16x128x8400x2_0_1_2_3 : (⟨S16x128x1x2, .f32⟩ : BufTy).Contents (Elt F) → (⟨S16x128x8400x2, .f32⟩ : BufTy).Contents (Elt F)),
    unary main_v105 main_v107 (broadcastInDim S16x128x8400x2 ![0, 1, 2, 3] bcast_S16x1x8400x2_S16x128x8400x2_0_1_2_3 : (⟨S16x1x8400x2, .f32⟩ : BufTy).Contents (Elt F) → (⟨S16x128x8400x2, .f32⟩ : BufTy).Contents (Elt F)),
    binary main_v106 main_v107 main_v108 (minimumf : (⟨S16x128x8400x2, .f32⟩ : BufTy).Contents (Elt F) → (⟨S16x128x8400x2, .f32⟩ : BufTy).Contents (Elt F) → (⟨S16x128x8400x2, .f32⟩ : BufTy).Contents (Elt F)),
    binary main_v108 main_v103 main_v109 (subf : (⟨S16x128x8400x2, .f32⟩ : BufTy).Contents (Elt F) → (⟨S16x128x8400x2, .f32⟩ : BufTy).Contents (Elt F) → (⟨S16x128x8400x2, .f32⟩ : BufTy).Contents (Elt F)),
    nullary main_cst_6 (constant S_ .f32 0x00000000#32),
    TRef.unary (TRef.of (T := ⟨S_, .f32⟩) main_cst_6) (TRef.of (T := ⟨S_, .f32⟩) main_call2_v0) id,
    TRef.unary (TRef.of (T := ⟨S_, .f32⟩) main_call2_v0) (TRef.of (T := ⟨S16x128x8400x2, .f32⟩) main_call2_v1) (broadcastInDim S16x128x8400x2 ![] bcast_S_S16x128x8400x2),
    TRef.binary (TRef.of (T := ⟨S16x128x8400x2, .f32⟩) main_call2_v1) (TRef.of (T := ⟨S16x128x8400x2, .f32⟩) main_v109) (TRef.of (T := ⟨S16x128x8400x2, .f32⟩) main_v110) maximumf,
    unary main_v110 main_v111 ((extractStridedSlice S16x128x8400x1 ![0, 0, 0, 0] · slices_S16x128x8400x2_S16x128x8400x1_0_0_0_0) : (⟨S16x128x8400x2, .f32⟩ : BufTy).Contents (Elt F) → (⟨S16x128x8400x1, .f32⟩ : BufTy).Contents (Elt F)) ]

set_option maxRecDepth 8192 in
set_option maxHeartbeats 4000000 in
theorem ops1_sub : (ops1 : List (HloOp τ sig (Elt F))).Forall fun op => op.bufs ⊆ tcRefs τ sig := by
  unfold ops1
  exact ⟨unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub .., binary_bufs_sub .., binary_bufs_sub .., nullary_bufs_sub .., unary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., nullary_bufs_sub .., unary_bufs_sub .., binary_bufs_sub .., binary_bufs_sub .., binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub ..⟩

set_option maxHeartbeats 4000000 in
/-- Operations 127 to 160 of @main (its window 2). -/
def ops2 : List (HloOp τ sig (Elt F)) :=
  [ reshape main_v111 main_v112 rfl shapeCasts_S16x128x8400x1_S16x128x8400,
    unary main_v110 main_v113 ((extractStridedSlice S16x128x8400x1 ![0, 0, 0, 1] · slices_S16x128x8400x2_S16x128x8400x1_0_0_0_1) : (⟨S16x128x8400x2, .f32⟩ : BufTy).Contents (Elt F) → (⟨S16x128x8400x1, .f32⟩ : BufTy).Contents (Elt F)),
    reshape main_v113 main_v114 rfl shapeCasts_S16x128x8400x1_S16x128x8400,
    binary main_v112 main_v114 main_v115 (mulf : (⟨S16x128x8400, .f32⟩ : BufTy).Contents (Elt F) → (⟨S16x128x8400, .f32⟩ : BufTy).Contents (Elt F) → (⟨S16x128x8400, .f32⟩ : BufTy).Contents (Elt F)),
    unary main_v97 main_v116 ((extractStridedSlice S16x128x1x1 ![0, 0, 0, 2] · slices_S16x128x1x4_S16x128x1x1_0_0_0_2) : (⟨S16x128x1x4, .f32⟩ : BufTy).Contents (Elt F) → (⟨S16x128x1x1, .f32⟩ : BufTy).Contents (Elt F)),
    reshape main_v116 main_v117 rfl shapeCasts_S16x128x1x1_S16x128x1,
    unary main_v97 main_v118 ((extractStridedSlice S16x128x1x1 ![0, 0, 0, 0] · slices_S16x128x1x4_S16x128x1x1_0_0_0_0) : (⟨S16x128x1x4, .f32⟩ : BufTy).Contents (Elt F) → (⟨S16x128x1x1, .f32⟩ : BufTy).Contents (Elt F)),
    reshape main_v118 main_v119 rfl shapeCasts_S16x128x1x1_S16x128x1,
    binary main_v117 main_v119 main_v120 (subf : (⟨S16x128x1, .f32⟩ : BufTy).Contents (Elt F) → (⟨S16x128x1, .f32⟩ : BufTy).Contents (Elt F) → (⟨S16x128x1, .f32⟩ : BufTy).Contents (Elt F)),
    unary main_v97 main_v121 ((extractStridedSlice S16x128x1x1 ![0, 0, 0, 3] · slices_S16x128x1x4_S16x128x1x1_0_0_0_3) : (⟨S16x128x1x4, .f32⟩ : BufTy).Contents (Elt F) → (⟨S16x128x1x1, .f32⟩ : BufTy).Contents (Elt F)),
    reshape main_v121 main_v122 rfl shapeCasts_S16x128x1x1_S16x128x1,
    unary main_v97 main_v123 ((extractStridedSlice S16x128x1x1 ![0, 0, 0, 1] · slices_S16x128x1x4_S16x128x1x1_0_0_0_1) : (⟨S16x128x1x4, .f32⟩ : BufTy).Contents (Elt F) → (⟨S16x128x1x1, .f32⟩ : BufTy).Contents (Elt F)),
    reshape main_v123 main_v124 rfl shapeCasts_S16x128x1x1_S16x128x1,
    binary main_v122 main_v124 main_v125 (subf : (⟨S16x128x1, .f32⟩ : BufTy).Contents (Elt F) → (⟨S16x128x1, .f32⟩ : BufTy).Contents (Elt F) → (⟨S16x128x1, .f32⟩ : BufTy).Contents (Elt F)),
    binary main_v120 main_v125 main_v126 (mulf : (⟨S16x128x1, .f32⟩ : BufTy).Contents (Elt F) → (⟨S16x128x1, .f32⟩ : BufTy).Contents (Elt F) → (⟨S16x128x1, .f32⟩ : BufTy).Contents (Elt F)),
    unary main_v98 main_v127 ((extractStridedSlice S16x1x8400x1 ![0, 0, 0, 2] · slices_S16x1x8400x4_S16x1x8400x1_0_0_0_2) : (⟨S16x1x8400x4, .f32⟩ : BufTy).Contents (Elt F) → (⟨S16x1x8400x1, .f32⟩ : BufTy).Contents (Elt F)),
    reshape main_v127 main_v128 rfl shapeCasts_S16x1x8400x1_S16x1x8400,
    unary main_v98 main_v129 ((extractStridedSlice S16x1x8400x1 ![0, 0, 0, 0] · slices_S16x1x8400x4_S16x1x8400x1_0_0_0_0) : (⟨S16x1x8400x4, .f32⟩ : BufTy).Contents (Elt F) → (⟨S16x1x8400x1, .f32⟩ : BufTy).Contents (Elt F)),
    reshape main_v129 main_v130 rfl shapeCasts_S16x1x8400x1_S16x1x8400,
    binary main_v128 main_v130 main_v131 (subf : (⟨S16x1x8400, .f32⟩ : BufTy).Contents (Elt F) → (⟨S16x1x8400, .f32⟩ : BufTy).Contents (Elt F) → (⟨S16x1x8400, .f32⟩ : BufTy).Contents (Elt F)),
    unary main_v98 main_v132 ((extractStridedSlice S16x1x8400x1 ![0, 0, 0, 3] · slices_S16x1x8400x4_S16x1x8400x1_0_0_0_3) : (⟨S16x1x8400x4, .f32⟩ : BufTy).Contents (Elt F) → (⟨S16x1x8400x1, .f32⟩ : BufTy).Contents (Elt F)),
    reshape main_v132 main_v133 rfl shapeCasts_S16x1x8400x1_S16x1x8400,
    unary main_v98 main_v134 ((extractStridedSlice S16x1x8400x1 ![0, 0, 0, 1] · slices_S16x1x8400x4_S16x1x8400x1_0_0_0_1) : (⟨S16x1x8400x4, .f32⟩ : BufTy).Contents (Elt F) → (⟨S16x1x8400x1, .f32⟩ : BufTy).Contents (Elt F)),
    reshape main_v134 main_v135 rfl shapeCasts_S16x1x8400x1_S16x1x8400,
    binary main_v133 main_v135 main_v136 (subf : (⟨S16x1x8400, .f32⟩ : BufTy).Contents (Elt F) → (⟨S16x1x8400, .f32⟩ : BufTy).Contents (Elt F) → (⟨S16x1x8400, .f32⟩ : BufTy).Contents (Elt F)),
    binary main_v131 main_v136 main_v137 (mulf : (⟨S16x1x8400, .f32⟩ : BufTy).Contents (Elt F) → (⟨S16x1x8400, .f32⟩ : BufTy).Contents (Elt F) → (⟨S16x1x8400, .f32⟩ : BufTy).Contents (Elt F)),
    unary main_v126 main_v138 (broadcastInDim S16x128x8400 ![0, 1, 2] bcast_S16x128x1_S16x128x8400_0_1_2 : (⟨S16x128x1, .f32⟩ : BufTy).Contents (Elt F) → (⟨S16x128x8400, .f32⟩ : BufTy).Contents (Elt F)),
    unary main_v137 main_v139 (broadcastInDim S16x128x8400 ![0, 1, 2] bcast_S16x1x8400_S16x128x8400_0_1_2 : (⟨S16x1x8400, .f32⟩ : BufTy).Contents (Elt F) → (⟨S16x128x8400, .f32⟩ : BufTy).Contents (Elt F)),
    binary main_v138 main_v139 main_v140 (addf : (⟨S16x128x8400, .f32⟩ : BufTy).Contents (Elt F) → (⟨S16x128x8400, .f32⟩ : BufTy).Contents (Elt F) → (⟨S16x128x8400, .f32⟩ : BufTy).Contents (Elt F)),
    binary main_v140 main_v115 main_v141 (subf : (⟨S16x128x8400, .f32⟩ : BufTy).Contents (Elt F) → (⟨S16x128x8400, .f32⟩ : BufTy).Contents (Elt F) → (⟨S16x128x8400, .f32⟩ : BufTy).Contents (Elt F)),
    nullary main_cst_7 (constant S_ .f32 0x3089705F#32),
    unary main_cst_7 main_v142 (broadcastInDim S16x128x8400 ![] bcast_S_S16x128x8400 : (⟨S_, .f32⟩ : BufTy).Contents (Elt F) → (⟨S16x128x8400, .f32⟩ : BufTy).Contents (Elt F)),
    binary main_v141 main_v142 main_v143 (addf : (⟨S16x128x8400, .f32⟩ : BufTy).Contents (Elt F) → (⟨S16x128x8400, .f32⟩ : BufTy).Contents (Elt F) → (⟨S16x128x8400, .f32⟩ : BufTy).Contents (Elt F)),
    binary main_v115 main_v143 main_v144 (Host.divf : (⟨S16x128x8400, .f32⟩ : BufTy).Contents (Elt F) → (⟨S16x128x8400, .f32⟩ : BufTy).Contents (Elt F) → (⟨S16x128x8400, .f32⟩ : BufTy).Contents (Elt F)) ]

set_option maxRecDepth 8192 in
set_option maxHeartbeats 4000000 in
theorem ops2_sub : (ops2 : List (HloOp τ sig (Elt F))).Forall fun op => op.bufs ⊆ tcRefs τ sig := by
  unfold ops2
  exact ⟨reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., unary_bufs_sub .., binary_bufs_sub .., binary_bufs_sub .., nullary_bufs_sub .., unary_bufs_sub .., binary_bufs_sub .., binary_bufs_sub ..⟩

end Cert.ReferenceIdeal.RefOps

end
-- ==== Proof.RefRunSeq.lean ====
/-
  The reference's @main as ONE straight line of host operations, and its run over that line. @main is printed as
  three windows run in order; each window is the line of its own operations (a call of the outlined clamp is the three
  operations of its body), so @main is the line of the three lists joined. A straight line of host operations that stay
  on the TensorCore's buffers and allocate nothing runs to the end from any memory, and leaves every buffer at the fold
  of the operations' results over the launch contents.
-/
import proofs.«106192_j66511863546259_1_alg».proof.Proof.RefOps
import Idealize.ShloMosaic.Lib.StableHlo.Run

noncomputable section

namespace Cert.ReferenceIdeal.RefRunSeq

open Cert.ReferenceIdeal Cert.ReferenceIdeal.Gen Idealize.ShloMosaic Idealize.ShloMosaic.TcCoe Idealize.SL.Sem Idealize.ShloMosaic.StableHlo
open Cert.ReferenceIdeal.RefOps

variable {F : FTy → Type} [FloatOps F]

/-! ## Each window is the line of its operations -/

set_option maxRecDepth 8192 in
set_option maxHeartbeats 4000000 in
theorem part0_eq (c : Dev nD) : main_part0 (F := F) c = seq ops0 := rfl

set_option maxRecDepth 8192 in
set_option maxHeartbeats 4000000 in
theorem part1_eq (c : Dev nD) : main_part1 (F := F) c = seq ops1 := rfl

set_option maxRecDepth 8192 in
set_option maxHeartbeats 4000000 in
theorem part2_eq (c : Dev nD) : main_part2 (F := F) c = seq ops2 := rfl

/-- @main is the line of the three windows' operations, in order. -/
theorem main_eq (c : Dev nD) : main (F := F) c = seq (ops0 ++ (ops1 ++ ops2)) := by
  rw [seq_append, seq_append, ← part0_eq c, ← part1_eq c, ← part2_eq c]
  rfl

/-! ## The side conditions of the run, window by window and joined -/

theorem scopedRefs_eq : (Finset.univ.filter fun b : Ref sig .tc => b.isScoped) = ∅ := by decide
theorem scopedSems_eq : (Finset.univ.filter fun sm : SemLoc sig => sm.isScoped .tc) = ∅ := by decide

/-- Every operation stays on the TensorCore's buffers. -/
theorem ops_sub : (ops0 ++ (ops1 ++ ops2) : List (HloOp τ sig (Elt F))).Forall fun op => op.bufs ⊆ tcRefs τ sig :=
  List.forall_iff_forall_mem.mpr fun op h => by
    rcases List.mem_append.mp h with h | h
    · exact List.forall_iff_forall_mem.mp ops0_sub op h
    · rcases List.mem_append.mp h with h | h
      · exact List.forall_iff_forall_mem.mp ops1_sub op h
      · exact List.forall_iff_forall_mem.mp ops2_sub op h

set_option maxRecDepth 8192 in
theorem ops0_fresh : (ops0 : List (HloOp τ sig (Elt F))).Forall fun op => op.fresh = ∅ := by
  unfold ops0; simp only [List.Forall]; repeat' constructor
set_option maxRecDepth 8192 in
theorem ops1_fresh : (ops1 : List (HloOp τ sig (Elt F))).Forall fun op => op.fresh = ∅ := by
  unfold ops1; simp only [List.Forall]; repeat' constructor
set_option maxRecDepth 8192 in
theorem ops2_fresh : (ops2 : List (HloOp τ sig (Elt F))).Forall fun op => op.fresh = ∅ := by
  unfold ops2; simp only [List.Forall]; repeat' constructor

/-- No operation allocates a buffer. -/
theorem ops_fresh : ∀ op ∈ (ops0 ++ (ops1 ++ ops2) : List (HloOp τ sig (Elt F))), op.fresh = ∅ := fun op h => by
  rcases List.mem_append.mp h with h | h
  · exact List.forall_iff_forall_mem.mp ops0_fresh op h
  · rcases List.mem_append.mp h with h | h
    · exact List.forall_iff_forall_mem.mp ops1_fresh op h
    · exact List.forall_iff_forall_mem.mp ops2_fresh op h

/-! ## The run -/

/-- From any memory with zero counters every weakly fair execution of @main terminates, nothing faulting, with every
    TensorCore buffer at the fold of the 160 operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = after (ops0 ++ (ops1 ++ ops2)) (launchContents m d) (Proc.devRef .tc b) :=
  run_seq scopedRefs_eq scopedSems_eq defs main (fun _ => ops0 ++ (ops1 ++ ops2)) main_eq (fun _ => ops_sub) m ρ
    (fun _ => ops_fresh)

end Cert.ReferenceIdeal.RefRunSeq

end
-- ==== Proof.RefRun.lean ====
/-
  The reference's run: every weakly fair execution of its @main terminates, nothing faulting, with each of the three
  results at its stage (the function of the arguments that the operations compose to, read operation by operation in
  Proof/RefRead.lean) and the arguments as launched. @main is 160 host operations in a straight line, printed as three
  windows; the run is stated over the three windows' lists joined, and each result is followed through the windows:
  what a window reads of an earlier one is named by its stage, so no window's term is ever opened twice.
-/
import proofs.«106192_j66511863546259_1_alg».proof.Proof.RefOps
import proofs.«106192_j66511863546259_1_alg».proof.Proof.RefRead
import proofs.«106192_j66511863546259_1_alg».proof.Proof.RefRunSeq
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RefOps Cert.ReferenceIdeal.ReadP Cert.ReferenceIdeal.RefRunSeq

variable {F : FTy → Type} [FloatOps F]

/-! ## Window 0 (operations 1 to 60), from any contents W: the first result, and the five values the later
    windows read of it, each at its stage of W's arguments; the arguments it leaves alone -/

set_option maxRecDepth 8192 in
set_option maxHeartbeats 4000000 in
theorem win0_v18 (W : Valuation τ sig (Elt F)) :
    after ops0 W (Proc.devRef .tc main_v18)
      = val_main_v18 (F := F) (W (Proc.devRef .tc main_arg0)) (W (Proc.devRef .tc main_arg2)) := by
  unfold ops0
  after_results_simp
  rfl

set_option maxRecDepth 8192 in
set_option maxHeartbeats 4000000 in
theorem win0_v55 (W : Valuation τ sig (Elt F)) :
    after ops0 W (Proc.devRef .tc main_v55)
      = val_main_v55 (F := F) (W (Proc.devRef .tc main_arg0)) (W (Proc.devRef .tc main_arg2)) := by
  unfold ops0
  after_results_simp
  rfl

set_option maxRecDepth 8192 in
set_option maxHeartbeats 4000000 in
theorem win0_cst_2 (W : Valuation τ sig (Elt F)) :
    after ops0 W (Proc.devRef .tc main_cst_2)
      = val_main_cst_2 (F := F) := by
  unfold ops0
  after_results_simp
  rfl

set_option maxRecDepth 8192 in
set_option maxHeartbeats 4000000 in
theorem win0_v29 (W : Valuation τ sig (Elt F)) :
    after ops0 W (Proc.devRef .tc main_v29)
      = val_main_v29 (F := F) (W (Proc.devRef .tc main_arg0)) := by
  unfold ops0
  after_results_simp
  rfl

set_option maxRecDepth 8192 in
set_option maxHeartbeats 4000000 in
theorem win0_v40 (W : Valuation τ sig (Elt F)) :
    after ops0 W (Proc.devRef .tc main_v40)
      = val_main_v40 (F := F) (W (Proc.devRef .tc main_arg2)) := by
  unfold ops0
  after_results_simp
  rfl

set_option maxRecDepth 8192 in
set_option maxHeartbeats 4000000 in
theorem win0_v0 (W : Valuation τ sig (Elt F)) :
    after ops0 W (Proc.devRef .tc main_v0)
      = val_main_v0 (F := F) (W (Proc.devRef .tc main_arg0)) := by
  unfold ops0
  after_results_simp
  rfl

set_option maxRecDepth 8192 in
set_option maxHeartbeats 4000000 in
/-- No operation of window 0 writes an argument. -/
theorem win0_keep_arg0 (W : Valuation τ sig (Elt F)) :
    after ops0 W (Proc.devRef .tc main_arg0) = W (Proc.devRef .tc main_arg0) := by
  unfold ops0
  after_results_simp

set_option maxRecDepth 8192 in
set_option maxHeartbeats 4000000 in
theorem win0_keep_arg1 (W : Valuation τ sig (Elt F)) :
    after ops0 W (Proc.devRef .tc main_arg1) = W (Proc.devRef .tc main_arg1) := by
  unfold ops0
  after_results_simp

set_option maxRecDepth 8192 in
set_option maxHeartbeats 4000000 in
theorem win0_keep_arg2 (W : Valuation τ sig (Elt F)) :
    after ops0 W (Proc.devRef .tc main_arg2) = W (Proc.devRef .tc main_arg2) := by
  unfold ops0
  after_results_simp

/-! ## Window 1 (operations 61 to 126), from contents W that hold, at the buffers it reads of window 0 and at
    the arguments, the stages named in the hypotheses: the third result, and the four values window 2 reads -/

set_option maxRecDepth 8192 in
set_option maxHeartbeats 4000000 in
theorem win1_v96 (W : Valuation τ sig (Elt F)) (x0 : (⟨S16x128x4, .f32⟩ : BufTy).Contents (Elt F)) (x2 : (⟨S8400x4, .f32⟩ : BufTy).Contents (Elt F))
    (h55 : W (Proc.devRef .tc main_v55) = val_main_v55 (F := F) x0 x2)
    (hc2 : W (Proc.devRef .tc main_cst_2) = val_main_cst_2 (F := F))
    (h29 : W (Proc.devRef .tc main_v29) = val_main_v29 (F := F) x0)
    (h40 : W (Proc.devRef .tc main_v40) = val_main_v40 (F := F) x2)
    (h0 : W (Proc.devRef .tc main_v0) = val_main_v0 (F := F) x0)
    (ha2 : W (Proc.devRef .tc main_arg2) = x2) :
    after ops1 W (Proc.devRef .tc main_v96) = val_main_v96 (F := F) x0 x2 := by
  unfold ops1
  after_results_simp
  rw [h55, hc2, h29, h40, h0, ha2]
  rfl

set_option maxRecDepth 8192 in
set_option maxHeartbeats 4000000 in
theorem win1_v110 (W : Valuation τ sig (Elt F)) (x0 : (⟨S16x128x4, .f32⟩ : BufTy).Contents (Elt F)) (x1 : (⟨S16x8400x4, .f32⟩ : BufTy).Contents (Elt F))
    (ha0 : W (Proc.devRef .tc main_arg0) = x0) (ha1 : W (Proc.devRef .tc main_arg1) = x1) :
    after ops1 W (Proc.devRef .tc main_v110) = val_main_v110 (F := F) x0 x1 := by
  unfold ops1
  after_results_simp
  rw [ha0, ha1]
  rfl

set_option maxRecDepth 8192 in
set_option maxHeartbeats 4000000 in
theorem win1_v111 (W : Valuation τ sig (Elt F)) (x0 : (⟨S16x128x4, .f32⟩ : BufTy).Contents (Elt F)) (x1 : (⟨S16x8400x4, .f32⟩ : BufTy).Contents (Elt F))
    (ha0 : W (Proc.devRef .tc main_arg0) = x0) (ha1 : W (Proc.devRef .tc main_arg1) = x1) :
    after ops1 W (Proc.devRef .tc main_v111) = val_main_v111 (F := F) x0 x1 := by
  unfold ops1
  after_results_simp
  rw [ha0, ha1]
  rfl

set_option maxRecDepth 8192 in
set_option maxHeartbeats 4000000 in
theorem win1_v97 (W : Valuation τ sig (Elt F)) (x0 : (⟨S16x128x4, .f32⟩ : BufTy).Contents (Elt F))
    (ha0 : W (Proc.devRef .tc main_arg0) = x0) :
    after ops1 W (Proc.devRef .tc main_v97) = val_main_v97 (F := F) x0 := by
  unfold ops1
  after_results_simp
  rw [ha0]
  rfl

set_option maxRecDepth 8192 in
set_option maxHeartbeats 4000000 in
theorem win1_v98 (W : Valuation τ sig (Elt F)) (x1 : (⟨S16x8400x4, .f32⟩ : BufTy).Contents (Elt F))
    (ha1 : W (Proc.devRef .tc main_arg1) = x1) :
    after ops1 W (Proc.devRef .tc main_v98) = val_main_v98 (F := F) x1 := by
  unfold ops1
  after_results_simp
  rw [ha1]
  rfl

set_option maxRecDepth 8192 in
set_option maxHeartbeats 4000000 in
/-- No operation of window 1 writes the first result or an argument. -/
theorem win1_keep_v18 (W : Valuation τ sig (Elt F)) :
    after ops1 W (Proc.devRef .tc main_v18) = W (Proc.devRef .tc main_v18) := by
  unfold ops1
  after_results_simp

set_option maxRecDepth 8192 in
set_option maxHeartbeats 4000000 in
theorem win1_keep_arg0 (W : Valuation τ sig (Elt F)) :
    after ops1 W (Proc.devRef .tc main_arg0) = W (Proc.devRef .tc main_arg0) := by
  unfold ops1
  after_results_simp

set_option maxRecDepth 8192 in
set_option maxHeartbeats 4000000 in
theorem win1_keep_arg1 (W : Valuation τ sig (Elt F)) :
    after ops1 W (Proc.devRef .tc main_arg1) = W (Proc.devRef .tc main_arg1) := by
  unfold ops1
  after_results_simp

set_option maxRecDepth 8192 in
set_option maxHeartbeats 4000000 in
theorem win1_keep_arg2 (W : Valuation τ sig (Elt F)) :
    after ops1 W (Proc.devRef .tc main_arg2) = W (Proc.devRef .tc main_arg2) := by
  unfold ops1
  after_results_simp

/-! ## Window 2 (operations 127 to 160), from contents W that hold the four stages it reads of window 1: the
    second result -/

set_option maxRecDepth 8192 in
set_option maxHeartbeats 4000000 in
theorem win2_v144 (W : Valuation τ sig (Elt F)) (x0 : (⟨S16x128x4, .f32⟩ : BufTy).Contents (Elt F)) (x1 : (⟨S16x8400x4, .f32⟩ : BufTy).Contents (Elt F))
    (h111 : W (Proc.devRef .tc main_v111) = val_main_v111 (F := F) x0 x1)
    (h110 : W (Proc.devRef .tc main_v110) = val_main_v110 (F := F) x0 x1)
    (h97 : W (Proc.devRef .tc main_v97) = val_main_v97 (F := F) x0)
    (h98 : W (Proc.devRef .tc main_v98) = val_main_v98 (F := F) x1) :
    after ops2 W (Proc.devRef .tc main_v144) = val_main_v144 (F := F) x0 x1 := by
  unfold ops2
  after_results_simp
  rw [h111, h110, h97, h98]
  rfl

set_option maxRecDepth 8192 in
set_option maxHeartbeats 4000000 in
/-- No operation of window 2 writes the first or the third result, or an argument. -/
theorem win2_keep_v18 (W : Valuation τ sig (Elt F)) :
    after ops2 W (Proc.devRef .tc main_v18) = W (Proc.devRef .tc main_v18) := by
  unfold ops2
  after_results_simp

set_option maxRecDepth 8192 in
set_option maxHeartbeats 4000000 in
theorem win2_keep_v96 (W : Valuation τ sig (Elt F)) :
    after ops2 W (Proc.devRef .tc main_v96) = W (Proc.devRef .tc main_v96) := by
  unfold ops2
  after_results_simp

set_option maxRecDepth 8192 in
set_option maxHeartbeats 4000000 in
theorem win2_keep_arg0 (W : Valuation τ sig (Elt F)) :
    after ops2 W (Proc.devRef .tc main_arg0) = W (Proc.devRef .tc main_arg0) := by
  unfold ops2
  after_results_simp

set_option maxRecDepth 8192 in
set_option maxHeartbeats 4000000 in
theorem win2_keep_arg1 (W : Valuation τ sig (Elt F)) :
    after ops2 W (Proc.devRef .tc main_arg1) = W (Proc.devRef .tc main_arg1) := by
  unfold ops2
  after_results_simp

set_option maxRecDepth 8192 in
set_option maxHeartbeats 4000000 in
theorem win2_keep_arg2 (W : Valuation τ sig (Elt F)) :
    after ops2 W (Proc.devRef .tc main_arg2) = W (Proc.devRef .tc main_arg2) := by
  unfold ops2
  after_results_simp

/-! ## The three windows in a row -/

/-- From any contents V the 160 operations leave the three results at their stages of V's arguments, and the
    arguments as V has them: each result is followed from the window that writes it through the windows
    after it, which do not; what a window reads of an earlier one is that window's value at its stage. -/
theorem after_all (V : Valuation τ sig (Elt F)) :
    after (ops0 ++ (ops1 ++ ops2)) V (Proc.devRef .tc main_v18) = val_main_v18 (F := F) (V (Proc.devRef .tc main_arg0)) (V (Proc.devRef .tc main_arg2))
    ∧ after (ops0 ++ (ops1 ++ ops2)) V (Proc.devRef .tc main_v144) = val_main_v144 (F := F) (V (Proc.devRef .tc main_arg0)) (V (Proc.devRef .tc main_arg1))
    ∧ after (ops0 ++ (ops1 ++ ops2)) V (Proc.devRef .tc main_v96) = val_main_v96 (F := F) (V (Proc.devRef .tc main_arg0)) (V (Proc.devRef .tc main_arg2))
    ∧ after (ops0 ++ (ops1 ++ ops2)) V (Proc.devRef .tc main_arg0) = V (Proc.devRef .tc main_arg0)
    ∧ after (ops0 ++ (ops1 ++ ops2)) V (Proc.devRef .tc main_arg1) = V (Proc.devRef .tc main_arg1)
    ∧ after (ops0 ++ (ops1 ++ ops2)) V (Proc.devRef .tc main_arg2) = V (Proc.devRef .tc main_arg2) := by
  rw [after_append, after_append]
  have a0 : after ops1 (after ops0 V) (Proc.devRef .tc main_arg0) = V (Proc.devRef .tc main_arg0) :=
    (win1_keep_arg0 (after ops0 V)).trans (win0_keep_arg0 V)
  have a1 : after ops1 (after ops0 V) (Proc.devRef .tc main_arg1) = V (Proc.devRef .tc main_arg1) :=
    (win1_keep_arg1 (after ops0 V)).trans (win0_keep_arg1 V)
  have a2 : after ops1 (after ops0 V) (Proc.devRef .tc main_arg2) = V (Proc.devRef .tc main_arg2) :=
    (win1_keep_arg2 (after ops0 V)).trans (win0_keep_arg2 V)
  refine ⟨?_, ?_, ?_, ?_, ?_, ?_⟩
  · exact ((win2_keep_v18 (after ops1 (after ops0 V))).trans (win1_keep_v18 (after ops0 V))).trans (win0_v18 V)
  · exact win2_v144 (after ops1 (after ops0 V)) (V (Proc.devRef .tc main_arg0)) (V (Proc.devRef .tc main_arg1))
      (win1_v111 (after ops0 V) (V (Proc.devRef .tc main_arg0)) (V (Proc.devRef .tc main_arg1)) (win0_keep_arg0 V) (win0_keep_arg1 V))
      (win1_v110 (after ops0 V) (V (Proc.devRef .tc main_arg0)) (V (Proc.devRef .tc main_arg1)) (win0_keep_arg0 V) (win0_keep_arg1 V))
      (win1_v97 (after ops0 V) (V (Proc.devRef .tc main_arg0)) (win0_keep_arg0 V))
      (win1_v98 (after ops0 V) (V (Proc.devRef .tc main_arg1)) (win0_keep_arg1 V))
  · exact (win2_keep_v96 (after ops1 (after ops0 V))).trans
      (win1_v96 (after ops0 V) (V (Proc.devRef .tc main_arg0)) (V (Proc.devRef .tc main_arg2)) (win0_v55 V) (win0_cst_2 V) (win0_v29 V) (win0_v40 V) (win0_v0 V)
        (win0_keep_arg2 V))
  · exact (win2_keep_arg0 (after ops1 (after ops0 V))).trans a0
  · exact (win2_keep_arg1 (after ops1 (after ops0 V))).trans a1
  · exact (win2_keep_arg2 (after ops1 (after ops0 V))).trans a2

/-! ## The run -/

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = val_main_v18 (F := F) (m ((c.tc : Thread nD τ).loc main_arg0)) (m ((c.tc : Thread nD τ).loc main_arg2))
      ∧ r.2.mem ((c.tc : Thread nD τ).loc main_v144) = val_main_v144 (F := F) (m ((c.tc : Thread nD τ).loc main_arg0)) (m ((c.tc : Thread nD τ).loc main_arg1))
      ∧ r.2.mem ((c.tc : Thread nD τ).loc main_v96) = val_main_v96 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  exact (θ_run defs _ _).mono (fun r h c =>
      have A := after_all (F := F) (launchContents m c)
      ⟨(h c main_v18).trans A.1, (h c main_v144).trans A.2.1, (h c main_v96).trans A.2.2.1,
        (h c main_arg0).trans A.2.2.2.1, (h c main_arg1).trans A.2.2.2.2.1, (h c main_arg2).trans A.2.2.2.2.2⟩)
    (run_after m ρ)

end Cert.ReferenceIdeal.RefRun

end
-- ==== Proof.RefDist.lean ====
/-
  The reference's result `distArr`, read one operation at a time at the ideal instance.
-/
import proofs.«106192_j66511863546259_1_alg».proof.Proof.RefRead
import proofs.«106192_j66511863546259_1_alg».proof.Proof.BoxSpec
import Idealize.ShloMosaic.Lib.ValueIdx

set_option maxRecDepth 16384

noncomputable section

namespace Cert.ReferenceIdeal.RefValue

open Idealize.ShloMosaic Idealize.ShloMosaic.TcCoe Idealize.ShloMosaic.ValueIdx
open Cert.ReferenceIdeal Cert.ReferenceIdeal.ReadP

/-! ## The ground-truth boxes: the flattened array, its two column pairs, the centres -/

/-- Row r, column c of the flattened ground-truth array is coordinate c of box r % 128 of image r / 128:
    the flat position r * 4 + c splits as ((r / 128) * 128 + r % 128) * 4 + c. -/
private theorem dist_flat (x0 : S16x128x4.Idx → EReal) (r : Fin 2048) (c : Fin 4) :
    val_main_v0 (F := Ideal) x0 (ix2 r c) = Cert.BoxSpec.gtRow x0 r c := by
  rw [val_main_v0_apply]
  unfold Cert.BoxSpec.gtRow
  refine congrArg x0 (funext fun a => Fin.ext ?_)
  have hr := r.isLt
  have hc := c.isLt
  match a with
  | ⟨0, _⟩ => show (r.val * 4 + c.val) / 512 = r.val / 128; omega
  | ⟨1, _⟩ => show (r.val * 4 + c.val) / 4 % 128 = r.val % 128; omega
  | ⟨2, _⟩ => show (r.val * 4 + c.val) % 4 = c.val; omega

/-- The first column pair (x1, y1) of row r. -/
private theorem dist_gt_lo (x0 : S16x128x4.Idx → EReal) (r : Fin 2048) (k : Fin 2) :
    val_main_v1 (F := Ideal) x0 (ix2 r k)
      = Cert.BoxSpec.gtRow x0 r ⟨k.val, by have := k.isLt; omega⟩ := by
  rw [val_main_v1_apply]
  have e : idx_main_v1 (ix2 r k) = ix2 r (⟨k.val, by have := k.isLt; omega⟩ : Fin 4) :=
    funext fun a => by match a with | ⟨0, _⟩ => rfl | ⟨1, _⟩ => rfl
  rw [e, dist_flat]

/-- The second column pair (x2, y2) of row r. -/
private theorem dist_gt_hi (x0 : S16x128x4.Idx → EReal) (r : Fin 2048) (k : Fin 2) :
    val_main_v2 (F := Ideal) x0 (ix2 r k)
      = Cert.BoxSpec.gtRow x0 r ⟨2 + k.val, by have := k.isLt; omega⟩ := by
  rw [val_main_v2_apply]
  have e : idx_main_v2 (ix2 r k) = ix2 r (⟨2 + k.val, by have := k.isLt; omega⟩ : Fin 4) :=
    funext fun a => by match a with | ⟨0, _⟩ => rfl | ⟨1, _⟩ => rfl
  rw [e, dist_flat]

/-- Coordinate k of the centre of ground-truth row r: the corner sum halved (the quotient by 2 is the product
    with 1/2). -/
private theorem dist_gt_centre (x0 : S16x128x4.Idx → EReal) (r : Fin 2048) (k : Fin 2) :
    val_main_v5 (F := Ideal) x0 (ix2 r k)
      = (Cert.BoxSpec.gtRow x0 r ⟨k.val, by have := k.isLt; omega⟩
          + Cert.BoxSpec.gtRow x0 r ⟨2 + k.val, by have := k.isLt; omega⟩)
        * Ideal.ofBits .f32 0x3F000000#32 := by
  rw [val_main_v5_apply, val_main_v3_apply, val_main_v4_apply, val_main_cst_apply, dist_gt_lo, dist_gt_hi]
  simp only [Ideal.hostDivf_def, Ideal.addf_def, Ideal.ofBits_def]
  exact Cert.BoxSpec.div_two _

/-! ## The anchors: the two column pairs, the centres -/

private theorem dist_an_lo (x2 : S8400x4.Idx → EReal) (q : Fin 8400) (k : Fin 2) :
    val_main_v6 (F := Ideal) x2 (ix2 q k) = x2 (ix2 q (⟨k.val, by have := k.isLt; omega⟩ : Fin 4)) := by
  rw [val_main_v6_apply]
  exact congrArg x2 (funext fun a => by match a with | ⟨0, _⟩ => rfl | ⟨1, _⟩ => rfl)

private theorem dist_an_hi (x2 : S8400x4.Idx → EReal) (q : Fin 8400) (k : Fin 2) :
    val_main_v7 (F := Ideal) x2 (ix2 q k) = x2 (ix2 q (⟨2 + k.val, by have := k.isLt; omega⟩ : Fin 4)) := by
  rw [val_main_v7_apply]
  exact congrArg x2 (funext fun a => by match a with | ⟨0, _⟩ => rfl | ⟨1, _⟩ => rfl)

/-- Coordinate k of the centre of anchor q. -/
private theorem dist_an_centre (x2 : S8400x4.Idx → EReal) (q : Fin 8400) (k : Fin 2) :
    val_main_v10 (F := Ideal) x2 (ix2 q k)
      = (x2 (ix2 q (⟨k.val, by have := k.isLt; omega⟩ : Fin 4))
          + x2 (ix2 q (⟨2 + k.val, by have := k.isLt; omega⟩ : Fin 4)))
        * Ideal.ofBits .f32 0x3F000000#32 := by
  rw [val_main_v10_apply, val_main_v8_apply, val_main_v9_apply, val_main_cst_0_apply, dist_an_lo, dist_an_hi]
  simp only [Ideal.hostDivf_def, Ideal.addf_def, Ideal.ofBits_def]
  exact Cert.BoxSpec.div_two _

/-! ## The two centres side by side, and the squared difference of one coordinate -/

/-- The ground-truth centres repeated along the anchors' axis. -/
private theorem dist_gt_bc (x0 : S16x128x4.Idx → EReal) (r : Fin 2048) (q : Fin 8400) (k : Fin 2) :
    val_main_v13 (F := Ideal) x0 (ix3 r q k) = val_main_v5 (F := Ideal) x0 (ix2 r k) := by
  rw [val_main_v13_apply, val_main_v11_apply]
  exact congrArg (val_main_v5 (F := Ideal) x0)
    (funext fun a => by match a with | ⟨0, _⟩ => rfl | ⟨1, _⟩ => rfl)

/-- The anchor centres repeated along the rows' axis. -/
private theorem dist_an_bc (x2 : S8400x4.Idx → EReal) (r : Fin 2048) (q : Fin 8400) (k : Fin 2) :
    val_main_v14 (F := Ideal) x2 (ix3 r q k) = val_main_v10 (F := Ideal) x2 (ix2 q k) := by
  rw [val_main_v14_apply, val_main_v12_apply]
  exact congrArg (val_main_v10 (F := Ideal) x2)
    (funext fun a => by match a with | ⟨0, _⟩ => rfl | ⟨1, _⟩ => rfl)

/-- Term k of the sum over the last axis is read at the coordinates (r, q, k). -/
private theorem dist_sum_idx (r : Fin 2048) (q : Fin 8400) (k : Fin 2) :
    idx_main_v17 (ix2 r q) k = ix3 r q k :=
  funext fun a => by match a with | ⟨0, _⟩ => rfl | ⟨1, _⟩ => rfl | ⟨2, _⟩ => rfl

/-- The squared difference of the two centres' coordinate k. -/
private theorem dist_sq (x0 : S16x128x4.Idx → EReal) (x2 : S8400x4.Idx → EReal)
    (r : Fin 2048) (q : Fin 8400) (k : Fin 2) :
    val_main_v16 (F := Ideal) x0 x2 (idx_main_v17 (ix2 r q) k)
      = (val_main_v5 (F := Ideal) x0 (ix2 r k) - val_main_v10 (F := Ideal) x2 (ix2 q k))
        * (val_main_v5 (F := Ideal) x0 (ix2 r k) - val_main_v10 (F := Ideal) x2 (ix2 q k)) := by
  rw [dist_sum_idx, val_main_v16_apply, val_main_v15_apply, dist_gt_bc, dist_an_bc]
  simp only [Ideal.mulf_def, Ideal.subf_def]

/-! ## The result -/

theorem dist_eq (x0 : S16x128x4.Idx → EReal) (x2 : S8400x4.Idx → EReal) :
    val_main_v18 (F := Ideal) x0 x2 = Cert.BoxSpec.distArr x0 x2 := by
  refine Cert.BoxSpec.ext2 _ _ fun r q => ?_
  rw [val_main_v18_apply, val_main_v17_apply, val_main_cst_1_apply, Fin.sum_univ_two,
    dist_sq, dist_sq, dist_gt_centre, dist_gt_centre, dist_an_centre, dist_an_centre]
  simp only [Ideal.hostUnary_sqrt_def, Ideal.ofBits_def]
  rw [Cert.BoxSpec.zero_add_pair]
  rfl

end Cert.ReferenceIdeal.RefValue

end
-- ==== Proof.RefGiou.lean ====
/-
  The reference's result `giouArr`, read one operation at a time at the ideal instance.
-/
import proofs.«106192_j66511863546259_1_alg».proof.Proof.RefRead
import proofs.«106192_j66511863546259_1_alg».proof.Proof.BoxSpec
import Idealize.ShloMosaic.Lib.ValueIdx

set_option maxRecDepth 16384

noncomputable section

namespace Cert.ReferenceIdeal.RefValue

open Idealize.ShloMosaic Idealize.ShloMosaic.TcCoe Idealize.ShloMosaic.ValueIdx
open Cert.ReferenceIdeal Cert.ReferenceIdeal.ReadP

/-! ## The leaves: a row of the flattened ground-truth boxes, and the columns of the two arguments -/

/-- Element (r, k) of the ground-truth boxes flattened to 2048 rows is coordinate k of box r % 128 of image
    r / 128. -/
private theorem gt_leaf (x0 : S16x128x4.Idx → EReal) (r : Fin 2048) (k : Fin 4) :
    val_main_v0 (F := Ideal) x0 (ix2 r k) = Cert.BoxSpec.gtRow x0 r k := by
  have hr := r.isLt
  have hk := k.isLt
  rw [val_main_v0_apply]
  unfold Cert.BoxSpec.gtRow
  refine congrArg x0 (funext fun a => Fin.ext ?_)
  match a with
  | ⟨0, _⟩ => show (r.val * 4 + k.val) / 512 = r.val / 128; omega
  | ⟨1, _⟩ => show (r.val * 4 + k.val) / 4 % 128 = r.val % 128; omega
  | ⟨2, _⟩ => show (r.val * 4 + k.val) % 4 = k.val; omega

/-! ### The four columns of the ground-truth rows as vectors of length 2048 -/

private theorem gcol2 (x0 : S16x128x4.Idx → EReal) (r : Fin 2048) :
    val_main_v20 (F := Ideal) x0 (ix1 r) = Cert.BoxSpec.gtRow x0 r 2 := by
  have h : idx_main_v19 (idx_main_v20 (ix1 r)) = ix2 r (2 : Fin 4) :=
    funext fun a => Fin.ext (by
      match a with
      | ⟨0, _⟩ => show r.val / 1 = r.val; omega
      | ⟨1, _⟩ => rfl)
  rw [val_main_v20_apply, val_main_v19_apply, h, gt_leaf]

private theorem gcol0 (x0 : S16x128x4.Idx → EReal) (r : Fin 2048) :
    val_main_v22 (F := Ideal) x0 (ix1 r) = Cert.BoxSpec.gtRow x0 r 0 := by
  have h : idx_main_v21 (idx_main_v22 (ix1 r)) = ix2 r (0 : Fin 4) :=
    funext fun a => Fin.ext (by
      match a with
      | ⟨0, _⟩ => show r.val / 1 = r.val; omega
      | ⟨1, _⟩ => rfl)
  rw [val_main_v22_apply, val_main_v21_apply, h, gt_leaf]

private theorem gcol3 (x0 : S16x128x4.Idx → EReal) (r : Fin 2048) :
    val_main_v25 (F := Ideal) x0 (ix1 r) = Cert.BoxSpec.gtRow x0 r 3 := by
  have h : idx_main_v24 (idx_main_v25 (ix1 r)) = ix2 r (3 : Fin 4) :=
    funext fun a => Fin.ext (by
      match a with
      | ⟨0, _⟩ => show r.val / 1 = r.val; omega
      | ⟨1, _⟩ => rfl)
  rw [val_main_v25_apply, val_main_v24_apply, h, gt_leaf]

private theorem gcol1 (x0 : S16x128x4.Idx → EReal) (r : Fin 2048) :
    val_main_v27 (F := Ideal) x0 (ix1 r) = Cert.BoxSpec.gtRow x0 r 1 := by
  have h : idx_main_v26 (idx_main_v27 (ix1 r)) = ix2 r (1 : Fin 4) :=
    funext fun a => Fin.ext (by
      match a with
      | ⟨0, _⟩ => show r.val / 1 = r.val; omega
      | ⟨1, _⟩ => rfl)
  rw [val_main_v27_apply, val_main_v26_apply, h, gt_leaf]

/-! ### The four columns of the anchors as vectors of length 8400 -/

private theorem acol2 (x2 : S8400x4.Idx → EReal) (q : Fin 8400) :
    val_main_v31 (F := Ideal) x2 (ix1 q) = x2 (ix2 q (2 : Fin 4)) := by
  have h : idx_main_v30 (idx_main_v31 (ix1 q)) = ix2 q (2 : Fin 4) :=
    funext fun a => Fin.ext (by
      match a with
      | ⟨0, _⟩ => show q.val / 1 = q.val; omega
      | ⟨1, _⟩ => rfl)
  rw [val_main_v31_apply, val_main_v30_apply, h]

private theorem acol0 (x2 : S8400x4.Idx → EReal) (q : Fin 8400) :
    val_main_v33 (F := Ideal) x2 (ix1 q) = x2 (ix2 q (0 : Fin 4)) := by
  have h : idx_main_v32 (idx_main_v33 (ix1 q)) = ix2 q (0 : Fin 4) :=
    funext fun a => Fin.ext (by
      match a with
      | ⟨0, _⟩ => show q.val / 1 = q.val; omega
      | ⟨1, _⟩ => rfl)
  rw [val_main_v33_apply, val_main_v32_apply, h]

private theorem acol3 (x2 : S8400x4.Idx → EReal) (q : Fin 8400) :
    val_main_v36 (F := Ideal) x2 (ix1 q) = x2 (ix2 q (3 : Fin 4)) := by
  have h : idx_main_v35 (idx_main_v36 (ix1 q)) = ix2 q (3 : Fin 4) :=
    funext fun a => Fin.ext (by
      match a with
      | ⟨0, _⟩ => show q.val / 1 = q.val; omega
      | ⟨1, _⟩ => rfl)
  rw [val_main_v36_apply, val_main_v35_apply, h]

private theorem acol1 (x2 : S8400x4.Idx → EReal) (q : Fin 8400) :
    val_main_v38 (F := Ideal) x2 (ix1 q) = x2 (ix2 q (1 : Fin 4)) := by
  have h : idx_main_v37 (idx_main_v38 (ix1 q)) = ix2 q (1 : Fin 4) :=
    funext fun a => Fin.ext (by
      match a with
      | ⟨0, _⟩ => show q.val / 1 = q.val; omega
      | ⟨1, _⟩ => rfl)
  rw [val_main_v38_apply, val_main_v37_apply, h]

/-! ### The two areas -/

/-- The area of ground-truth box r. -/
private theorem garea (x0 : S16x128x4.Idx → EReal) (r : Fin 2048) :
    val_main_v29 (F := Ideal) x0 (ix1 r)
      = Cert.BoxSpec.area (Cert.BoxSpec.gtRow x0 r 0) (Cert.BoxSpec.gtRow x0 r 1) (Cert.BoxSpec.gtRow x0 r 2)
          (Cert.BoxSpec.gtRow x0 r 3) := by
  rw [val_main_v29_apply, val_main_v23_apply, val_main_v28_apply, gcol2, gcol0, gcol3, gcol1]
  rfl

/-- The area of anchor q. -/
private theorem aarea (x2 : S8400x4.Idx → EReal) (q : Fin 8400) :
    val_main_v40 (F := Ideal) x2 (ix1 q)
      = Cert.BoxSpec.area (x2 (ix2 q (0 : Fin 4))) (x2 (ix2 q (1 : Fin 4))) (x2 (ix2 q (2 : Fin 4)))
          (x2 (ix2 q (3 : Fin 4))) := by
  rw [val_main_v40_apply, val_main_v34_apply, val_main_v39_apply, acol2, acol0, acol3, acol1]
  rfl

/-- The ground-truth area spread along the anchors. -/
private theorem garea2 (x0 : S16x128x4.Idx → EReal) (r : Fin 2048) (q : Fin 8400) :
    val_main_v64 (F := Ideal) x0 (ix2 r q)
      = Cert.BoxSpec.area (Cert.BoxSpec.gtRow x0 r 0) (Cert.BoxSpec.gtRow x0 r 1) (Cert.BoxSpec.gtRow x0 r 2)
          (Cert.BoxSpec.gtRow x0 r 3) := by
  have h : idx_main_v62 (idx_main_v64 (ix2 r q)) = ix1 r :=
    funext fun a => Fin.ext (by
      match a with
      | ⟨0, _⟩ => rfl)
  rw [val_main_v64_apply, val_main_v62_apply, h, garea]

/-- The anchor area spread along the ground-truth rows. -/
private theorem aarea2 (x2 : S8400x4.Idx → EReal) (r : Fin 2048) (q : Fin 8400) :
    val_main_v65 (F := Ideal) x2 (ix2 r q)
      = Cert.BoxSpec.area (x2 (ix2 q (0 : Fin 4))) (x2 (ix2 q (1 : Fin 4))) (x2 (ix2 q (2 : Fin 4)))
          (x2 (ix2 q (3 : Fin 4))) := by
  have h : idx_main_v63 (idx_main_v65 (ix2 r q)) = ix1 q :=
    funext fun a => Fin.ext (by
      match a with
      | ⟨0, _⟩ => rfl)
  rw [val_main_v65_apply, val_main_v63_apply, h, aarea]

/-! ### The corner pairs spread over all (row, anchor) pairs: last coordinate 0 is x, 1 is y -/

private theorem glo_x (x0 : S16x128x4.Idx → EReal) (r : Fin 2048) (q : Fin 8400) :
    val_main_v45 (F := Ideal) x0 (ix3 r q (0 : Fin 2)) = Cert.BoxSpec.gtRow x0 r 0 := by
  have h : idx_main_v41 (idx_main_v42 (idx_main_v45 (ix3 r q (0 : Fin 2)))) = ix2 r (0 : Fin 4) :=
    funext fun a => Fin.ext (by
      match a with
      | ⟨0, _⟩ => rfl
      | ⟨1, _⟩ => rfl)
  rw [val_main_v45_apply, val_main_v42_apply, val_main_v41_apply, h, gt_leaf]

private theorem glo_y (x0 : S16x128x4.Idx → EReal) (r : Fin 2048) (q : Fin 8400) :
    val_main_v45 (F := Ideal) x0 (ix3 r q (1 : Fin 2)) = Cert.BoxSpec.gtRow x0 r 1 := by
  have h : idx_main_v41 (idx_main_v42 (idx_main_v45 (ix3 r q (1 : Fin 2)))) = ix2 r (1 : Fin 4) :=
    funext fun a => Fin.ext (by
      match a with
      | ⟨0, _⟩ => rfl
      | ⟨1, _⟩ => rfl)
  rw [val_main_v45_apply, val_main_v42_apply, val_main_v41_apply, h, gt_leaf]

private theorem ghi_x (x0 : S16x128x4.Idx → EReal) (r : Fin 2048) (q : Fin 8400) :
    val_main_v52 (F := Ideal) x0 (ix3 r q (0 : Fin 2)) = Cert.BoxSpec.gtRow x0 r 2 := by
  have h : idx_main_v48 (idx_main_v49 (idx_main_v52 (ix3 r q (0 : Fin 2)))) = ix2 r (2 : Fin 4) :=
    funext fun a => Fin.ext (by
      match a with
      | ⟨0, _⟩ => rfl
      | ⟨1, _⟩ => rfl)
  rw [val_main_v52_apply, val_main_v49_apply, val_main_v48_apply, h, gt_leaf]

private theorem ghi_y (x0 : S16x128x4.Idx → EReal) (r : Fin 2048) (q : Fin 8400) :
    val_main_v52 (F := Ideal) x0 (ix3 r q (1 : Fin 2)) = Cert.BoxSpec.gtRow x0 r 3 := by
  have h : idx_main_v48 (idx_main_v49 (idx_main_v52 (ix3 r q (1 : Fin 2)))) = ix2 r (3 : Fin 4) :=
    funext fun a => Fin.ext (by
      match a with
      | ⟨0, _⟩ => rfl
      | ⟨1, _⟩ => rfl)
  rw [val_main_v52_apply, val_main_v49_apply, val_main_v48_apply, h, gt_leaf]

private theorem alo_x (x2 : S8400x4.Idx → EReal) (r : Fin 2048) (q : Fin 8400) :
    val_main_v46 (F := Ideal) x2 (ix3 r q (0 : Fin 2)) = x2 (ix2 q (0 : Fin 4)) := by
  have h : idx_main_v43 (idx_main_v44 (idx_main_v46 (ix3 r q (0 : Fin 2)))) = ix2 q (0 : Fin 4) :=
    funext fun a => Fin.ext (by
      match a with
      | ⟨0, _⟩ => rfl
      | ⟨1, _⟩ => rfl)
  rw [val_main_v46_apply, val_main_v44_apply, val_main_v43_apply, h]

private theorem alo_y (x2 : S8400x4.Idx → EReal) (r : Fin 2048) (q : Fin 8400) :
    val_main_v46 (F := Ideal) x2 (ix3 r q (1 : Fin 2)) = x2 (ix2 q (1 : Fin 4)) := by
  have h : idx_main_v43 (idx_main_v44 (idx_main_v46 (ix3 r q (1 : Fin 2)))) = ix2 q (1 : Fin 4) :=
    funext fun a => Fin.ext (by
      match a with
      | ⟨0, _⟩ => rfl
      | ⟨1, _⟩ => rfl)
  rw [val_main_v46_apply, val_main_v44_apply, val_main_v43_apply, h]

private theorem ahi_x (x2 : S8400x4.Idx → EReal) (r : Fin 2048) (q : Fin 8400) :
    val_main_v53 (F := Ideal) x2 (ix3 r q (0 : Fin 2)) = x2 (ix2 q (2 : Fin 4)) := by
  have h : idx_main_v50 (idx_main_v51 (idx_main_v53 (ix3 r q (0 : Fin 2)))) = ix2 q (2 : Fin 4) :=
    funext fun a => Fin.ext (by
      match a with
      | ⟨0, _⟩ => rfl
      | ⟨1, _⟩ => rfl)
  rw [val_main_v53_apply, val_main_v51_apply, val_main_v50_apply, h]

private theorem ahi_y (x2 : S8400x4.Idx → EReal) (r : Fin 2048) (q : Fin 8400) :
    val_main_v53 (F := Ideal) x2 (ix3 r q (1 : Fin 2)) = x2 (ix2 q (3 : Fin 4)) := by
  have h : idx_main_v50 (idx_main_v51 (idx_main_v53 (ix3 r q (1 : Fin 2)))) = ix2 q (3 : Fin 4) :=
    funext fun a => Fin.ext (by
      match a with
      | ⟨0, _⟩ => rfl
      | ⟨1, _⟩ => rfl)
  rw [val_main_v53_apply, val_main_v51_apply, val_main_v50_apply, h]

/-! The same four spreads once more, as the enclosing box reads them. -/

private theorem glo_x' (x0 : S16x128x4.Idx → EReal) (r : Fin 2048) (q : Fin 8400) :
    val_main_v75 (F := Ideal) x0 (ix3 r q (0 : Fin 2)) = Cert.BoxSpec.gtRow x0 r 0 := by
  have h : idx_main_v71 (idx_main_v72 (idx_main_v75 (ix3 r q (0 : Fin 2)))) = ix2 r (0 : Fin 4) :=
    funext fun a => Fin.ext (by
      match a with
      | ⟨0, _⟩ => rfl
      | ⟨1, _⟩ => rfl)
  rw [val_main_v75_apply, val_main_v72_apply, val_main_v71_apply, h, gt_leaf]

private theorem glo_y' (x0 : S16x128x4.Idx → EReal) (r : Fin 2048) (q : Fin 8400) :
    val_main_v75 (F := Ideal) x0 (ix3 r q (1 : Fin 2)) = Cert.BoxSpec.gtRow x0 r 1 := by
  have h : idx_main_v71 (idx_main_v72 (idx_main_v75 (ix3 r q (1 : Fin 2)))) = ix2 r (1 : Fin 4) :=
    funext fun a => Fin.ext (by
      match a with
      | ⟨0, _⟩ => rfl
      | ⟨1, _⟩ => rfl)
  rw [val_main_v75_apply, val_main_v72_apply, val_main_v71_apply, h, gt_leaf]

private theorem ghi_x' (x0 : S16x128x4.Idx → EReal) (r : Fin 2048) (q : Fin 8400) :
    val_main_v82 (F := Ideal) x0 (ix3 r q (0 : Fin 2)) = Cert.BoxSpec.gtRow x0 r 2 := by
  have h : idx_main_v78 (idx_main_v79 (idx_main_v82 (ix3 r q (0 : Fin 2)))) = ix2 r (2 : Fin 4) :=
    funext fun a => Fin.ext (by
      match a with
      | ⟨0, _⟩ => rfl
      | ⟨1, _⟩ => rfl)
  rw [val_main_v82_apply, val_main_v79_apply, val_main_v78_apply, h, gt_leaf]

private theorem ghi_y' (x0 : S16x128x4.Idx → EReal) (r : Fin 2048) (q : Fin 8400) :
    val_main_v82 (F := Ideal) x0 (ix3 r q (1 : Fin 2)) = Cert.BoxSpec.gtRow x0 r 3 := by
  have h : idx_main_v78 (idx_main_v79 (idx_main_v82 (ix3 r q (1 : Fin 2)))) = ix2 r (3 : Fin 4) :=
    funext fun a => Fin.ext (by
      match a with
      | ⟨0, _⟩ => rfl
      | ⟨1, _⟩ => rfl)
  rw [val_main_v82_apply, val_main_v79_apply, val_main_v78_apply, h, gt_leaf]

private theorem alo_x' (x2 : S8400x4.Idx → EReal) (r : Fin 2048) (q : Fin 8400) :
    val_main_v76 (F := Ideal) x2 (ix3 r q (0 : Fin 2)) = x2 (ix2 q (0 : Fin 4)) := by
  have h : idx_main_v73 (idx_main_v74 (idx_main_v76 (ix3 r q (0 : Fin 2)))) = ix2 q (0 : Fin 4) :=
    funext fun a => Fin.ext (by
      match a with
      | ⟨0, _⟩ => rfl
      | ⟨1, _⟩ => rfl)
  rw [val_main_v76_apply, val_main_v74_apply, val_main_v73_apply, h]

private theorem alo_y' (x2 : S8400x4.Idx → EReal) (r : Fin 2048) (q : Fin 8400) :
    val_main_v76 (F := Ideal) x2 (ix3 r q (1 : Fin 2)) = x2 (ix2 q (1 : Fin 4)) := by
  have h : idx_main_v73 (idx_main_v74 (idx_main_v76 (ix3 r q (1 : Fin 2)))) = ix2 q (1 : Fin 4) :=
    funext fun a => Fin.ext (by
      match a with
      | ⟨0, _⟩ => rfl
      | ⟨1, _⟩ => rfl)
  rw [val_main_v76_apply, val_main_v74_apply, val_main_v73_apply, h]

private theorem ahi_x' (x2 : S8400x4.Idx → EReal) (r : Fin 2048) (q : Fin 8400) :
    val_main_v83 (F := Ideal) x2 (ix3 r q (0 : Fin 2)) = x2 (ix2 q (2 : Fin 4)) := by
  have h : idx_main_v80 (idx_main_v81 (idx_main_v83 (ix3 r q (0 : Fin 2)))) = ix2 q (2 : Fin 4) :=
    funext fun a => Fin.ext (by
      match a with
      | ⟨0, _⟩ => rfl
      | ⟨1, _⟩ => rfl)
  rw [val_main_v83_apply, val_main_v81_apply, val_main_v80_apply, h]

private theorem ahi_y' (x2 : S8400x4.Idx → EReal) (r : Fin 2048) (q : Fin 8400) :
    val_main_v83 (F := Ideal) x2 (ix3 r q (1 : Fin 2)) = x2 (ix2 q (3 : Fin 4)) := by
  have h : idx_main_v80 (idx_main_v81 (idx_main_v83 (ix3 r q (1 : Fin 2)))) = ix2 q (3 : Fin 4) :=
    funext fun a => Fin.ext (by
      match a with
      | ⟨0, _⟩ => rfl
      | ⟨1, _⟩ => rfl)
  rw [val_main_v83_apply, val_main_v81_apply, val_main_v80_apply, h]

/-! ## The intersection -/

/-- The overlap of the x ranges, cut off below at zero: the reference writes the cut as the maximum of the zero
    constant and the difference, the specification the other way round. -/
private theorem ov_x (x0 : S16x128x4.Idx → EReal) (x2 : S8400x4.Idx → EReal) (r : Fin 2048) (q : Fin 8400) :
    val_main_v56 (F := Ideal) x0 x2 (ix3 r q (0 : Fin 2))
      = max (min (Cert.BoxSpec.gtRow x0 r 2) (x2 (ix2 q (2 : Fin 4)))
            - max (Cert.BoxSpec.gtRow x0 r 0) (x2 (ix2 q (0 : Fin 4))))
          (Ideal.ofBits .f32 0x00000000#32) := by
  rw [val_main_v56_apply, val_main_call0_v1_apply, val_main_call0_v0_apply, val_main_cst_2_apply,
    val_main_v55_apply, val_main_v54_apply, val_main_v47_apply, ghi_x, ahi_x, glo_x, alo_x]
  simp only [Ideal.ofBits_def, Ideal.maximumf_def, Ideal.minimumf_def, Ideal.subf_def]
  exact max_comm _ _

/-- The overlap of the y ranges, cut off below at zero. -/
private theorem ov_y (x0 : S16x128x4.Idx → EReal) (x2 : S8400x4.Idx → EReal) (r : Fin 2048) (q : Fin 8400) :
    val_main_v56 (F := Ideal) x0 x2 (ix3 r q (1 : Fin 2))
      = max (min (Cert.BoxSpec.gtRow x0 r 3) (x2 (ix2 q (3 : Fin 4)))
            - max (Cert.BoxSpec.gtRow x0 r 1) (x2 (ix2 q (1 : Fin 4))))
          (Ideal.ofBits .f32 0x00000000#32) := by
  rw [val_main_v56_apply, val_main_call0_v1_apply, val_main_call0_v0_apply, val_main_cst_2_apply,
    val_main_v55_apply, val_main_v54_apply, val_main_v47_apply, ghi_y, ahi_y, glo_y, alo_y]
  simp only [Ideal.ofBits_def, Ideal.maximumf_def, Ideal.minimumf_def, Ideal.subf_def]
  exact max_comm _ _

/-- The x overlap as a matrix over (row, anchor). -/
private theorem ovm_x (x0 : S16x128x4.Idx → EReal) (x2 : S8400x4.Idx → EReal) (r : Fin 2048) (q : Fin 8400) :
    val_main_v58 (F := Ideal) x0 x2 (ix2 r q) = val_main_v56 (F := Ideal) x0 x2 (ix3 r q (0 : Fin 2)) := by
  have hq := q.isLt
  have h : idx_main_v57 (idx_main_v58 (ix2 r q)) = ix3 r q (0 : Fin 2) :=
    funext fun a => Fin.ext (by
      match a with
      | ⟨0, _⟩ => show (r.val * 8400 + q.val) / 8400 = r.val; omega
      | ⟨1, _⟩ => show (r.val * 8400 + q.val) / 1 % 8400 = q.val; omega
      | ⟨2, _⟩ => rfl)
  rw [val_main_v58_apply, val_main_v57_apply, h]

/-- The y overlap as a matrix over (row, anchor). -/
private theorem ovm_y (x0 : S16x128x4.Idx → EReal) (x2 : S8400x4.Idx → EReal) (r : Fin 2048) (q : Fin 8400) :
    val_main_v60 (F := Ideal) x0 x2 (ix2 r q) = val_main_v56 (F := Ideal) x0 x2 (ix3 r q (1 : Fin 2)) := by
  have hq := q.isLt
  have h : idx_main_v59 (idx_main_v60 (ix2 r q)) = ix3 r q (1 : Fin 2) :=
    funext fun a => Fin.ext (by
      match a with
      | ⟨0, _⟩ => show (r.val * 8400 + q.val) / 8400 = r.val; omega
      | ⟨1, _⟩ => show (r.val * 8400 + q.val) / 1 % 8400 = q.val; omega
      | ⟨2, _⟩ => rfl)
  rw [val_main_v60_apply, val_main_v59_apply, h]

/-- The intersection's area. -/
private theorem inter_eq (x0 : S16x128x4.Idx → EReal) (x2 : S8400x4.Idx → EReal) (r : Fin 2048) (q : Fin 8400) :
    val_main_v61 (F := Ideal) x0 x2 (ix2 r q)
      = Cert.BoxSpec.inter (Cert.BoxSpec.gtRow x0 r 0) (Cert.BoxSpec.gtRow x0 r 1) (Cert.BoxSpec.gtRow x0 r 2)
          (Cert.BoxSpec.gtRow x0 r 3) (x2 (ix2 q (0 : Fin 4))) (x2 (ix2 q (1 : Fin 4))) (x2 (ix2 q (2 : Fin 4)))
          (x2 (ix2 q (3 : Fin 4))) := by
  rw [val_main_v61_apply, ovm_x, ovm_y, ov_x, ov_y]
  rfl

/-! ## The union, kept above the small constant -/

private theorem union_eq (x0 : S16x128x4.Idx → EReal) (x2 : S8400x4.Idx → EReal) (r : Fin 2048) (q : Fin 8400) :
    val_main_v69 (F := Ideal) x0 x2 (ix2 r q)
      = Cert.BoxSpec.unionE (Cert.BoxSpec.gtRow x0 r 0) (Cert.BoxSpec.gtRow x0 r 1) (Cert.BoxSpec.gtRow x0 r 2)
          (Cert.BoxSpec.gtRow x0 r 3) (x2 (ix2 q (0 : Fin 4))) (x2 (ix2 q (1 : Fin 4))) (x2 (ix2 q (2 : Fin 4)))
          (x2 (ix2 q (3 : Fin 4))) := by
  rw [val_main_v69_apply, val_main_v68_apply, val_main_cst_3_apply, val_main_v67_apply, val_main_v66_apply,
    garea2, aarea2, inter_eq]
  rfl

/-! ## The enclosing box -/

/-- The x extent of the enclosing box, cut off below at zero. -/
private theorem ex_x (x0 : S16x128x4.Idx → EReal) (x2 : S8400x4.Idx → EReal) (r : Fin 2048) (q : Fin 8400) :
    val_main_v86 (F := Ideal) x0 x2 (ix3 r q (0 : Fin 2))
      = max (max (Cert.BoxSpec.gtRow x0 r 2) (x2 (ix2 q (2 : Fin 4)))
            - min (Cert.BoxSpec.gtRow x0 r 0) (x2 (ix2 q (0 : Fin 4))))
          (Ideal.ofBits .f32 0x00000000#32) := by
  rw [val_main_v86_apply, val_main_call1_v1_apply, val_main_call1_v0_apply, val_main_cst_4_apply,
    val_main_v85_apply, val_main_v84_apply, val_main_v77_apply, ghi_x', ahi_x', glo_x', alo_x']
  simp only [Ideal.ofBits_def, Ideal.maximumf_def, Ideal.minimumf_def, Ideal.subf_def]
  exact max_comm _ _

/-- The y extent of the enclosing box, cut off below at zero. -/
private theorem ex_y (x0 : S16x128x4.Idx → EReal) (x2 : S8400x4.Idx → EReal) (r : Fin 2048) (q : Fin 8400) :
    val_main_v86 (F := Ideal) x0 x2 (ix3 r q (1 : Fin 2))
      = max (max (Cert.BoxSpec.gtRow x0 r 3) (x2 (ix2 q (3 : Fin 4)))
            - min (Cert.BoxSpec.gtRow x0 r 1) (x2 (ix2 q (1 : Fin 4))))
          (Ideal.ofBits .f32 0x00000000#32) := by
  rw [val_main_v86_apply, val_main_call1_v1_apply, val_main_call1_v0_apply, val_main_cst_4_apply,
    val_main_v85_apply, val_main_v84_apply, val_main_v77_apply, ghi_y', ahi_y', glo_y', alo_y']
  simp only [Ideal.ofBits_def, Ideal.maximumf_def, Ideal.minimumf_def, Ideal.subf_def]
  exact max_comm _ _

private theorem exm_x (x0 : S16x128x4.Idx → EReal) (x2 : S8400x4.Idx → EReal) (r : Fin 2048) (q : Fin 8400) :
    val_main_v88 (F := Ideal) x0 x2 (ix2 r q) = val_main_v86 (F := Ideal) x0 x2 (ix3 r q (0 : Fin 2)) := by
  have hq := q.isLt
  have h : idx_main_v87 (idx_main_v88 (ix2 r q)) = ix3 r q (0 : Fin 2) :=
    funext fun a => Fin.ext (by
      match a with
      | ⟨0, _⟩ => show (r.val * 8400 + q.val) / 8400 = r.val; omega
      | ⟨1, _⟩ => show (r.val * 8400 + q.val) / 1 % 8400 = q.val; omega
      | ⟨2, _⟩ => rfl)
  rw [val_main_v88_apply, val_main_v87_apply, h]

private theorem exm_y (x0 : S16x128x4.Idx → EReal) (x2 : S8400x4.Idx → EReal) (r : Fin 2048) (q : Fin 8400) :
    val_main_v90 (F := Ideal) x0 x2 (ix2 r q) = val_main_v86 (F := Ideal) x0 x2 (ix3 r q (1 : Fin 2)) := by
  have hq := q.isLt
  have h : idx_main_v89 (idx_main_v90 (ix2 r q)) = ix3 r q (1 : Fin 2) :=
    funext fun a => Fin.ext (by
      match a with
      | ⟨0, _⟩ => show (r.val * 8400 + q.val) / 8400 = r.val; omega
      | ⟨1, _⟩ => show (r.val * 8400 + q.val) / 1 % 8400 = q.val; omega
      | ⟨2, _⟩ => rfl)
  rw [val_main_v90_apply, val_main_v89_apply, h]

/-- The enclosing box's area, kept above the small constant. -/
private theorem hull_eq (x0 : S16x128x4.Idx → EReal) (x2 : S8400x4.Idx → EReal) (r : Fin 2048) (q : Fin 8400) :
    val_main_v93 (F := Ideal) x0 x2 (ix2 r q)
      = Cert.BoxSpec.hullE (Cert.BoxSpec.gtRow x0 r 0) (Cert.BoxSpec.gtRow x0 r 1) (Cert.BoxSpec.gtRow x0 r 2)
          (Cert.BoxSpec.gtRow x0 r 3) (x2 (ix2 q (0 : Fin 4))) (x2 (ix2 q (1 : Fin 4))) (x2 (ix2 q (2 : Fin 4)))
          (x2 (ix2 q (3 : Fin 4))) := by
  rw [val_main_v93_apply, val_main_v92_apply, val_main_cst_5_apply, val_main_v91_apply, exm_x, exm_y, ex_x, ex_y]
  rfl

/-! ## The result -/

theorem giou_eq (x0 : S16x128x4.Idx → EReal) (x2 : S8400x4.Idx → EReal) :
    val_main_v96 (F := Ideal) x0 x2 = Cert.BoxSpec.giouArr x0 x2 := by
  refine Cert.BoxSpec.ext2 _ _ fun r q => ?_
  show val_main_v96 (F := Ideal) x0 x2 (ix2 r q) = Cert.BoxSpec.giouA x0 x2 r q
  rw [val_main_v96_apply, val_main_v70_apply, val_main_v95_apply, val_main_v94_apply, inter_eq, union_eq, hull_eq]
  rfl

end Cert.ReferenceIdeal.RefValue

end
-- ==== Proof.RefIou.lean ====
/-
  The reference's result `iouArr`, read one operation at a time at the ideal instance.
-/
import proofs.«106192_j66511863546259_1_alg».proof.Proof.RefRead
import proofs.«106192_j66511863546259_1_alg».proof.Proof.BoxSpec
import Idealize.ShloMosaic.Lib.ValueIdx

set_option maxRecDepth 16384

noncomputable section

namespace Cert.ReferenceIdeal.RefValue

open Idealize.ShloMosaic Idealize.ShloMosaic.TcCoe Idealize.ShloMosaic.ValueIdx
open Cert.ReferenceIdeal Cert.ReferenceIdeal.ReadP

/-! ## The corner pairs of a ground-truth box and of a predicted box, side by side over (image, box, prediction) -/

/-- The low corner (x1, y1) of ground-truth box p of image b, repeated along the predictions' axis. -/
private theorem iou_gt_lo (x0 : S16x128x4.Idx → EReal) (b : Fin 16) (p : Fin 128) (q : Fin 8400) (k : Fin 2) :
    val_main_v101 (F := Ideal) x0 (ix4 b p q k)
      = x0 (ix3 b p (⟨k.val, by have := k.isLt; omega⟩ : Fin 4)) := by
  rw [val_main_v101_apply, val_main_v99_apply, val_main_v97_apply]
  exact congrArg x0 (funext fun a => by match a with | ⟨0, _⟩ => rfl | ⟨1, _⟩ => rfl | ⟨2, _⟩ => rfl)

/-- The high corner (x2, y2) of the same box. -/
private theorem iou_gt_hi (x0 : S16x128x4.Idx → EReal) (b : Fin 16) (p : Fin 128) (q : Fin 8400) (k : Fin 2) :
    val_main_v106 (F := Ideal) x0 (ix4 b p q k)
      = x0 (ix3 b p (⟨2 + k.val, by have := k.isLt; omega⟩ : Fin 4)) := by
  rw [val_main_v106_apply, val_main_v104_apply, val_main_v97_apply]
  exact congrArg x0 (funext fun a => by match a with | ⟨0, _⟩ => rfl | ⟨1, _⟩ => rfl | ⟨2, _⟩ => rfl)

/-- The low corner of prediction q of image b, repeated along the boxes' axis. -/
private theorem iou_pr_lo (x1 : S16x8400x4.Idx → EReal) (b : Fin 16) (p : Fin 128) (q : Fin 8400) (k : Fin 2) :
    val_main_v102 (F := Ideal) x1 (ix4 b p q k)
      = x1 (ix3 b q (⟨k.val, by have := k.isLt; omega⟩ : Fin 4)) := by
  rw [val_main_v102_apply, val_main_v100_apply, val_main_v98_apply]
  exact congrArg x1 (funext fun a => by match a with | ⟨0, _⟩ => rfl | ⟨1, _⟩ => rfl | ⟨2, _⟩ => rfl)

/-- The high corner of the same prediction. -/
private theorem iou_pr_hi (x1 : S16x8400x4.Idx → EReal) (b : Fin 16) (p : Fin 128) (q : Fin 8400) (k : Fin 2) :
    val_main_v107 (F := Ideal) x1 (ix4 b p q k)
      = x1 (ix3 b q (⟨2 + k.val, by have := k.isLt; omega⟩ : Fin 4)) := by
  rw [val_main_v107_apply, val_main_v105_apply, val_main_v98_apply]
  exact congrArg x1 (funext fun a => by match a with | ⟨0, _⟩ => rfl | ⟨1, _⟩ => rfl | ⟨2, _⟩ => rfl)

/-! ## The overlap of the two ranges along one axis, and the intersection's area -/

/-- Along axis k the overlap is the smaller high end less the larger low end, cut off below at zero (the
    program writes the maximum with the zero first). -/
private theorem iou_overlap (x0 : S16x128x4.Idx → EReal) (x1 : S16x8400x4.Idx → EReal)
    (b : Fin 16) (p : Fin 128) (q : Fin 8400) (k : Fin 2) :
    val_main_v110 (F := Ideal) x0 x1 (ix4 b p q k)
      = max (min (x0 (ix3 b p (⟨2 + k.val, by have := k.isLt; omega⟩ : Fin 4)))
                 (x1 (ix3 b q (⟨2 + k.val, by have := k.isLt; omega⟩ : Fin 4)))
              - max (x0 (ix3 b p (⟨k.val, by have := k.isLt; omega⟩ : Fin 4)))
                    (x1 (ix3 b q (⟨k.val, by have := k.isLt; omega⟩ : Fin 4))))
            (Ideal.ofBits .f32 0x00000000#32) := by
  rw [val_main_v110_apply, val_main_call2_v1_apply, val_main_call2_v0_apply, val_main_cst_6_apply,
    val_main_v109_apply, val_main_v108_apply, val_main_v103_apply, iou_gt_lo, iou_gt_hi, iou_pr_lo, iou_pr_hi]
  simp only [Ideal.maximumf_def, Ideal.minimumf_def, Ideal.subf_def, Ideal.ofBits_def]
  exact max_comm _ _

/-- The x overlap, its unit axis dropped: the flat position ((b * 128 + p) * 8400 + q) * 1 + 0 read back. -/
private theorem iou_overlap_x (x0 : S16x128x4.Idx → EReal) (x1 : S16x8400x4.Idx → EReal)
    (b : Fin 16) (p : Fin 128) (q : Fin 8400) :
    val_main_v112 (F := Ideal) x0 x1 (ix3 b p q) = val_main_v110 (F := Ideal) x0 x1 (ix4 b p q (0 : Fin 2)) := by
  rw [val_main_v112_apply, val_main_v111_apply]
  refine congrArg (val_main_v110 (F := Ideal) x0 x1) (funext fun a => Fin.ext ?_)
  have hb := b.isLt
  have hp := p.isLt
  have hq := q.isLt
  match a with
  | ⟨0, _⟩ => show ((b.val * 128 + p.val) * 8400 + q.val) / 1075200 = b.val; omega
  | ⟨1, _⟩ => show ((b.val * 128 + p.val) * 8400 + q.val) / 8400 % 128 = p.val; omega
  | ⟨2, _⟩ => show ((b.val * 128 + p.val) * 8400 + q.val) / 1 % 8400 = q.val; omega
  | ⟨3, _⟩ => rfl

/-- The y overlap, likewise. -/
private theorem iou_overlap_y (x0 : S16x128x4.Idx → EReal) (x1 : S16x8400x4.Idx → EReal)
    (b : Fin 16) (p : Fin 128) (q : Fin 8400) :
    val_main_v114 (F := Ideal) x0 x1 (ix3 b p q) = val_main_v110 (F := Ideal) x0 x1 (ix4 b p q (1 : Fin 2)) := by
  rw [val_main_v114_apply, val_main_v113_apply]
  refine congrArg (val_main_v110 (F := Ideal) x0 x1) (funext fun a => Fin.ext ?_)
  have hb := b.isLt
  have hp := p.isLt
  have hq := q.isLt
  match a with
  | ⟨0, _⟩ => show ((b.val * 128 + p.val) * 8400 + q.val) / 1075200 = b.val; omega
  | ⟨1, _⟩ => show ((b.val * 128 + p.val) * 8400 + q.val) / 8400 % 128 = p.val; omega
  | ⟨2, _⟩ => show ((b.val * 128 + p.val) * 8400 + q.val) / 1 % 8400 = q.val; omega
  | ⟨3, _⟩ => rfl

/-! ## The two boxes' own areas -/

/-- Coordinate c of ground-truth box p of image b, read through the column slice that starts at c and the
    reshape that drops the slice's unit axis. The four columns are four stages of the program; each is this
    statement with its own c. -/
private theorem iou_gt_col2 (x0 : S16x128x4.Idx → EReal) (b : Fin 16) (p : Fin 128) (z : Fin 1) :
    val_main_v117 (F := Ideal) x0 (ix3 b p z) = x0 (ix3 b p (2 : Fin 4)) := by
  rw [val_main_v117_apply, val_main_v116_apply, val_main_v97_apply]
  refine congrArg x0 (funext fun a => Fin.ext ?_)
  have hb := b.isLt
  have hp := p.isLt
  have hz := z.isLt
  match a with
  | ⟨0, _⟩ => show ((b.val * 128 + p.val) * 1 + z.val) / 128 = b.val; omega
  | ⟨1, _⟩ => show ((b.val * 128 + p.val) * 1 + z.val) / 1 % 128 = p.val; omega
  | ⟨2, _⟩ => rfl

private theorem iou_gt_col0 (x0 : S16x128x4.Idx → EReal) (b : Fin 16) (p : Fin 128) (z : Fin 1) :
    val_main_v119 (F := Ideal) x0 (ix3 b p z) = x0 (ix3 b p (0 : Fin 4)) := by
  rw [val_main_v119_apply, val_main_v118_apply, val_main_v97_apply]
  refine congrArg x0 (funext fun a => Fin.ext ?_)
  have hb := b.isLt
  have hp := p.isLt
  have hz := z.isLt
  match a with
  | ⟨0, _⟩ => show ((b.val * 128 + p.val) * 1 + z.val) / 128 = b.val; omega
  | ⟨1, _⟩ => show ((b.val * 128 + p.val) * 1 + z.val) / 1 % 128 = p.val; omega
  | ⟨2, _⟩ => rfl

private theorem iou_gt_col3 (x0 : S16x128x4.Idx → EReal) (b : Fin 16) (p : Fin 128) (z : Fin 1) :
    val_main_v122 (F := Ideal) x0 (ix3 b p z) = x0 (ix3 b p (3 : Fin 4)) := by
  rw [val_main_v122_apply, val_main_v121_apply, val_main_v97_apply]
  refine congrArg x0 (funext fun a => Fin.ext ?_)
  have hb := b.isLt
  have hp := p.isLt
  have hz := z.isLt
  match a with
  | ⟨0, _⟩ => show ((b.val * 128 + p.val) * 1 + z.val) / 128 = b.val; omega
  | ⟨1, _⟩ => show ((b.val * 128 + p.val) * 1 + z.val) / 1 % 128 = p.val; omega
  | ⟨2, _⟩ => rfl

private theorem iou_gt_col1 (x0 : S16x128x4.Idx → EReal) (b : Fin 16) (p : Fin 128) (z : Fin 1) :
    val_main_v124 (F := Ideal) x0 (ix3 b p z) = x0 (ix3 b p (1 : Fin 4)) := by
  rw [val_main_v124_apply, val_main_v123_apply, val_main_v97_apply]
  refine congrArg x0 (funext fun a => Fin.ext ?_)
  have hb := b.isLt
  have hp := p.isLt
  have hz := z.isLt
  match a with
  | ⟨0, _⟩ => show ((b.val * 128 + p.val) * 1 + z.val) / 128 = b.val; omega
  | ⟨1, _⟩ => show ((b.val * 128 + p.val) * 1 + z.val) / 1 % 128 = p.val; omega
  | ⟨2, _⟩ => rfl

/-- The area of ground-truth box p of image b: width times height. -/
private theorem iou_gt_area (x0 : S16x128x4.Idx → EReal) (b : Fin 16) (p : Fin 128) (z : Fin 1) :
    val_main_v126 (F := Ideal) x0 (ix3 b p z)
      = (x0 (ix3 b p (2 : Fin 4)) - x0 (ix3 b p (0 : Fin 4)))
        * (x0 (ix3 b p (3 : Fin 4)) - x0 (ix3 b p (1 : Fin 4))) := by
  rw [val_main_v126_apply, val_main_v120_apply, val_main_v125_apply,
    iou_gt_col2, iou_gt_col0, iou_gt_col3, iou_gt_col1]
  simp only [Ideal.mulf_def, Ideal.subf_def]

/-- Coordinate c of prediction q of image b, through its column slice and reshape. -/
private theorem iou_pr_col2 (x1 : S16x8400x4.Idx → EReal) (b : Fin 16) (z : Fin 1) (q : Fin 8400) :
    val_main_v128 (F := Ideal) x1 (ix3 b z q) = x1 (ix3 b q (2 : Fin 4)) := by
  rw [val_main_v128_apply, val_main_v127_apply, val_main_v98_apply]
  refine congrArg x1 (funext fun a => Fin.ext ?_)
  have hb := b.isLt
  have hq := q.isLt
  have hz := z.isLt
  match a with
  | ⟨0, _⟩ => show ((b.val * 1 + z.val) * 8400 + q.val) / 8400 = b.val; omega
  | ⟨1, _⟩ => show ((b.val * 1 + z.val) * 8400 + q.val) / 1 % 8400 = q.val; omega
  | ⟨2, _⟩ => rfl

private theorem iou_pr_col0 (x1 : S16x8400x4.Idx → EReal) (b : Fin 16) (z : Fin 1) (q : Fin 8400) :
    val_main_v130 (F := Ideal) x1 (ix3 b z q) = x1 (ix3 b q (0 : Fin 4)) := by
  rw [val_main_v130_apply, val_main_v129_apply, val_main_v98_apply]
  refine congrArg x1 (funext fun a => Fin.ext ?_)
  have hb := b.isLt
  have hq := q.isLt
  have hz := z.isLt
  match a with
  | ⟨0, _⟩ => show ((b.val * 1 + z.val) * 8400 + q.val) / 8400 = b.val; omega
  | ⟨1, _⟩ => show ((b.val * 1 + z.val) * 8400 + q.val) / 1 % 8400 = q.val; omega
  | ⟨2, _⟩ => rfl

private theorem iou_pr_col3 (x1 : S16x8400x4.Idx → EReal) (b : Fin 16) (z : Fin 1) (q : Fin 8400) :
    val_main_v133 (F := Ideal) x1 (ix3 b z q) = x1 (ix3 b q (3 : Fin 4)) := by
  rw [val_main_v133_apply, val_main_v132_apply, val_main_v98_apply]
  refine congrArg x1 (funext fun a => Fin.ext ?_)
  have hb := b.isLt
  have hq := q.isLt
  have hz := z.isLt
  match a with
  | ⟨0, _⟩ => show ((b.val * 1 + z.val) * 8400 + q.val) / 8400 = b.val; omega
  | ⟨1, _⟩ => show ((b.val * 1 + z.val) * 8400 + q.val) / 1 % 8400 = q.val; omega
  | ⟨2, _⟩ => rfl

private theorem iou_pr_col1 (x1 : S16x8400x4.Idx → EReal) (b : Fin 16) (z : Fin 1) (q : Fin 8400) :
    val_main_v135 (F := Ideal) x1 (ix3 b z q) = x1 (ix3 b q (1 : Fin 4)) := by
  rw [val_main_v135_apply, val_main_v134_apply, val_main_v98_apply]
  refine congrArg x1 (funext fun a => Fin.ext ?_)
  have hb := b.isLt
  have hq := q.isLt
  have hz := z.isLt
  match a with
  | ⟨0, _⟩ => show ((b.val * 1 + z.val) * 8400 + q.val) / 8400 = b.val; omega
  | ⟨1, _⟩ => show ((b.val * 1 + z.val) * 8400 + q.val) / 1 % 8400 = q.val; omega
  | ⟨2, _⟩ => rfl

/-- The area of prediction q of image b. -/
private theorem iou_pr_area (x1 : S16x8400x4.Idx → EReal) (b : Fin 16) (z : Fin 1) (q : Fin 8400) :
    val_main_v137 (F := Ideal) x1 (ix3 b z q)
      = (x1 (ix3 b q (2 : Fin 4)) - x1 (ix3 b q (0 : Fin 4)))
        * (x1 (ix3 b q (3 : Fin 4)) - x1 (ix3 b q (1 : Fin 4))) := by
  rw [val_main_v137_apply, val_main_v131_apply, val_main_v136_apply,
    iou_pr_col2, iou_pr_col0, iou_pr_col3, iou_pr_col1]
  simp only [Ideal.mulf_def, Ideal.subf_def]

/-- The ground-truth areas repeated along the predictions' axis. -/
private theorem iou_gt_area_bc (x0 : S16x128x4.Idx → EReal) (b : Fin 16) (p : Fin 128) (q : Fin 8400) :
    val_main_v138 (F := Ideal) x0 (ix3 b p q) = val_main_v126 (F := Ideal) x0 (ix3 b p (0 : Fin 1)) := by
  rw [val_main_v138_apply]
  exact congrArg (val_main_v126 (F := Ideal) x0)
    (funext fun a => by match a with | ⟨0, _⟩ => rfl | ⟨1, _⟩ => rfl | ⟨2, _⟩ => rfl)

/-- The predictions' areas repeated along the boxes' axis. -/
private theorem iou_pr_area_bc (x1 : S16x8400x4.Idx → EReal) (b : Fin 16) (p : Fin 128) (q : Fin 8400) :
    val_main_v139 (F := Ideal) x1 (ix3 b p q) = val_main_v137 (F := Ideal) x1 (ix3 b (0 : Fin 1) q) := by
  rw [val_main_v139_apply]
  exact congrArg (val_main_v137 (F := Ideal) x1)
    (funext fun a => by match a with | ⟨0, _⟩ => rfl | ⟨1, _⟩ => rfl | ⟨2, _⟩ => rfl)

/-! ## The result -/

theorem iou_eq (x0 : S16x128x4.Idx → EReal) (x1 : S16x8400x4.Idx → EReal) :
    val_main_v144 (F := Ideal) x0 x1 = Cert.BoxSpec.iouArr x0 x1 := by
  refine Cert.BoxSpec.ext3 _ _ fun b p q => ?_
  rw [val_main_v144_apply, val_main_v143_apply, val_main_v142_apply, val_main_cst_7_apply, val_main_v141_apply,
    val_main_v140_apply, val_main_v115_apply, iou_overlap_x, iou_overlap_y, iou_overlap, iou_overlap,
    iou_gt_area_bc, iou_pr_area_bc, iou_gt_area, iou_pr_area]
  simp only [Ideal.hostDivf_def, Ideal.addf_def, Ideal.subf_def, Ideal.mulf_def, Ideal.ofBits_def]
  rfl

end Cert.ReferenceIdeal.RefValue

end
-- ==== Proof.lean ====
/-
  The certificate of the box-geometry program against its plain reference, over the extended reals.

  The program computes, for 16 images with 128 ground-truth boxes each, 8400 anchor boxes and 8400 predicted boxes per
  image: the distance between the centres of every (ground-truth, anchor) pair, the generalised intersection-over-union
  of the same pairs, and the intersection-over-union of every ground-truth box with every prediction of its image.
  The kernel does so in two tiled regions over re-laid copies of the arguments (the ground-truth boxes flattened to 2048
  rows; anchors and predictions transposed so that the long axis is last); the reference does so with broadcasts,
  slices and a sum over the coordinate axis. Every result element is one scalar function of the eight corner coordinates
  of its two boxes (Proof/BoxSpec.lean), and the two programs differ only in spelling: halving by a product with 1/2
  against a quotient by 2, the order of the operands of one maximum, a two-term sum started from zero. None of these
  needs the arguments finite, so the precondition is not opened.

  The kernel's run with its results named is Proof/KernelRun.lean; the values its two regions leave are
  Proof/Region0.lean and Proof/Region1.lean; the re-laid arrays read back to the arguments are Proof/KernelHost.lean. The
  reference's run, with each result at its stage, is Proof/RefRun.lean (over the operation lists of Proof/RefOps.lean
  and the stages of Proof/RefRead.lean); its three results, read one operation at a time, are Proof/RefDist.lean,
  Proof/RefGiou.lean and Proof/RefIou.lean.
-/
import proofs.«106192_j66511863546259_1_alg».proof.Defs
import proofs.«106192_j66511863546259_1_alg».proof.Proof.Gen.Kernel
import proofs.«106192_j66511863546259_1_alg».proof.Proof.Gen.Kernel.Skeleton
import proofs.«106192_j66511863546259_1_alg».proof.Proof.Gen.Kernel.Launch
import proofs.«106192_j66511863546259_1_alg».proof.Proof.Gen.Kernel.Points
import proofs.«106192_j66511863546259_1_alg».proof.Proof.Gen.Kernel.Frame
import proofs.«106192_j66511863546259_1_alg».proof.Proof.Gen.KernelIdeal
import proofs.«106192_j66511863546259_1_alg».proof.Proof.Gen.KernelIdeal.Skeleton
import proofs.«106192_j66511863546259_1_alg».proof.Proof.Gen.KernelIdeal.Launch
import proofs.«106192_j66511863546259_1_alg».proof.Proof.Gen.KernelIdeal.Points
import proofs.«106192_j66511863546259_1_alg».proof.Proof.Gen.KernelIdeal.Frame
import proofs.«106192_j66511863546259_1_alg».proof.Proof.Gen.ReferenceIdeal
import proofs.«106192_j66511863546259_1_alg».proof.Proof.Gen.Pre_finite_inputs
import proofs.«106192_j66511863546259_1_alg».proof.Proof.BoxSpec
import proofs.«106192_j66511863546259_1_alg».proof.Proof.KernelRun
import proofs.«106192_j66511863546259_1_alg».proof.Proof.KernelHost
import proofs.«106192_j66511863546259_1_alg».proof.Proof.Region0
import proofs.«106192_j66511863546259_1_alg».proof.Proof.Region1
import proofs.«106192_j66511863546259_1_alg».proof.Proof.RefRead
import proofs.«106192_j66511863546259_1_alg».proof.Proof.RefOps
import proofs.«106192_j66511863546259_1_alg».proof.Proof.RefRun
import proofs.«106192_j66511863546259_1_alg».proof.Proof.RefDist
import proofs.«106192_j66511863546259_1_alg».proof.Proof.RefGiou
import proofs.«106192_j66511863546259_1_alg».proof.Proof.RefIou
import Idealize.ShloMosaic.Adequacy
import Idealize.ShloMosaic.Init

set_option maxRecDepth 16384

noncomputable section

namespace Cert.Proof

open Idealize.ShloMosaic Idealize.SL.Sem

/-- The kernel's three results, at the ideal instance, as the specification's functions of the arguments: each read at
    the last segment boundary, traced back to the region that wrote it, that region's blocks assembled, and the
    re-laid inputs read back to the arguments. -/
theorem kernel_values (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v2_0)
        = Cert.BoxSpec.distArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2))
    ∧ Cert.KernelIdeal.Gen.W4 m ρ c (Proc.devRef .tc Cert.KernelIdeal.main_v4)
        = Cert.BoxSpec.iouArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1))
    ∧ Cert.KernelIdeal.Gen.W4 m ρ c (Proc.devRef .tc Cert.KernelIdeal.main_v2_1)
        = Cert.BoxSpec.giouArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2)) := by
  refine ⟨?_, ?_, ?_⟩
  · rw [Cert.KernelIdeal.HostSide.W4_dist, Cert.KernelIdeal.Reg0.final_dist, Cert.KernelIdeal.HostSide.V1_v0,
      Cert.KernelIdeal.HostSide.V1_v1, Cert.KernelIdeal.HostSide.dist_relaid]
  · rw [Cert.KernelIdeal.HostSide.W4_iou, Cert.KernelIdeal.Reg1.final_iou, Cert.KernelIdeal.HostSide.V3_arg0,
      Cert.KernelIdeal.HostSide.V3_v3, Cert.KernelIdeal.HostSide.iou_relaid]
  · rw [Cert.KernelIdeal.HostSide.W4_giou, Cert.KernelIdeal.Reg0.final_giou, Cert.KernelIdeal.HostSide.V1_v0,
      Cert.KernelIdeal.HostSide.V1_v1, Cert.KernelIdeal.HostSide.giou_relaid]

/-- The two idealized programs, from memories that agree on the arguments, end with the same three arrays: the
    specification's, of the kernel's arguments. -/
theorem algebraic : Cert.algebraic_KernelIdeal_ReferenceIdeal := by
  intro m ρ m' ρ' _ hagree
  refine ⟨fun c => Cert.BoxSpec.distArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2)),
    fun c => Cert.BoxSpec.iouArr (m ((c.tc : Thread Cert.KernelIdeal.nD Cert.KernelIdeal.τ).loc Cert.KernelIdeal.main_arg0))
            (m ((c.tc : Thread Cert.KernelIdeal.nD Cert.KernelIdeal.τ).loc Cert.KernelIdeal.main_arg1)),
    fun c => Cert.BoxSpec.giouArr (m ((c.tc : Thread Cert.KernelIdeal.nD Cert.KernelIdeal.τ).loc Cert.KernelIdeal.main_arg0))
            (m ((c.tc : Thread Cert.KernelIdeal.nD Cert.KernelIdeal.τ).loc Cert.KernelIdeal.main_arg2)), ?_, ?_⟩
  · refine (θ_run Cert.KernelIdeal.defs _ _).mono (fun r h c => ?_) (Cert.KernelIdeal.ValueRun.run_W4 (F := Ideal) m ρ)
    obtain ⟨h0, h1, h2, ha⟩ := h c
    obtain ⟨e0, e1, e2⟩ := kernel_values m ρ c
    exact ⟨h0.trans e0, h1.trans e1, h2.trans e2, ha⟩
  · refine (θ_run Cert.ReferenceIdeal.defs _ _).mono (fun r h c => ?_) (Cert.ReferenceIdeal.RefRun.run (F := Ideal) m' ρ')
    obtain ⟨h0, h1, h2, ha⟩ := h c
    obtain ⟨a0, a1, a2⟩ := hagree c
    refine ⟨h0.trans ?_, h1.trans ?_, h2.trans ?_, ha⟩
    · rw [a0, a2]
      exact Cert.ReferenceIdeal.RefValue.dist_eq _ _
    · rw [a0, a1]
      exact Cert.ReferenceIdeal.RefValue.iou_eq _ _
    · rw [a0, a2]
      exact Cert.ReferenceIdeal.RefValue.giou_eq _ _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2.2)
    (Cert.ReferenceIdeal.RefRun.run (F := Ideal) m ρ),
  trivial,
  algebraic⟩

end Cert.Proof

end
